-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v74_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v74_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S128x3 : Shape := ⟨2, ![128, 3]⟩
abbrev S250000x3 : Shape := ⟨2, ![250000, 3]⟩
abbrev S128x1 : Shape := ⟨2, ![128, 1]⟩
abbrev S3x250000 : Shape := ⟨2, ![3, 250000]⟩
abbrev S1x250000 : Shape := ⟨2, ![1, 250000]⟩
abbrev S128x250000 : Shape := ⟨2, ![128, 250000]⟩

class Facts : Prop where
  reducesTo_S_S_d : S_.ReducesTo [] S_
  h_S_ : 0 < S_.numel
  bcast_S_S128x3 : S_.BroadcastsInDim S128x3 (![] : Fin 0 → Fin S128x3.rank)
  reducesTo_S128x3_S_d0_1 : S128x3.ReducesTo [0, 1] S_
  bcast_S_S250000x3 : S_.BroadcastsInDim S250000x3 (![] : Fin 0 → Fin S250000x3.rank)
  reducesTo_S250000x3_S_d0_1 : S250000x3.ReducesTo [0, 1] S_
  slices_S128x3_S128x1_0_0 : S128x3.Slices ![0, 0] S128x1
  slices_S128x3_S128x1_0_1 : S128x3.Slices ![0, 1] S128x1
  slices_S128x3_S128x1_0_2 : S128x3.Slices ![0, 2] S128x1
  transposes_S250000x3_S3x250000_1_0 : S250000x3.Transposes [1, 0] S3x250000
  slices_S3x250000_S1x250000_0_0 : S3x250000.Slices ![0, 0] S1x250000
  slices_S3x250000_S1x250000_1_0 : S3x250000.Slices ![1, 0] S1x250000
  slices_S3x250000_S1x250000_2_0 : S3x250000.Slices ![2, 0] S1x250000
  bcast_S128x1_S128x250000_0_1 : S128x1.BroadcastsInDim S128x250000 (![0, 1] : Fin 2 → Fin S128x250000.rank)
  bcast_S1x250000_S128x250000_0_1 : S1x250000.BroadcastsInDim S128x250000 (![0, 1] : Fin 2 → Fin S128x250000.rank)
  bcast_S_S128x250000 : S_.BroadcastsInDim S128x250000 (![] : Fin 0 → Fin S128x250000.rank)
  reducesTo_S128x250000_S_d0_1 : S128x250000.ReducesTo [0, 1] S_

variable [Facts]

def fn_part2 {F : FTy → Type} [FloatOps F] (main_arg2 : FVec F S128x3 .f32) (main_v17 : IVec S_ 1) (main_v21 : FVec F S128x1 .f32) (main_v23 : FVec F S128x1 .f32) (main_v26 : FVec F S128x1 .f32) (main_v29 : FVec F S1x250000 .f32) (main_v30 : FVec F S1x250000 .f32) (main_v37 : FVec F S128x250000 .f32) (main_v38 : FVec F S128x1 .f32) (main_v39 : FVec F S128x1 .f32) : IVec S_ 1 :=
  let main_v40 : FVec F S128x1 .f32 := mulf main_v39 main_v26
  let main_v41 : FVec F S128x1 .f32 := addf main_v38 main_v40
  let main_v42 : FVec F S128x250000 .f32 := broadcastInDim S128x250000 ![0, 1] bcast_S128x1_S128x250000_0_1 main_v41
  let main_v43 : FVec F S128x250000 .f32 := broadcastInDim S128x250000 ![0, 1] bcast_S1x250000_S128x250000_0_1 main_v29
  let main_v44 : FVec F S128x250000 .f32 := mulf main_v42 main_v43
  let main_v45 : FVec F S128x250000 .f32 := addf main_v37 main_v44
  let main_v46 : FVec F S128x1 .f32 := mulf main_v21 main_v23
  let main_v47 : FVec F S128x250000 .f32 := broadcastInDim S128x250000 ![0, 1] bcast_S128x1_S128x250000_0_1 main_v46
  let main_v48 : FVec F S128x250000 .f32 := broadcastInDim S128x250000 ![0, 1] bcast_S1x250000_S128x250000_0_1 main_v30
  let main_v49 : FVec F S128x250000 .f32 := mulf main_v47 main_v48
  let main_v50 : FVec F S128x250000 .f32 := addf main_v45 main_v49
  let main_v51 : FVec F S128x1 .f32 := (extractStridedSlice S128x1 ![0, 2] · slices_S128x3_S128x1_0_2) main_arg2
  let main_v52 : FVec F S128x250000 .f32 := broadcastInDim S128x250000 ![0, 1] bcast_S128x1_S128x250000_0_1 main_v51
  let main_v53 : FVec F S128x250000 .f32 := addf main_v50 main_v52
  let main_cst_6 : FVec F S_ .f32 := constant S_ .f32 0x00000000#32
  let main_v54 : FVec F S128x250000 .f32 := broadcastInDim S128x250000 ![] bcast_S_S128x250000 main_cst_6
  let main_v55 : IVec S128x250000 1 := cmpf .une main_v53 main_v54
  let main_c_7 : IVec S_ 1 := constantI S_ 1 1#1
  let main_v56 : IVec S_ 1 := (fun x v => Host.reduce IntOp.andi x v reducesTo_S128x250000_S_d0_1 h_S_) main_v55 main_c_7
  let main_v57 : IVec S_ 1 := andi main_v17 main_v56
  main_v57

def fn_part1 {F : FTy → Type} [FloatOps F] (main_arg1 : FVec F S128x3 .f32) (main_arg2 : FVec F S128x3 .f32) (main_arg3 : FVec F S250000x3 .f32) (main_v12 : IVec S_ 1) (main_v15 : IVec S250000x3 1) (main_c_5 : IVec S_ 1) : IVec S_ 1 :=
  let main_v16 : IVec S_ 1 := (fun x v => Host.reduce IntOp.andi x v reducesTo_S250000x3_S_d0_1 h_S_) main_v15 main_c_5
  let main_v17 : IVec S_ 1 := andi main_v12 main_v16
  let main_v18 : FVec F S128x1 .f32 := (extractStridedSlice S128x1 ![0, 0] · slices_S128x3_S128x1_0_0) main_arg1
  let main_v19 : FVec F S128x1 .f32 := (extractStridedSlice S128x1 ![0, 1] · slices_S128x3_S128x1_0_1) main_arg1
  let main_v20 : FVec F S128x1 .f32 := (extractStridedSlice S128x1 ![0, 2] · slices_S128x3_S128x1_0_2) main_arg1
  let main_v21 : FVec F S128x1 .f32 := Host.cos main_v18
  let main_v22 : FVec F S128x1 .f32 := Host.sin main_v18
  let main_v23 : FVec F S128x1 .f32 := Host.cos main_v19
  let main_v24 : FVec F S128x1 .f32 := Host.sin main_v19
  let main_v25 : FVec F S128x1 .f32 := Host.cos main_v20
  let main_v26 : FVec F S128x1 .f32 := Host.sin main_v20
  let main_v27 : FVec F S3x250000 .f32 := (transpose S3x250000 [1, 0] · transposes_S250000x3_S3x250000_1_0) main_arg3
  let main_v28 : FVec F S1x250000 .f32 := (extractStridedSlice S1x250000 ![0, 0] · slices_S3x250000_S1x250000_0_0) main_v27
  let main_v29 : FVec F S1x250000 .f32 := (extractStridedSlice S1x250000 ![1, 0] · slices_S3x250000_S1x250000_1_0) main_v27
  let main_v30 : FVec F S1x250000 .f32 := (extractStridedSlice S1x250000 ![2, 0] · slices_S3x250000_S1x250000_2_0) main_v27
  let main_v31 : FVec F S128x1 .f32 := mulf main_v22 main_v26
  let main_v32 : FVec F S128x1 .f32 := mulf main_v21 main_v24
  let main_v33 : FVec F S128x1 .f32 := mulf main_v32 main_v25
  let main_v34 : FVec F S128x1 .f32 := subf main_v31 main_v33
  let main_v35 : FVec F S128x250000 .f32 := broadcastInDim S128x250000 ![0, 1] bcast_S128x1_S128x250000_0_1 main_v34
  let main_v36 : FVec F S128x250000 .f32 := broadcastInDim S128x250000 ![0, 1] bcast_S1x250000_S128x250000_0_1 main_v28
  let main_v37 : FVec F S128x250000 .f32 := mulf main_v35 main_v36
  let main_v38 : FVec F S128x1 .f32 := mulf main_v22 main_v25
  let main_v39 : FVec F S128x1 .f32 := mulf main_v21 main_v24
  fn_part2 (F := F) main_arg2 main_v17 main_v21 main_v23 main_v26 main_v29 main_v30 main_v37 main_v38 main_v39

def fn {F : FTy → Type} [FloatOps F] (main_arg0 : FVec F S_ .f32) (main_arg1 : FVec F S128x3 .f32) (main_arg2 : FVec F S128x3 .f32) (main_arg3 : FVec F S250000x3 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S128x3 .f32 := Host.absf main_arg1
  let main_cst_0 : FVec F S_ .f32 := constant S_ .f32 0x7F800000#32
  let main_v4 : FVec F S128x3 .f32 := broadcastInDim S128x3 ![] bcast_S_S128x3 main_cst_0
  let main_v5 : IVec S128x3 1 := cmpf .olt main_v3 main_v4
  let main_c_1 : IVec S_ 1 := constantI S_ 1 1#1
  let main_v6 : IVec S_ 1 := (fun x v => Host.reduce IntOp.andi x v reducesTo_S128x3_S_d0_1 h_S_) main_v5 main_c_1
  let main_v7 : IVec S_ 1 := andi main_v2 main_v6
  let main_v8 : FVec F S128x3 .f32 := Host.absf main_arg2
  let main_cst_2 : FVec F S_ .f32 := constant S_ .f32 0x7F800000#32
  let main_v9 : FVec F S128x3 .f32 := broadcastInDim S128x3 ![] bcast_S_S128x3 main_cst_2
  let main_v10 : IVec S128x3 1 := cmpf .olt main_v8 main_v9
  let main_c_3 : IVec S_ 1 := constantI S_ 1 1#1
  let main_v11 : IVec S_ 1 := (fun x v => Host.reduce IntOp.andi x v reducesTo_S128x3_S_d0_1 h_S_) main_v10 main_c_3
  let main_v12 : IVec S_ 1 := andi main_v7 main_v11
  let main_v13 : FVec F S250000x3 .f32 := Host.absf main_arg3
  let main_cst_4 : FVec F S_ .f32 := constant S_ .f32 0x7F800000#32
  let main_v14 : FVec F S250000x3 .f32 := broadcastInDim S250000x3 ![] bcast_S_S250000x3 main_cst_4
  let main_v15 : IVec S250000x3 1 := cmpf .olt main_v13 main_v14
  let main_c_5 : IVec S_ 1 := constantI S_ 1 1#1
  fn_part1 (F := F) main_arg1 main_arg2 main_arg3 main_v12 main_v15 main_c_5
-- ==== Kernel.lean ====
abbrev S_ : Shape := ⟨0, ![]⟩
abbrev S128x3 : Shape := ⟨2, ![128, 3]⟩
abbrev S250000x3 : Shape := ⟨2, ![250000, 3]⟩
abbrev S128x1 : Shape := ⟨2, ![128, 1]⟩
abbrev S128 : Shape := ⟨1, ![128]⟩
abbrev S128x12 : Shape := ⟨2, ![128, 12]⟩
abbrev S3x250000 : Shape := ⟨2, ![3, 250000]⟩
abbrev S128x250000 : Shape := ⟨2, ![128, 250000]⟩
abbrev S3x4096 : Shape := ⟨2, ![3, 4096]⟩
abbrev S128x4096 : Shape := ⟨2, ![128, 4096]⟩
abbrev S1x4096 : Shape := ⟨2, ![1, 4096]⟩
abbrev S4096 : Shape := ⟨1, ![4096]⟩
abbrev S128x250000x1 : Shape := ⟨3, ![128, 250000, 1]⟩
abbrev S128x250000x2 : Shape := ⟨3, ![128, 250000, 2]⟩

abbrev nBuf : Space → Nat
  | .hbm => 84
  | .vmem => 9
  | .smem => 0
  | _ => 0

abbrev bufTy : (tb : Table) → Fin (tcTables nBuf tb) → BufTy
  | .hbm, ⟨0, _⟩ => ⟨S_, .f32⟩
  | .hbm, ⟨1, _⟩ => ⟨S128x3, .f32⟩
  | .hbm, ⟨2, _⟩ => ⟨S128x3, .f32⟩
  | .hbm, ⟨3, _⟩ => ⟨S250000x3, .f32⟩
  | .hbm, ⟨4, _⟩ => ⟨S128x1, .f32⟩
  | .hbm, ⟨5, _⟩ => ⟨S128, .f32⟩
  | .hbm, ⟨6, _⟩ => ⟨S128x1, .f32⟩
  | .hbm, ⟨7, _⟩ => ⟨S128, .f32⟩
  | .hbm, ⟨8, _⟩ => ⟨S128x1, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128x1, .f32⟩
  | .hbm, ⟨39, _⟩ => ⟨S128, .f32⟩
  | .hbm, ⟨40, _⟩ => ⟨S128x1, .f32⟩
  | .hbm, ⟨41, _⟩ => ⟨S128, .f32⟩
  | .hbm, ⟨42, _⟩ => ⟨S128x1, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128x1, .f32⟩
  | .hbm, ⟨65, _⟩ => ⟨S128x1, .f32⟩
  | .hbm, ⟨66, _⟩ => ⟨S128x1, .f32⟩
  | .hbm, ⟨67, _⟩ => ⟨S128x1, .f32⟩
  | .hbm, ⟨68, _⟩ => ⟨S128x1, .f32⟩
  | .hbm, ⟨69, _⟩ => ⟨S128x1, .f32⟩
  | .hbm, ⟨70, _⟩ => ⟨S128x1, .f32⟩
  | .hbm, ⟨71, _⟩ => ⟨S128x1, .f32⟩
  | .hbm, ⟨72, _⟩ => ⟨S128x1, .f32⟩
  | .hbm, ⟨73, _⟩ => ⟨S128x1, .f32⟩
  | .hbm, ⟨74, _⟩ => ⟨S128x1, .f32⟩
  | .hbm, ⟨75, _⟩ => ⟨S128x1, .f32⟩
  | .hbm, ⟨76, _⟩ => ⟨S128x12, .f32⟩
  | .hbm, ⟨77, _⟩ => ⟨S3x250000, .f32⟩
  | .hbm, ⟨78, _⟩ => ⟨S128x250000, .f32⟩
  | .hbm, ⟨79, _⟩ => ⟨S128x250000, .f32⟩
  | .hbm, ⟨80, _⟩ => ⟨S128x250000, .f32⟩
  | .hbm, ⟨81, _⟩ => ⟨S128x250000x1, .f32⟩
  | .hbm, ⟨82, _⟩ => ⟨S128x250000x1, .f32⟩
  | .hbm, ⟨83, _⟩ => ⟨S128x250000x2, .f32⟩
  | .local _ .vmem, ⟨0, _⟩ => ⟨S128x12, .f32⟩
  | .local _ .vmem, ⟨1, _⟩ => ⟨S3x4096, .f32⟩
  | .local _ .vmem, ⟨2, _⟩ => ⟨S3x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74_0 : Ref sig .tc := ⟨.hbm, 78, rfl⟩
abbrev main_v74_1 : Ref sig .tc := ⟨.hbm, 79, rfl⟩
abbrev main_v74_2 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S128x3_S128x1_0_0 : S128x3.Slices ![0, 0] S128x1
  shapeCasts_S128x1_S128 : S128x1.ShapeCasts S128
  slices_S128x3_S128x1_0_1 : S128x3.Slices ![0, 1] S128x1
  slices_S128x3_S128x1_0_2 : S128x3.Slices ![0, 2] S128x1
  bcast_S_S128 : S_.BroadcastsInDim S128 (![] : Fin 0 → Fin S128.rank)
  bcast_S128_S128x1_0 : S128.BroadcastsInDim S128x1 (![0] : Fin 1 → Fin S128x1.rank)
  concatenates_S128x1_S128x1_S128x1_S128x1_S128x1_S128x1_S128x1_S128x1_S128x1_S128x1_S128x1_S128x1_S128x12_d1 : Shape.Concatenates [S128x1, S128x1, S128x1, S128x1, S128x1, S128x1, S128x1, S128x1, S128x1, S128x1, S128x1, S128x1] S128x12 1
  transposes_S250000x3_S3x250000_1_0 : S250000x3.Transposes [1, 0] S3x250000
  inb_S128x12_S128x12_0_0 : ∀ a, (![0, 0] : Fin 2 → Nat) a + S128x12.size a ≤ S128x12.size a
  h_S128x12 : 0 < S128x12.numel
  shapeCasts_S128x12_S128x12 : S128x12.ShapeCasts S128x12
  slices_S128x12_o0_0_S128x1 : S128x12.Slices ![0, 0] S128x1
  shapeCasts_S128_S128x1 : S128.ShapeCasts S128x1
  slices_S128x12_o0_1_S128x1 : S128x12.Slices ![0, 1] S128x1
  slices_S128x12_o0_2_S128x1 : S128x12.Slices ![0, 2] S128x1
  slices_S128x12_o0_3_S128x1 : S128x12.Slices ![0, 3] S128x1
  slices_S128x12_o0_4_S128x1 : S128x12.Slices ![0, 4] S128x1
  slices_S128x12_o0_5_S128x1 : S128x12.Slices ![0, 5] S128x1
  slices_S128x12_o0_6_S128x1 : S128x12.Slices ![0, 6] S128x1
  slices_S128x12_o0_7_S128x1 : S128x12.Slices ![0, 7] S128x1
  slices_S128x12_o0_8_S128x1 : S128x12.Slices ![0, 8] S128x1
  slices_S128x12_o0_9_S128x1 : S128x12.Slices ![0, 9] S128x1
  slices_S128x12_o0_10_S128x1 : S128x12.Slices ![0, 10] S128x1
  slices_S128x12_o0_11_S128x1 : S128x12.Slices ![0, 11] S128x1
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  slices_S3x4096_o0_0_S1x4096 : S3x4096.Slices ![0, 0] S1x4096
  shapeCasts_S1x4096_S4096 : S1x4096.ShapeCasts S4096
  shapeCasts_S4096_S1x4096 : S4096.ShapeCasts S1x4096
  slices_S3x4096_o1_0_S1x4096 : S3x4096.Slices ![1, 0] S1x4096
  slices_S3x4096_o2_0_S1x4096 : S3x4096.Slices ![2, 0] S1x4096
  broadcasts_S128x1_S128x4096 : S128x1.Broadcasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  bcast_S128x250000_S128x250000x1_0_1 : S128x250000.BroadcastsInDim S128x250000x1 (![0, 1] : Fin 2 → Fin S128x250000x1.rank)
  concatenates_S128x250000x1_S128x250000x1_S128x250000x2_d2 : Shape.Concatenates [S128x250000x1, S128x250000x1] S128x250000x2 2
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x12.size a ≤ S128x12.size a
  hwx0_0 : ∀ i : grid0.Coords, EltTy.bits .f32 = 32 ∨ (Rect.block (s := S128x12) S128x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3x4096.size a < S3x250000.size a
  hwx0_1 : ∀ i : grid0.Coords, EltTy.bits .f32 = 32 ∨ (Rect.unit (s := S3x250000) (fun a => cc0_transform_1 i a * S3x4096.size a) (fun a => (Pipeline.Clip.of (cc0_transform_1 i a) (S3x4096.size a) (S3x250000.size a)).extent (S3x4096.size a)) fun a => Pipeline.Clip.inb (Pipeline.Clip.ok_of (hstart0_1 i a))).WholeWords (EltTy.packing .f32)
  hwxs0_1 : ∀ i : grid0.Coords, EltTy.bits .f32 = 32 ∨ (Rect.unit (s := S3x4096) (fun _ => 0) (fun a => (Pipeline.Clip.of (cc0_transform_1 i a) (S3x4096.size a) (S3x250000.size a)).extent (S3x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S128x4096.size a < S128x250000.size a
  hwx0_2 : ∀ i : grid0.Coords, EltTy.bits .f32 = 32 ∨ (Rect.unit (s := S128x250000) (fun a => cc0_transform_2 i a * S128x4096.size a) (fun a => (Pipeline.Clip.of (cc0_transform_2 i a) (S128x4096.size a) (S128x250000.size a)).extent (S128x4096.size a)) fun a => Pipeline.Clip.inb (Pipeline.Clip.ok_of (hstart0_2 i a))).WholeWords (EltTy.packing .f32)
  hwxs0_2 : ∀ i : grid0.Coords, EltTy.bits .f32 = 32 ∨ (Rect.unit (s := S128x4096) (fun _ => 0) (fun a => (Pipeline.Clip.of (cc0_transform_2 i a) (S128x4096.size a) (S128x250000.size a)).extent (S128x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S128x4096.size a < S128x250000.size a
  hwx0_3 : ∀ i : grid0.Coords, EltTy.bits .f32 = 32 ∨ (Rect.unit (s := S128x250000) (fun a => cc0_transform_3 i a * S128x4096.size a) (fun a => (Pipeline.Clip.of (cc0_transform_3 i a) (S128x4096.size a) (S128x250000.size a)).extent (S128x4096.size a)) fun a => Pipeline.Clip.inb (Pipeline.Clip.ok_of (hstart0_3 i a))).WholeWords (EltTy.packing .f32)
  hwxs0_3 : ∀ i : grid0.Coords, EltTy.bits .f32 = 32 ∨ (Rect.unit (s := S128x4096) (fun _ => 0) (fun a => (Pipeline.Clip.of (cc0_transform_3 i a) (S128x4096.size a) (S128x250000.size a)).extent (S128x4096.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S128x4096.size a < S128x250000.size a
  hwx0_4 : ∀ i : grid0.Coords, EltTy.bits .f32 = 32 ∨ (Rect.unit (s := S128x250000) (fun a => cc0_transform_4 i a * S128x4096.size a) (fun a => (Pipeline.Clip.of (cc0_transform_4 i a) (S128x4096.size a) (S128x250000.size a)).extent (S128x4096.size a)) fun a => Pipeline.Clip.inb (Pipeline.Clip.ok_of (hstart0_4 i a))).WholeWords (EltTy.packing .f32)
  hwxs0_4 : ∀ i : grid0.Coords, EltTy.bits .f32 = 32 ∨ (Rect.unit (s := S128x4096) (fun _ => 0) (fun a => (Pipeline.Clip.of (cc0_transform_4 i a) (S128x4096.size a) (S128x250000.size a)).extent (S128x4096.size a)) fun a => (Nat.zero_add _).trans_le (Pipeline.Clip.extent_le (Pipeline.Clip.ok_of (hstart0_4 i a)))).WholeWords (EltTy.packing .f32)

variable [Facts₀]

abbrev win0_0 : Pipeline.Window sig grid0 :=
  Pipeline.Window.ofSpec (Memref.whole main_v72) S128x12.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v73) S3x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v74_0) S128x4096.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v74_1) S128x4096.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v74_2) S128x4096.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S_ : Shape := ⟨0, ![]⟩
abbrev S128x3 : Shape := ⟨2, ![128, 3]⟩
abbrev S250000x3 : Shape := ⟨2, ![250000, 3]⟩
abbrev S128x1 : Shape := ⟨2, ![128, 1]⟩
abbrev S128 : Shape := ⟨1, ![128]⟩
abbrev S128x1x3 : Shape := ⟨3, ![128, 1, 3]⟩
abbrev S128x3x3 : Shape := ⟨3, ![128, 3, 3]⟩
abbrev S250000x128x3 : Shape := ⟨3, ![250000, 128, 3]⟩
abbrev S128x250000x3 : Shape := ⟨3, ![128, 250000, 3]⟩
abbrev S128x250000x1 : Shape := ⟨3, ![128, 250000, 1]⟩
abbrev S128x250000 : Shape := ⟨2, ![128, 250000]⟩
abbrev S128x250000x2 : Shape := ⟨3, ![128, 250000, 2]⟩

abbrev nBuf : Space → Nat
  | .hbm => 100
  | .vmem => 0
  | .smem => 0
  | _ => 0

abbrev bufTy : (tb : Table) → Fin (tcTables nBuf tb) → BufTy
  | .hbm, ⟨0, _⟩ => ⟨S_, .f32⟩
  | .hbm, ⟨1, _⟩ => ⟨S128x3, .f32⟩
  | .hbm, ⟨2, _⟩ => ⟨S128x3, .f32⟩
  | .hbm, ⟨3, _⟩ => ⟨S250000x3, .f32⟩
  | .hbm, ⟨4, _⟩ => ⟨S128x1, .f32⟩
  | .hbm, ⟨5, _⟩ => ⟨S128, .f32⟩
  | .hbm, ⟨6, _⟩ => ⟨S128x1, .f32⟩
  | .hbm, ⟨7, _⟩ => ⟨S128, .f32⟩
  | .hbm, ⟨8, _⟩ => ⟨S128x1, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x3, .f32⟩
  | .hbm, ⟨25, _⟩ => ⟨S128x1, .f32⟩
  | .hbm, ⟨26, _⟩ => ⟨S128x1, .f32⟩
  | .hbm, ⟨27, _⟩ => ⟨S128x1, .f32⟩
  | .hbm, ⟨28, _⟩ => ⟨S128x3, .f32⟩
  | .hbm, ⟨29, _⟩ => ⟨S128x1, .f32⟩
  | .hbm, ⟨30, _⟩ => ⟨S128x1, .f32⟩
  | .hbm, ⟨31, _⟩ => ⟨S128x1, .f32⟩
  | .hbm, ⟨32, _⟩ => ⟨S128x3, .f32⟩
  | .hbm, ⟨33, _⟩ => ⟨S128x1x3, .f32⟩
  | .hbm, ⟨34, _⟩ => ⟨S128x1x3, .f32⟩
  | .hbm, ⟨35, _⟩ => ⟨S128x1x3, .f32⟩
  | .hbm, ⟨36, _⟩ => ⟨S128x3x3, .f32⟩
  | .hbm, ⟨37, _⟩ => ⟨S128, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x3, .f32⟩
  | .hbm, ⟨42, _⟩ => ⟨S128x1, .f32⟩
  | .hbm, ⟨43, _⟩ => ⟨S128x1, .f32⟩
  | .hbm, ⟨44, _⟩ => ⟨S128x1, .f32⟩
  | .hbm, ⟨45, _⟩ => ⟨S128x3, .f32⟩
  | .hbm, ⟨46, _⟩ => ⟨S128x1, .f32⟩
  | .hbm, ⟨47, _⟩ => ⟨S128x1, .f32⟩
  | .hbm, ⟨48, _⟩ => ⟨S128x1, .f32⟩
  | .hbm, ⟨49, _⟩ => ⟨S128x3, .f32⟩
  | .hbm, ⟨50, _⟩ => ⟨S128x1x3, .f32⟩
  | .hbm, ⟨51, _⟩ => ⟨S128x1x3, .f32⟩
  | .hbm, ⟨52, _⟩ => ⟨S128x1x3, .f32⟩
  | .hbm, ⟨53, _⟩ => ⟨S128x3x3, .f32⟩
  | .hbm, ⟨54, _⟩ => ⟨S128, .f32⟩
  | .hbm, ⟨55, _⟩ => ⟨S128x1, .f32⟩
  | .hbm, ⟨56, _⟩ => ⟨S128x1, .f32⟩
  | .hbm, ⟨57, _⟩ => ⟨S128x1, .f32⟩
  | .hbm, ⟨58, _⟩ => ⟨S128x3, .f32⟩
  | .hbm, ⟨59, _⟩ => ⟨S128x1, .f32⟩
  | .hbm, ⟨60, _⟩ => ⟨S128x1, .f32⟩
  | .hbm, ⟨61, _⟩ => ⟨S128x1, .f32⟩
  | .hbm, ⟨62, _⟩ => ⟨S128x3, .f32⟩
  | .hbm, ⟨63, _⟩ => ⟨S128x1, .f32⟩
  | .hbm, ⟨64, _⟩ => ⟨S128x1, .f32⟩
  | .hbm, ⟨65, _⟩ => ⟨S128x1, .f32⟩
  | .hbm, ⟨66, _⟩ => ⟨S128x3, .f32⟩
  | .hbm, ⟨67, _⟩ => ⟨S128x1x3, .f32⟩
  | .hbm, ⟨68, _⟩ => ⟨S128x1x3, .f32⟩
  | .hbm, ⟨69, _⟩ => ⟨S128x1x3, .f32⟩
  | .hbm, ⟨70, _⟩ => ⟨S128x3x3, .f32⟩
  | .hbm, ⟨71, _⟩ => ⟨S128x3x3, .f32⟩
  | .hbm, ⟨72, _⟩ => ⟨S128x3x3, .f32⟩
  | .hbm, ⟨73, _⟩ => ⟨S250000x128x3, .f32⟩
  | .hbm, ⟨74, _⟩ => ⟨S128x250000x3, .f32⟩
  | .hbm, ⟨75, _⟩ => ⟨S128x1x3, .f32⟩
  | .hbm, ⟨76, _⟩ => ⟨S128x250000x3, .f32⟩
  | .hbm, ⟨77, _⟩ => ⟨S128x250000x3, .f32⟩
  | .hbm, ⟨78, _⟩ => ⟨S128x250000x1, .f32⟩
  | .hbm, ⟨79, _⟩ => ⟨S128x250000, .f32⟩
  | .hbm, ⟨80, _⟩ => ⟨S128x250000x1, .f32⟩
  | .hbm, ⟨81, _⟩ => ⟨S128x250000, .f32⟩
  | .hbm, ⟨82, _⟩ => ⟨S128x250000x1, .f32⟩
  | .hbm, ⟨83, _⟩ => ⟨S128x250000, .f32⟩
  | .hbm, ⟨84, _⟩ => ⟨S_, .f32⟩
  | .hbm, ⟨85, _⟩ => ⟨S128x250000, .f32⟩
  | .hbm, ⟨86, _⟩ => ⟨S128x250000, .f32⟩
  | .hbm, ⟨87, _⟩ => ⟨S128x250000, .f32⟩
  | .hbm, ⟨88, _⟩ => ⟨S_, .f32⟩
  | .hbm, ⟨89, _⟩ => ⟨S128x250000, .f32⟩
  | .hbm, ⟨90, _⟩ => ⟨S128x250000, .f32⟩
  | .hbm, ⟨91, _⟩ => ⟨S128x250000, .f32⟩
  | .hbm, ⟨92, _⟩ => ⟨S128x250000, .f32⟩
  | .hbm, ⟨93, _⟩ => ⟨S128x250000, .f32⟩
  | .hbm, ⟨94, _⟩ => ⟨S_, .f32⟩
  | .hbm, ⟨95, _⟩ => ⟨S128x250000, .f32⟩
  | .hbm, ⟨96, _⟩ => ⟨S128x250000, .f32⟩
  | .hbm, ⟨97, _⟩ => ⟨S128x250000x1, .f32⟩
  | .hbm, ⟨98, _⟩ => ⟨S128x250000x1, .f32⟩
  | .hbm, ⟨99, _⟩ => ⟨S128x250000x2, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_cst_1 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_cst_2 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩

abbrev nD : Nat := 1
abbrev τ : Topo := Topo.v7x

variable {F : FTy → Type} [FloatOps F]

class Facts₀ : Prop where
  slices_S128x3_S128x1_0_0 : S128x3.Slices ![0, 0] S128x1
  shapeCasts_S128x1_S128 : S128x1.ShapeCasts S128
  slices_S128x3_S128x1_0_1 : S128x3.Slices ![0, 1] S128x1
  slices_S128x3_S128x1_0_2 : S128x3.Slices ![0, 2] S128x1
  bcast_S_S128 : S_.BroadcastsInDim S128 (![] : Fin 0 → Fin S128.rank)
  bcast_S128_S128x1_0 : S128.BroadcastsInDim S128x1 (![0] : Fin 1 → Fin S128x1.rank)
  concatenates_S128x1_S128x1_S128x1_S128x3_d1 : Shape.Concatenates [S128x1, S128x1, S128x1] S128x3 1
  bcast_S128x3_S128x1x3_0_2 : S128x3.BroadcastsInDim S128x1x3 (![0, 2] : Fin 2 → Fin S128x1x3.rank)
  concatenates_S128x1x3_S128x1x3_S128x1x3_S128x3x3_d1 : Shape.Concatenates [S128x1x3, S128x1x3, S128x1x3] S128x3x3 1
  transposes_S250000x128x3_S128x250000x3_1_0_2 : S250000x128x3.Transposes [1, 0, 2] S128x250000x3
  bcast_S128x1x3_S128x250000x3_0_1_2 : S128x1x3.BroadcastsInDim S128x250000x3 (![0, 1, 2] : Fin 3 → Fin S128x250000x3.rank)
  slices_S128x250000x3_S128x250000x1_0_0_0 : S128x250000x3.Slices ![0, 0, 0] S128x250000x1
  shapeCasts_S128x250000x1_S128x250000 : S128x250000x1.ShapeCasts S128x250000
  slices_S128x250000x3_S128x250000x1_0_0_1 : S128x250000x3.Slices ![0, 0, 1] S128x250000x1
  slices_S128x250000x3_S128x250000x1_0_0_2 : S128x250000x3.Slices ![0, 0, 2] S128x250000x1
  bcast_S_S128x250000 : S_.BroadcastsInDim S128x250000 (![] : Fin 0 → Fin S128x250000.rank)
  bcast_S128x250000_S128x250000x1_0_1 : S128x250000.BroadcastsInDim S128x250000x1 (![0, 1] : Fin 2 → Fin S128x250000x1.rank)
  concatenates_S128x250000x1_S128x250000x1_S128x250000x2_d2 : Shape.Concatenates [S128x250000x1, S128x250000x1] S128x250000x2 2
  dot_S128x3x3_S128x3x3_S128x3x3_2_1_1_2_0_0_wf : DotDims.WF S128x3x3 S128x3x3 S128x3x3 [2] [1] [1] [2] [0] [0]
  dot_S250000x3_S128x3x3_S250000x128x3_1_2_0_01_n_n_wf : DotDims.WF S250000x3 S128x3x3 S250000x128x3 [1] [2] [0] [0, 1] [] []

variable [Facts₀]

def dot_S128x3x3_S128x3x3_S128x3x3_2_1_1_2_0_0 : DotDims S128x3x3 S128x3x3 S128x3x3 where
  lhsContracting := [2]
  rhsContracting := [1]
  lhsNonContracting := [1]
  rhsNonContracting := [2]
  lhsBatch := [0]
  rhsBatch := [0]
  wf := dot_S128x3x3_S128x3x3_S128x3x3_2_1_1_2_0_0_wf
def dot_S250000x3_S128x3x3_S250000x128x3_1_2_0_01_n_n : DotDims S250000x3 S128x3x3 S250000x128x3 where
  lhsContracting := [1]
  rhsContracting := [2]
  lhsNonContracting := [0]
  rhsNonContracting := [0, 1]
  lhsBatch := []
  rhsBatch := []
  wf := dot_S250000x3_S128x3x3_S250000x128x3_1_2_0_01_n_n_wf

class Facts : Prop extends Facts₀ where

variable [Facts]
-- ==== Proof.Spec.lean ====
/-
  The mathematics both programs compute, stated once over the four argument arrays, index by index, on the
  extended reals.  A view v has Euler angles (a, b, c) = e(v, ·) and a translation t(v, ·); a point n has
  coordinates p(n, ·); f is the focal length.

  Kernel side.  Per view twelve coefficients are tabulated (tab): the first two rows of R = Rx(a)·Ry(b)·Rz(c)
  and of t, scaled by -f and by f, and the third row unscaled, each entry of R in closed form.  Per (view, point)
  three affine forms of the point are taken (lin at columns 0, 4, 8): the numerators of u and v and the depth;
  the numerators are multiplied by the reciprocal 1/depth and shifted by the principal point 512.

  Reference side.  R is the product of the three elementary rotations as nested three-term sums (rxy, rR);
  the camera-space point is R·p + t (xcR); u and v are quotients (-f·X)/Z + 512 and (f·Y)/Z + 512.
-/
import Idealize.ShloMosaic.PureOps.Ideal
import Idealize.ShloMosaic.Lib.ValueIdx

noncomputable section

namespace Cert.Spec

open Idealize.ShloMosaic Idealize.ShloMosaic.ValueIdx
open scoped BigOperators

abbrev S0 : Shape := ⟨0, ![]⟩
abbrev SV3 : Shape := ⟨2, ![128, 3]⟩
abbrev SN3 : Shape := ⟨2, ![250000, 3]⟩
abbrev SV12 : Shape := ⟨2, ![128, 12]⟩
abbrev S3N : Shape := ⟨2, ![3, 250000]⟩
abbrev SVN : Shape := ⟨2, ![128, 250000]⟩
abbrev SVN2 : Shape := ⟨3, ![128, 250000, 2]⟩

/-- The literal words the programs carry: 0.0, 1.0 and the principal point 512.0. -/
abbrev c0 : EReal := Ideal.ofBits .f32 0x00000000#32
abbrev c1 : EReal := Ideal.ofBits .f32 0x3F800000#32
abbrev c512 : EReal := Ideal.ofBits .f32 0x44000000#32

variable (f : S0.Idx → EReal) (e t : SV3.Idx → EReal) (p : SN3.Idx → EReal)

/-- Cosines and sines of view v's three angles. -/
def ca (v : Fin 128) : EReal := Ideal.cos (e (ix2 v 0))
def sa (v : Fin 128) : EReal := Ideal.sin (e (ix2 v 0))
def cb (v : Fin 128) : EReal := Ideal.cos (e (ix2 v 1))
def sb (v : Fin 128) : EReal := Ideal.sin (e (ix2 v 1))
def cc (v : Fin 128) : EReal := Ideal.cos (e (ix2 v 2))
def sc (v : Fin 128) : EReal := Ideal.sin (e (ix2 v 2))

/-- The focal length. -/
def foc : EReal := f ix0

/-! ## Kernel side -/

/-- The per-view coefficient table: columns 0–3 the u numerator's, 4–7 the v numerator's, 8–11 the depth's. -/
def tab (v : Fin 128) (k : Fin 12) : EReal :=
  match k with
  | ⟨0, _⟩ => (-(foc f)) * (cb e v * cc e v)
  | ⟨1, _⟩ => (-(foc f)) * ((-(cb e v)) * sc e v)
  | ⟨2, _⟩ => (-(foc f)) * sb e v
  | ⟨3, _⟩ => (-(foc f)) * t (ix2 v 0)
  | ⟨4, _⟩ => foc f * (ca e v * sc e v + (sa e v * sb e v) * cc e v)
  | ⟨5, _⟩ => foc f * (ca e v * cc e v - (sa e v * sb e v) * sc e v)
  | ⟨6, _⟩ => foc f * ((-(sa e v)) * cb e v)
  | ⟨7, _⟩ => foc f * t (ix2 v 1)
  | ⟨8, _⟩ => sa e v * sc e v - (ca e v * sb e v) * cc e v
  | ⟨9, _⟩ => sa e v * cc e v + (ca e v * sb e v) * sc e v
  | ⟨10, _⟩ => ca e v * cb e v
  | ⟨_ + 11, _⟩ => t (ix2 v 2)

/-- One affine form of a point: four consecutive columns of a coefficient row T against (X, Y, Z, 1). -/
def lin (T : Fin 12 → EReal) (k0 k1 k2 k3 : Fin 12) (X Y Z : EReal) : EReal :=
  ((T k0 * X + T k1 * Y) + T k2 * Z) + T k3

/-- The kernel's three results at (view v, point n) from ANY coefficient table T (128 × 12) and the points. -/
def numUT (T : SV12.Idx → EReal) (v : Fin 128) (n : Fin 250000) : EReal :=
  lin (fun k => T (ix2 v k)) 0 1 2 3 (p (ix2 n 0)) (p (ix2 n 1)) (p (ix2 n 2))
def numVT (T : SV12.Idx → EReal) (v : Fin 128) (n : Fin 250000) : EReal :=
  lin (fun k => T (ix2 v k)) 4 5 6 7 (p (ix2 n 0)) (p (ix2 n 1)) (p (ix2 n 2))
def zT (T : SV12.Idx → EReal) (v : Fin 128) (n : Fin 250000) : EReal :=
  lin (fun k => T (ix2 v k)) 8 9 10 11 (p (ix2 n 0)) (p (ix2 n 1)) (p (ix2 n 2))
def uT (T : SV12.Idx → EReal) (v : Fin 128) (n : Fin 250000) : EReal :=
  numUT p T v n * Ideal.div c1 (zT p T v n) + c512
def vT (T : SV12.Idx → EReal) (v : Fin 128) (n : Fin 250000) : EReal :=
  numVT p T v n * Ideal.div c1 (zT p T v n) + c512

/-- The coefficient table as an array. -/
def tabArr : SV12.Idx → EReal := fun i => tab f e t (i 0) (i 1)

/-- The kernel's results as functions of the four arguments. -/
def zK (v : Fin 128) (n : Fin 250000) : EReal := zT p (tabArr f e t) v n
def uK (v : Fin 128) (n : Fin 250000) : EReal := uT p (tabArr f e t) v n
def vK (v : Fin 128) (n : Fin 250000) : EReal := vT p (tabArr f e t) v n

/-- The two result arrays: u and v interleaved on a last axis of extent 2, and the depth. -/
def uvK : SVN2.Idx → EReal := fun i => if (i 2 : Nat) = 0 then uK f e t p (i 0) (i 1) else vK f e t p (i 0) (i 1)
def zKArr : SVN.Idx → EReal := fun i => zK f e t p (i 0) (i 1)

/-! ## Reference side -/

/-- The elementary rotations about x, y and z by view v's angles, entry (i, j). -/
def rx (v : Fin 128) (i j : Fin 3) : EReal :=
  match i, j with
  | ⟨0, _⟩, ⟨0, _⟩ => c1 | ⟨0, _⟩, ⟨1, _⟩ => c0 | ⟨0, _⟩, ⟨_ + 2, _⟩ => c0
  | ⟨1, _⟩, ⟨0, _⟩ => c0 | ⟨1, _⟩, ⟨1, _⟩ => ca e v | ⟨1, _⟩, ⟨_ + 2, _⟩ => -(sa e v)
  | ⟨_ + 2, _⟩, ⟨0, _⟩ => c0 | ⟨_ + 2, _⟩, ⟨1, _⟩ => sa e v | ⟨_ + 2, _⟩, ⟨_ + 2, _⟩ => ca e v
def ry (v : Fin 128) (i j : Fin 3) : EReal :=
  match i, j with
  | ⟨0, _⟩, ⟨0, _⟩ => cb e v | ⟨0, _⟩, ⟨1, _⟩ => c0 | ⟨0, _⟩, ⟨_ + 2, _⟩ => sb e v
  | ⟨1, _⟩, ⟨0, _⟩ => c0 | ⟨1, _⟩, ⟨1, _⟩ => c1 | ⟨1, _⟩, ⟨_ + 2, _⟩ => c0
  | ⟨_ + 2, _⟩, ⟨0, _⟩ => -(sb e v) | ⟨_ + 2, _⟩, ⟨1, _⟩ => c0 | ⟨_ + 2, _⟩, ⟨_ + 2, _⟩ => cb e v
def rz (v : Fin 128) (i j : Fin 3) : EReal :=
  match i, j with
  | ⟨0, _⟩, ⟨0, _⟩ => cc e v | ⟨0, _⟩, ⟨1, _⟩ => -(sc e v) | ⟨0, _⟩, ⟨_ + 2, _⟩ => c0
  | ⟨1, _⟩, ⟨0, _⟩ => sc e v | ⟨1, _⟩, ⟨1, _⟩ => cc e v | ⟨1, _⟩, ⟨_ + 2, _⟩ => c0
  | ⟨_ + 2, _⟩, ⟨0, _⟩ => c0 | ⟨_ + 2, _⟩, ⟨1, _⟩ => c0 | ⟨_ + 2, _⟩, ⟨_ + 2, _⟩ => c1

/-- Rx·Ry and (Rx·Ry)·Rz, entry (i, j), as three-term sums. -/
def rxy (v : Fin 128) (i j : Fin 3) : EReal := ∑ k : Fin 3, rx e v i k * ry e v k j
def rR (v : Fin 128) (i j : Fin 3) : EReal := ∑ k : Fin 3, rxy e v i k * rz e v k j

/-- The camera-space coordinate i of point n in view v: (R·p)_i + t_i, the sum taken with the point first. -/
def xcR (v : Fin 128) (n : Fin 250000) (i : Fin 3) : EReal :=
  (∑ j : Fin 3, p (ix2 n j) * rR e v i j) + t (ix2 v i)

def zR (v : Fin 128) (n : Fin 250000) : EReal := xcR e t p v n 2
def uR (v : Fin 128) (n : Fin 250000) : EReal :=
  Ideal.div ((-(foc f)) * xcR e t p v n 0) (xcR e t p v n 2) + c512
def vR (v : Fin 128) (n : Fin 250000) : EReal :=
  Ideal.div (foc f * xcR e t p v n 1) (xcR e t p v n 2) + c512

def uvR : SVN2.Idx → EReal := fun i => if (i 2 : Nat) = 0 then uR f e t p (i 0) (i 1) else vR f e t p (i 0) (i 1)
def zRArr : SVN.Idx → EReal := fun i => zR e t p (i 0) (i 1)

/-! ## The hypotheses under which the two sides agree -/

/-- Every entry of the four arguments is a real number. -/
def Finite : Prop :=
  (∃ r : ℝ, f ix0 = (r : EReal)) ∧ (∀ i, ∃ r : ℝ, e i = (r : EReal)) ∧ (∀ i, ∃ r : ℝ, t i = (r : EReal))
    ∧ (∀ i, ∃ r : ℝ, p i = (r : EReal))

/-- No (view, point) has depth zero: the reference's divisor is nonzero everywhere. -/
def DepthNonzero : Prop := ∀ v n, zK f e t p v n ≠ 0

end Cert.Spec

end
-- ==== Proof.Consts.lean ====
/-
  The three float words whose numeric value the proof uses, each read once: the zero word is 0, the word of 1.0 is 1,
  and the word with all exponent bits set and no fraction is +∞.  (512.0 is carried by both programs as the same
  word and is never read as a number.)
-/
import proofs.«421993_j6313601925252_3_alg».proof.Proof.Spec
import Idealize.ShloMosaic.PureOps.Ideal
import Idealize.ShloMosaic.PureOps.Ideal.Laws

noncomputable section

namespace Cert.Consts

open Idealize.ShloMosaic

theorem zero_word : Ideal.ofBits .f32 0x00000000#32 = 0 := Ideal.ofBits_zero_f32

theorem one_word : Ideal.ofBits .f32 0x3F800000#32 = 1 := by
  simp [Ideal.ofBits, Ideal.ieee, -EReal.coe_mul]
  norm_num

theorem inf_word : Ideal.ofBits .f32 0x7F800000#32 = ⊤ := by
  simp [Ideal.ofBits, Ideal.ieee]

end Cert.Consts

end
-- ==== Proof.Algebra.lean ====
/-
  The law that joins the two sides.  With every argument a real number, each of the twelve tabulated
  coefficients is the corresponding entry of R = Rx·Ry·Rz (or of t), scaled; so the kernel's three affine
  forms are -f·X, f·Y and Z of the reference's camera-space point, by distributivity in ℝ.  Where the depth Z is
  a nonzero real, the product with the reciprocal 1/Z is the quotient by Z.
-/
import proofs.«421993_j6313601925252_3_alg».proof.Proof.Spec
import proofs.«421993_j6313601925252_3_alg».proof.Proof.Consts

noncomputable section

namespace Cert.Spec

open Idealize.ShloMosaic Idealize.ShloMosaic.ValueIdx
open scoped BigOperators

variable (f : S0.Idx → EReal) (e t : SV3.Idx → EReal) (p : SN3.Idx → EReal)

/-- The zero and one words denote 0 and 1. -/
theorem c0_eq : c0 = 0 := Cert.Consts.zero_word
theorem c1_eq : c1 = 1 := Cert.Consts.one_word

/-! ## One view's trigonometry as real numbers -/

section Trig
variable {e} {v : Fin 128}

private theorem ca_coe {a : ℝ} (ha : e (ix2 v 0) = (a : EReal)) : ca e v = (Real.cos a : EReal) := by
  rw [ca, ha, Ideal.cos_coe]
private theorem sa_coe {a : ℝ} (ha : e (ix2 v 0) = (a : EReal)) : sa e v = (Real.sin a : EReal) := by
  rw [sa, ha, Ideal.sin_coe]
private theorem cb_coe {b : ℝ} (hb : e (ix2 v 1) = (b : EReal)) : cb e v = (Real.cos b : EReal) := by
  rw [cb, hb, Ideal.cos_coe]
private theorem sb_coe {b : ℝ} (hb : e (ix2 v 1) = (b : EReal)) : sb e v = (Real.sin b : EReal) := by
  rw [sb, hb, Ideal.sin_coe]
private theorem cc_coe {c : ℝ} (hc : e (ix2 v 2) = (c : EReal)) : cc e v = (Real.cos c : EReal) := by
  rw [cc, hc, Ideal.cos_coe]
private theorem sc_coe {c : ℝ} (hc : e (ix2 v 2) = (c : EReal)) : sc e v = (Real.sin c : EReal) := by
  rw [sc, hc, Ideal.sin_coe]

end Trig

/-! ## The entries of R = Rx·Ry·Rz in closed form -/

section Rot
variable {e} {v : Fin 128} {A S B T C U : ℝ}

private theorem rR_00 (hB : cb e v = (B : EReal)) (hC : cc e v = (C : EReal)) :
    rR e v 0 0 = ((B * C : ℝ) : EReal) := by
  simp only [rR, rxy, Fin.sum_univ_three, rx, ry, rz, c0_eq, c1_eq, hB, hC,
    mul_zero, zero_mul, add_zero, zero_add, mul_one, one_mul]
  norm_cast

private theorem rR_01 (hB : cb e v = (B : EReal)) (hU : sc e v = (U : EReal)) :
    rR e v 0 1 = ((-(B * U) : ℝ) : EReal) := by
  simp only [rR, rxy, Fin.sum_univ_three, rx, ry, rz, c0_eq, c1_eq, hB, hU,
    mul_zero, zero_mul, add_zero, zero_add, mul_one, one_mul]
  norm_cast
  ring

private theorem rR_02 (hT : sb e v = (T : EReal)) :
    rR e v 0 2 = ((T : ℝ) : EReal) := by
  simp only [rR, rxy, Fin.sum_univ_three, rx, ry, rz, c0_eq, c1_eq, hT,
    mul_zero, zero_mul, add_zero, zero_add, mul_one, one_mul]

private theorem rR_10 (hA : ca e v = (A : EReal)) (hS : sa e v = (S : EReal)) (hT : sb e v = (T : EReal))
    (hC : cc e v = (C : EReal)) (hU : sc e v = (U : EReal)) :
    rR e v 1 0 = ((S * T * C + A * U : ℝ) : EReal) := by
  simp only [rR, rxy, Fin.sum_univ_three, rx, ry, rz, c0_eq, c1_eq, hA, hS, hT, hC, hU,
    mul_zero, zero_mul, add_zero, zero_add, mul_one, one_mul]
  norm_cast
  ring

private theorem rR_11 (hA : ca e v = (A : EReal)) (hS : sa e v = (S : EReal)) (hT : sb e v = (T : EReal))
    (hC : cc e v = (C : EReal)) (hU : sc e v = (U : EReal)) :
    rR e v 1 1 = ((A * C - S * T * U : ℝ) : EReal) := by
  simp only [rR, rxy, Fin.sum_univ_three, rx, ry, rz, c0_eq, c1_eq, hA, hS, hT, hC, hU,
    mul_zero, zero_mul, add_zero, zero_add, mul_one, one_mul]
  norm_cast
  ring

private theorem rR_12 (hS : sa e v = (S : EReal)) (hB : cb e v = (B : EReal)) :
    rR e v 1 2 = ((-(S * B) : ℝ) : EReal) := by
  simp only [rR, rxy, Fin.sum_univ_three, rx, ry, rz, c0_eq, c1_eq, hS, hB,
    mul_zero, zero_mul, add_zero, zero_add, mul_one, one_mul]
  norm_cast
  ring

private theorem rR_20 (hA : ca e v = (A : EReal)) (hS : sa e v = (S : EReal)) (hT : sb e v = (T : EReal))
    (hC : cc e v = (C : EReal)) (hU : sc e v = (U : EReal)) :
    rR e v 2 0 = ((S * U - A * T * C : ℝ) : EReal) := by
  simp only [rR, rxy, Fin.sum_univ_three, rx, ry, rz, c0_eq, c1_eq, hA, hS, hT, hC, hU,
    mul_zero, zero_mul, add_zero, zero_add, mul_one, one_mul]
  norm_cast
  ring

private theorem rR_21 (hA : ca e v = (A : EReal)) (hS : sa e v = (S : EReal)) (hT : sb e v = (T : EReal))
    (hC : cc e v = (C : EReal)) (hU : sc e v = (U : EReal)) :
    rR e v 2 1 = ((S * C + A * T * U : ℝ) : EReal) := by
  simp only [rR, rxy, Fin.sum_univ_three, rx, ry, rz, c0_eq, c1_eq, hA, hS, hT, hC, hU,
    mul_zero, zero_mul, add_zero, zero_add, mul_one, one_mul]
  norm_cast
  ring

private theorem rR_22 (hA : ca e v = (A : EReal)) (hB : cb e v = (B : EReal)) :
    rR e v 2 2 = ((A * B : ℝ) : EReal) := by
  simp only [rR, rxy, Fin.sum_univ_three, rx, ry, rz, c0_eq, c1_eq, hA, hB,
    mul_zero, zero_mul, add_zero, zero_add, mul_one, one_mul]
  norm_cast

end Rot

/-! ## The camera-space point and the kernel's affine forms as real numbers -/

section Forms
variable {f e t p} {v : Fin 128} {n : Fin 250000}

/-- A coordinate of R·p + t, from the row of R and the entry of t it uses. -/
private theorem xcR_coe {i : Fin 3} {X Y Z r0 r1 r2 ti : ℝ} (hX : p (ix2 n 0) = (X : EReal))
    (hY : p (ix2 n 1) = (Y : EReal)) (hZ : p (ix2 n 2) = (Z : EReal)) (h0 : rR e v i 0 = (r0 : EReal))
    (h1 : rR e v i 1 = (r1 : EReal)) (h2 : rR e v i 2 = (r2 : EReal)) (hti : t (ix2 v i) = (ti : EReal)) :
    xcR e t p v n i = ((X * r0 + Y * r1 + Z * r2 + ti : ℝ) : EReal) := by
  simp only [xcR, Fin.sum_univ_three, hX, hY, hZ, h0, h1, h2, hti]
  norm_cast

/-- Row v of the coefficient array is the table at view v. -/
private theorem tabArr_ix2 (k : Fin 12) : tabArr f e t (ix2 v k) = tab f e t v k := rfl

/-- The u numerator: columns 0–3 against (X, Y, Z, 1). -/
private theorem numUT_coe {F B T C U X Y Z t0 : ℝ} (hF : foc f = (F : EReal)) (hB : cb e v = (B : EReal))
    (hT : sb e v = (T : EReal)) (hC : cc e v = (C : EReal)) (hU : sc e v = (U : EReal))
    (hX : p (ix2 n 0) = (X : EReal)) (hY : p (ix2 n 1) = (Y : EReal)) (hZ : p (ix2 n 2) = (Z : EReal))
    (ht0 : t (ix2 v 0) = (t0 : EReal)) :
    numUT p (tabArr f e t) v n
      = ((-F * (B * C) * X + -F * (-B * U) * Y + -F * T * Z + -F * t0 : ℝ) : EReal) := by
  simp only [numUT, lin, tabArr_ix2, tab, hF, hB, hT, hC, hU, hX, hY, hZ, ht0]
  norm_cast

/-- The v numerator: columns 4–7. -/
private theorem numVT_coe {F A S B T C U X Y Z t1 : ℝ} (hF : foc f = (F : EReal)) (hA : ca e v = (A : EReal))
    (hS : sa e v = (S : EReal)) (hB : cb e v = (B : EReal)) (hT : sb e v = (T : EReal))
    (hC : cc e v = (C : EReal)) (hU : sc e v = (U : EReal))
    (hX : p (ix2 n 0) = (X : EReal)) (hY : p (ix2 n 1) = (Y : EReal)) (hZ : p (ix2 n 2) = (Z : EReal))
    (ht1 : t (ix2 v 1) = (t1 : EReal)) :
    numVT p (tabArr f e t) v n
      = ((F * (A * U + S * T * C) * X + F * (A * C - S * T * U) * Y + F * (-S * B) * Z + F * t1 : ℝ) : EReal) := by
  simp only [numVT, lin, tabArr_ix2, tab, hF, hA, hS, hB, hT, hC, hU, hX, hY, hZ, ht1]
  norm_cast

/-- The depth: columns 8–11. -/
private theorem zT_coe {A S B T C U X Y Z t2 : ℝ} (hA : ca e v = (A : EReal))
    (hS : sa e v = (S : EReal)) (hB : cb e v = (B : EReal)) (hT : sb e v = (T : EReal))
    (hC : cc e v = (C : EReal)) (hU : sc e v = (U : EReal))
    (hX : p (ix2 n 0) = (X : EReal)) (hY : p (ix2 n 1) = (Y : EReal)) (hZ : p (ix2 n 2) = (Z : EReal))
    (ht2 : t (ix2 v 2) = (t2 : EReal)) :
    zT p (tabArr f e t) v n
      = (((S * U - A * T * C) * X + (S * C + A * T * U) * Y + A * B * Z + t2 : ℝ) : EReal) := by
  simp only [zT, lin, tabArr_ix2, tab, hA, hS, hB, hT, hC, hU, hX, hY, hZ, ht2]
  norm_cast

end Forms

/-! ## The real numbers behind one (view, point) -/

/-- With every argument real, the camera-space point of (v, n) is a real triple (x0, x1, x2), and the kernel's three
    affine forms are -f·x0, f·x1 and x2: each tabulated coefficient is an entry of R or of t, scaled by ∓f or
    unscaled, and the forms expand to the same polynomials in the sines, cosines, f, t and p. -/
private theorem camera_real (hfin : Finite f e t p) (v : Fin 128) (n : Fin 250000) :
    ∃ F x0 x1 x2 : ℝ, foc f = (F : EReal) ∧ xcR e t p v n 0 = (x0 : EReal) ∧ xcR e t p v n 1 = (x1 : EReal)
      ∧ xcR e t p v n 2 = (x2 : EReal)
      ∧ numUT p (tabArr f e t) v n = ((-F * x0 : ℝ) : EReal)
      ∧ numVT p (tabArr f e t) v n = ((F * x1 : ℝ) : EReal)
      ∧ zT p (tabArr f e t) v n = (x2 : EReal) := by
  obtain ⟨⟨F, hF⟩, he, ht, hp⟩ := hfin
  obtain ⟨a, ha⟩ := he (ix2 v 0)
  obtain ⟨b, hb⟩ := he (ix2 v 1)
  obtain ⟨c, hc⟩ := he (ix2 v 2)
  obtain ⟨t0, ht0⟩ := ht (ix2 v 0)
  obtain ⟨t1, ht1⟩ := ht (ix2 v 1)
  obtain ⟨t2, ht2⟩ := ht (ix2 v 2)
  obtain ⟨X, hX⟩ := hp (ix2 n 0)
  obtain ⟨Y, hY⟩ := hp (ix2 n 1)
  obtain ⟨Z, hZ⟩ := hp (ix2 n 2)
  have hF' : foc f = (F : EReal) := hF
  have hA := ca_coe ha
  have hS := sa_coe ha
  have hB := cb_coe hb
  have hT := sb_coe hb
  have hC := cc_coe hc
  have hU := sc_coe hc
  refine ⟨F, _, _, _, hF',
    xcR_coe hX hY hZ (rR_00 hB hC) (rR_01 hB hU) (rR_02 hT) ht0,
    xcR_coe hX hY hZ (rR_10 hA hS hT hC hU) (rR_11 hA hS hT hC hU) (rR_12 hS hB) ht1,
    xcR_coe hX hY hZ (rR_20 hA hS hT hC hU) (rR_21 hA hS hT hC hU) (rR_22 hA hB) ht2, ?_, ?_, ?_⟩
  · rw [numUT_coe hF' hB hT hC hU hX hY hZ ht0]
    congr 1
    ring
  · rw [numVT_coe hF' hA hS hB hT hC hU hX hY hZ ht1]
    congr 1
    ring
  · rw [zT_coe hA hS hB hT hC hU hX hY hZ ht2]
    congr 1
    ring

/-- Dividing a real numerator by a nonzero real depth, and multiplying it by the reciprocal of that depth, agree;
    the principal point is added to both unread. -/
private theorem quot_eq (N z : ℝ) (hz : z ≠ 0) :
    Ideal.div (N : EReal) (z : EReal) + c512 = (N : EReal) * Ideal.div c1 (z : EReal) + c512 := by
  rw [Ideal.div_coe hz, Ideal.div_coe hz, c1_eq, one_mul]

/-- The depth: the kernel's affine form at columns 8–11 is the reference's third camera-space coordinate. -/
theorem zR_eq_zK (hfin : Finite f e t p) (v : Fin 128) (n : Fin 250000) : zR e t p v n = zK f e t p v n := by
  obtain ⟨F, x0, x1, x2, -, -, -, h2, -, -, hz⟩ := camera_real f e t p hfin v n
  rw [zR, zK, h2, hz]

/-- A nonzero kernel depth is a nonzero real. -/
private theorem depth_ne {x2 : ℝ} {v : Fin 128} {n : Fin 250000} (hz : DepthNonzero f e t p)
    (h : zT p (tabArr f e t) v n = (x2 : EReal)) : x2 ≠ 0 := by
  intro h0
  apply hz v n
  rw [zK, h, h0, EReal.coe_zero]

/-- u and v: numerator times reciprocal of a nonzero real depth is the quotient. -/
theorem uR_eq_uK (hfin : Finite f e t p) (hz : DepthNonzero f e t p) (v : Fin 128) (n : Fin 250000) :
    uR f e t p v n = uK f e t p v n := by
  obtain ⟨F, x0, x1, x2, hF, h0, -, h2, hu, -, hd⟩ := camera_real f e t p hfin v n
  rw [uR, uK, uT, hF, h0, h2, hu, hd, ← EReal.coe_neg, ← EReal.coe_mul]
  exact quot_eq _ _ (depth_ne f e t p hz hd)
theorem vR_eq_vK (hfin : Finite f e t p) (hz : DepthNonzero f e t p) (v : Fin 128) (n : Fin 250000) :
    vR f e t p v n = vK f e t p v n := by
  obtain ⟨F, x0, x1, x2, hF, -, h1, h2, -, hv, hd⟩ := camera_real f e t p hfin v n
  rw [vR, vK, vT, hF, h1, h2, hv, hd, ← EReal.coe_mul]
  exact quot_eq _ _ (depth_ne f e t p hz hd)

/-- The two result arrays agree. -/
theorem uvR_eq_uvK (hfin : Finite f e t p) (hz : DepthNonzero f e t p) : uvR f e t p = uvK f e t p := by
  funext i; unfold uvR uvK; split
  · exact uR_eq_uK f e t p hfin hz _ _
  · exact vR_eq_vK f e t p hfin hz _ _
theorem zRArr_eq_zKArr (hfin : Finite f e t p) : zRArr e t p = zKArr f e t p := by
  funext i; exact zR_eq_zK f e t p hfin _ _

end Cert.Spec

end
-- ==== Proof.PreFacts.lean ====
/-
  What the precondition says of the arguments: every entry of the four arrays is a real number (its absolute
  value lies below +∞), and the depth — the affine form (sa·sc − ca·sb·cc)·X + (sa·cc + ca·sb·sc)·Y + (ca·cb)·Z + tz
  of each (view, point) pair — is nowhere zero.

  The precondition is a conjunction of five "for all entries" tests.  Each conjunct is split off, each test is read
  at one entry, and the comparison at that entry is read as the order fact it states.  For the depth the compared value
  is then read through its layout operations (columns cut from the angle and translation arrays and spread along the
  points, rows cut from the transposed points and spread along the views) down to the entries of the arguments, where
  it is the depth of the specification term for term.
-/
import proofs.«421993_j6313601925252_3_alg».proof.Pre_finite_inputs
import proofs.«421993_j6313601925252_3_alg».proof.Proof.Spec
import proofs.«421993_j6313601925252_3_alg».proof.Proof.Consts
import proofs.«421993_j6313601925252_3_alg».proof.Proof.Algebra
import Idealize.ShloMosaic.PureOps.Ideal
import Idealize.ShloMosaic.Lib.ReduceAll
import Idealize.ShloMosaic.Lib.ValueIdx
import Idealize.ShloMosaic.Lib.Pipeline.Value

noncomputable section

namespace Cert.PreFacts

open Idealize.ShloMosaic Idealize.ShloMosaic.ValueIdx

variable [Cert.Pre_finite_inputs.Facts]

/-! ## The element facts: what one comparison being true says of the value compared -/

/-- The rank-0 shape has a single index. -/
private instance : Subsingleton Cert.Pre_finite_inputs.S_.Idx := ⟨fun a b => funext fun d => d.elim0⟩

/-- A value whose absolute value max(x, −x) lies strictly below +∞ is neither infinity: it is a real number. -/
private theorem real_of_abs_lt (x : EReal)
    (h : Ideal.cmp .olt (max x (-x)) (Ideal.ofBits .f32 0x7F800000#32) = 1#1) : ∃ r : ℝ, x = (r : EReal) := by
  rw [Cert.Consts.inf_word] at h
  induction x using EReal.rec with
  | bot => simp [Ideal.cmp] at h
  | coe r => exact ⟨r, rfl⟩
  | top => simp [Ideal.cmp] at h

/-- A value that compares unequal to the word 0.0 is not zero. -/
private theorem ne_zero_of_une (x : EReal) (h : Ideal.cmp .une x (Ideal.ofBits .f32 0x00000000#32) = 1#1) : x ≠ 0 := by
  intro hx
  rw [Cert.Consts.zero_word, hx] at h
  simp [Ideal.cmp] at h

/-! ## The layout operations of the depth, read at one (view, point) pair -/

section Reads
open Cert.Pre_finite_inputs (S128x3 S250000x3 S128x1 S3x250000 S1x250000 S128x250000)
variable {α : Type}

/-- A (views × 1) column spread along the points axis reads, at (v, n), the column at (v, 0). -/
private theorem bcast_col (hb : S128x1.BroadcastsInDim S128x250000 (![0, 1] : Fin 2 → Fin S128x250000.rank))
    (y : S128x1.Idx → α) (v : Fin 128) (n : Fin 250000) :
    broadcastInDim S128x250000 ![0, 1] hb y (ix2 v n) = y (ix2 v 0) :=
  broadcastInDim_apply _ hb y _ _ fun a => match a with
    | ⟨0, _⟩ => rfl
    | ⟨1, _⟩ => rfl

/-- A (1 × points) row spread along the views axis reads, at (v, n), the row at (0, n). -/
private theorem bcast_row (hb : S1x250000.BroadcastsInDim S128x250000 (![0, 1] : Fin 2 → Fin S128x250000.rank))
    (y : S1x250000.Idx → α) (v : Fin 128) (n : Fin 250000) :
    broadcastInDim S128x250000 ![0, 1] hb y (ix2 v n) = y (ix2 0 n) :=
  broadcastInDim_apply _ hb y _ _ fun a => match a with
    | ⟨0, _⟩ => rfl
    | ⟨1, _⟩ => rfl

/-- Column j of a (views × 3) array, cut out as a (views × 1) column, reads at (v, 0) the array at (v, j). -/
private theorem slice_col (x : S128x3.Idx → α) (j : Nat) (hj : j < 3) (hs : S128x3.Slices ![0, j] S128x1) (v : Fin 128) :
    extractStridedSlice S128x1 ![0, j] x hs (ix2 v 0) = x (ix2 v ⟨j, hj⟩) :=
  extractStridedSlice_apply _ x hs _ _ fun a => match a with
    | ⟨0, _⟩ => by show v.val = 0 + v.val; omega
    | ⟨1, _⟩ => by show j = j + 0; omega

/-- Row j of the transposed (3 × points) array of points, cut out as a (1 × points) row, reads at (0, n) coordinate j of
    point n. -/
private theorem slice_row (p : S250000x3.Idx → α) (j : Nat) (hj : j < 3) (ht : S250000x3.Transposes [1, 0] S3x250000)
    (hs : S3x250000.Slices ![j, 0] S1x250000) (n : Fin 250000) :
    extractStridedSlice S1x250000 ![j, 0] (transpose S3x250000 [1, 0] p ht) hs (ix2 0 n) = p (ix2 n ⟨j, hj⟩) := by
  refine (extractStridedSlice_apply _ _ hs _ (ix2 ⟨j, hj⟩ n) fun a => match a with
    | ⟨0, _⟩ => by show j = j + 0; omega
    | ⟨1, _⟩ => by show n.val = 0 + n.val; omega).trans ?_
  exact transpose_apply _ p ht _ _ fun b => match b with
    | ⟨0, _⟩ => rfl
    | ⟨1, _⟩ => rfl

end Reads

/-! ## The two facts -/

/-- All four arguments hold real numbers. -/
theorem finite_of_pre (a0 : FVec Ideal Cert.Pre_finite_inputs.S_ .f32) (a1 a2 : FVec Ideal Cert.Pre_finite_inputs.S128x3 .f32)
    (a3 : FVec Ideal Cert.Pre_finite_inputs.S250000x3 .f32)
    (h : Cert.Pre_finite_inputs.fn (F := Ideal) a0 a1 a2 a3 = fun _ => 1#1) :
    Cert.Spec.Finite a0 a1 a2 a3 := by
  have h0 := congrFun h ix0
  dsimp only [Cert.Pre_finite_inputs.fn, Cert.Pre_finite_inputs.fn_part1, Cert.Pre_finite_inputs.fn_part2] at h0
  obtain ⟨h1234, -⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_abs_lt _ (Host.reduce_andi_all _ _ _ _ _ h1 ix0),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

/-- The depth of every (view, point) pair is nonzero. -/
theorem depth_of_pre (a0 : FVec Ideal Cert.Pre_finite_inputs.S_ .f32) (a1 a2 : FVec Ideal Cert.Pre_finite_inputs.S128x3 .f32)
    (a3 : FVec Ideal Cert.Pre_finite_inputs.S250000x3 .f32)
    (h : Cert.Pre_finite_inputs.fn (F := Ideal) a0 a1 a2 a3 = fun _ => 1#1) :
    Cert.Spec.DepthNonzero a0 a1 a2 a3 := by
  intro v n
  have h0 := congrFun h ix0
  dsimp only [Cert.Pre_finite_inputs.fn, Cert.Pre_finite_inputs.fn_part1, Cert.Pre_finite_inputs.fn_part2] at h0
  obtain ⟨-, h5⟩ := IntOp.andi_eq_one.1 h0
  have hne := ne_zero_of_une _ (Host.reduce_andi_all _ _ _ _ _ h5 (ix2 v n))
  refine fun hz => hne (Eq.trans ?_ hz)
  -- the compared value at (v, n) is a sum of three products and a translation entry, each factor a spread column or row
  show ((_ * _ + _ * _) + _ * _) + _ = _
  rw [bcast_col, bcast_col, bcast_col, bcast_col, bcast_row, bcast_row, bcast_row]
  -- the three coefficient columns at (v, 0) are the closed forms in the sines and cosines of the cut angle columns
  show (((Ideal.sin _ * Ideal.sin _ - (Ideal.cos _ * Ideal.sin _) * Ideal.cos _) * _
        + (Ideal.sin _ * Ideal.cos _ + (Ideal.cos _ * Ideal.sin _) * Ideal.sin _) * _)
      + (Ideal.cos _ * Ideal.cos _) * _) + _ = _
  rw [slice_col a1 0 (by omega), slice_col a1 1 (by omega), slice_col a1 2 (by omega), slice_col a2 2 (by omega),
    slice_row a3 0 (by omega), slice_row a3 1 (by omega), slice_row a3 2 (by omega)]
  -- what is left is the specification's depth, term for term
  rfl

end Cert.PreFacts

end
-- ==== Proof.KPayload.lean ====
/-
  What the kernel body stores, as functions of the two blocks it loads: the coefficient block x0 (128 × 12)
  and the points block x1 (3 × 4096: rows X, Y, Z).  At row r and lane q each of the three stored values is an
  affine form of (X, Y, Z)(q) with four coefficients of row r — columns 0–3, 4–7, 8–11 —; the first two are then
  multiplied by the reciprocal of the third and shifted by 512.  So the value at (r, q) depends on x1 only
  through lane q, and on x0 only through row r.
-/
import proofs.«421993_j6313601925252_3_alg».proof.Proof.Gen.KernelIdeal.Skeleton
import proofs.«421993_j6313601925252_3_alg».proof.Proof.Spec
import proofs.«421993_j6313601925252_3_alg».proof.Proof.PreFacts
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx
open Cert.KernelIdeal Cert.KernelIdeal.Gen

variable {F : FTy → Type} [FloatOps F]

/-- The three stored vectors, from the loaded blocks (the body's payloads composed). -/
def outZ (x0 : Vec F S128x12 .f32) (x1 : Vec F S3x4096 .f32) : Vec F S128x4096 .f32 :=
  k0_pay1 (k0_pay12 x0) (k0_pay13 x0) (k0_pay14 x0) (k0_pay15 x0) (k0_pay17 x1) (k0_pay18 x1) (k0_pay19 x1)
def outU (x0 : Vec F S128x12 .f32) (x1 : Vec F S3x4096 .f32) : Vec F S128x4096 .f32 :=
  k0_pay3 (k0_pay6 x0) (k0_pay7 x0) (k0_pay12 x0) (k0_pay13 x0) (k0_pay14 x0) (k0_pay15 x0) (k0_pay17 x1) (k0_pay18 x1)
    (k0_pay19 x1) (k0_pay20 x0 x1) (k0_pay21 x0 x1)
def outV (x0 : Vec F S128x12 .f32) (x1 : Vec F S3x4096 .f32) : Vec F S128x4096 .f32 :=
  k0_pay4 (k0_pay8 x0) (k0_pay9 x0) (k0_pay10 x0) (k0_pay11 x0) (k0_pay12 x0) (k0_pay13 x0) (k0_pay14 x0) (k0_pay15 x0)
    (k0_pay17 x1) (k0_pay18 x1) (k0_pay19 x1)

/-- One affine form over the scalar operations of any float family: ((T0·X + T1·Y) + T2·Z) + T3. -/
def linF (T0 T1 T2 T3 X Y Z : F .f32) : F .f32 :=
  FloatOps.addf (FloatOps.addf (FloatOps.addf (FloatOps.mulf T0 X) (FloatOps.mulf T1 Y)) (FloatOps.mulf T2 Z)) T3

/-- Column c of a 128 × 12 block, flattened to a vector and stood up again as a column, then repeated along the
    lanes: at (r, q) it is the block's entry (r, c). -/
theorem col_read {α : Type} (x : S128x12.Idx → α) (o : Nat) (h0 : S128x12.ShapeCasts S128x12)
    (h1 : S128x12.Slices ![0, o] S128x1) (h2 : S128x1.ShapeCasts S128) (h3 : S128.ShapeCasts S128x1)
    (h4 : S128x1.Broadcasts S128x4096) (r : Fin 128) (q : Fin 4096) (c : Fin 12) (hc : c.val = o) :
    broadcastTo S128x4096
        (shapeCast S128x1 (shapeCast S128 (extractStridedSlice S128x1 ![0, o] (shapeCast S128x12 x h0) h1) h2) h3) h4 (ix2 r q)
      = x (ix2 r c) := by
  rw [shapeCast_shapeCast, shapeCast_self]
  refine (broadcastTo_apply _ h4 (ix2 r q) (ix2 r (0 : Fin 1)) fun a => ?_).trans ?_
  · match a with
    | ⟨0, _⟩ => rfl
    | ⟨1, _⟩ => rfl
  · refine extractStridedSlice_apply _ x h1 (ix2 r (0 : Fin 1)) (ix2 r c) fun a => ?_
    match a with
    | ⟨0, _⟩ => exact (Nat.zero_add _).symm
    | ⟨1, _⟩ => exact hc.trans (Nat.add_zero o).symm

/-- Row j of a 3 × 4096 block, flattened to a vector and laid down again as a row, then repeated along the
    rows: at (r, q) it is the block's entry (j, q). -/
theorem row_read {α : Type} (x : S3x4096.Idx → α) (o : Nat) (h0 : S3x4096.ShapeCasts S3x4096)
    (h1 : S3x4096.Slices ![o, 0] S1x4096) (h2 : S1x4096.ShapeCasts S4096) (h3 : S4096.ShapeCasts S1x4096)
    (h4 : S1x4096.Broadcasts S128x4096) (r : Fin 128) (q : Fin 4096) (j : Fin 3) (hj : j.val = o) :
    broadcastTo S128x4096
        (shapeCast S1x4096 (shapeCast S4096 (extractStridedSlice S1x4096 ![o, 0] (shapeCast S3x4096 x h0) h1) h2) h3) h4 (ix2 r q)
      = x (ix2 j q) := by
  rw [shapeCast_shapeCast, shapeCast_self]
  refine (broadcastTo_apply _ h4 (ix2 r q) (ix2 (0 : Fin 1) q) fun a => ?_).trans ?_
  · match a with
    | ⟨0, _⟩ => rfl
    | ⟨1, _⟩ => rfl
  · refine extractStridedSlice_apply _ x h1 (ix2 (0 : Fin 1) q) (ix2 j q) fun a => ?_
    match a with
    | ⟨0, _⟩ => exact hj.trans (Nat.add_zero o).symm
    | ⟨1, _⟩ => exact (Nat.zero_add _).symm

/-! ## Each tabulated column and each coordinate row, read at (r, q) -/

theorem pay12_read (x0 : Vec F S128x12 .f32) (r : Fin 128) (q : Fin 4096) :
    broadcastTo S128x4096 (k0_pay12 x0) broadcasts_S128x1_S128x4096 (ix2 r q) = x0 (ix2 r 8) :=
  col_read x0 8 shapeCasts_S128x12_S128x12 slices_S128x12_o0_8_S128x1 shapeCasts_S128x1_S128 shapeCasts_S128_S128x1 broadcasts_S128x1_S128x4096 r q 8 rfl

theorem pay13_read (x0 : Vec F S128x12 .f32) (r : Fin 128) (q : Fin 4096) :
    broadcastTo S128x4096 (k0_pay13 x0) broadcasts_S128x1_S128x4096 (ix2 r q) = x0 (ix2 r 9) :=
  col_read x0 9 shapeCasts_S128x12_S128x12 slices_S128x12_o0_9_S128x1 shapeCasts_S128x1_S128 shapeCasts_S128_S128x1 broadcasts_S128x1_S128x4096 r q 9 rfl

theorem pay14_read (x0 : Vec F S128x12 .f32) (r : Fin 128) (q : Fin 4096) :
    broadcastTo S128x4096 (k0_pay14 x0) broadcasts_S128x1_S128x4096 (ix2 r q) = x0 (ix2 r 10) :=
  col_read x0 10 shapeCasts_S128x12_S128x12 slices_S128x12_o0_10_S128x1 shapeCasts_S128x1_S128 shapeCasts_S128_S128x1 broadcasts_S128x1_S128x4096 r q 10 rfl

theorem pay15_read (x0 : Vec F S128x12 .f32) (r : Fin 128) (q : Fin 4096) :
    broadcastTo S128x4096 (k0_pay15 x0) broadcasts_S128x1_S128x4096 (ix2 r q) = x0 (ix2 r 11) :=
  col_read x0 11 shapeCasts_S128x12_S128x12 slices_S128x12_o0_11_S128x1 shapeCasts_S128x1_S128 shapeCasts_S128_S128x1 broadcasts_S128x1_S128x4096 r q 11 rfl

theorem pay6_read (x0 : Vec F S128x12 .f32) (r : Fin 128) (q : Fin 4096) :
    broadcastTo S128x4096 (k0_pay6 x0) broadcasts_S128x1_S128x4096 (ix2 r q) = x0 (ix2 r 2) :=
  col_read x0 2 shapeCasts_S128x12_S128x12 slices_S128x12_o0_2_S128x1 shapeCasts_S128x1_S128 shapeCasts_S128_S128x1 broadcasts_S128x1_S128x4096 r q 2 rfl

theorem pay7_read (x0 : Vec F S128x12 .f32) (r : Fin 128) (q : Fin 4096) :
    broadcastTo S128x4096 (k0_pay7 x0) broadcasts_S128x1_S128x4096 (ix2 r q) = x0 (ix2 r 3) :=
  col_read x0 3 shapeCasts_S128x12_S128x12 slices_S128x12_o0_3_S128x1 shapeCasts_S128x1_S128 shapeCasts_S128_S128x1 broadcasts_S128x1_S128x4096 r q 3 rfl

theorem pay8_read (x0 : Vec F S128x12 .f32) (r : Fin 128) (q : Fin 4096) :
    broadcastTo S128x4096 (k0_pay8 x0) broadcasts_S128x1_S128x4096 (ix2 r q) = x0 (ix2 r 4) :=
  col_read x0 4 shapeCasts_S128x12_S128x12 slices_S128x12_o0_4_S128x1 shapeCasts_S128x1_S128 shapeCasts_S128_S128x1 broadcasts_S128x1_S128x4096 r q 4 rfl

theorem pay9_read (x0 : Vec F S128x12 .f32) (r : Fin 128) (q : Fin 4096) :
    broadcastTo S128x4096 (k0_pay9 x0) broadcasts_S128x1_S128x4096 (ix2 r q) = x0 (ix2 r 5) :=
  col_read x0 5 shapeCasts_S128x12_S128x12 slices_S128x12_o0_5_S128x1 shapeCasts_S128x1_S128 shapeCasts_S128_S128x1 broadcasts_S128x1_S128x4096 r q 5 rfl

theorem pay10_read (x0 : Vec F S128x12 .f32) (r : Fin 128) (q : Fin 4096) :
    broadcastTo S128x4096 (k0_pay10 x0) broadcasts_S128x1_S128x4096 (ix2 r q) = x0 (ix2 r 6) :=
  col_read x0 6 shapeCasts_S128x12_S128x12 slices_S128x12_o0_6_S128x1 shapeCasts_S128x1_S128 shapeCasts_S128_S128x1 broadcasts_S128x1_S128x4096 r q 6 rfl

theorem pay11_read (x0 : Vec F S128x12 .f32) (r : Fin 128) (q : Fin 4096) :
    broadcastTo S128x4096 (k0_pay11 x0) broadcasts_S128x1_S128x4096 (ix2 r q) = x0 (ix2 r 7) :=
  col_read x0 7 shapeCasts_S128x12_S128x12 slices_S128x12_o0_7_S128x1 shapeCasts_S128x1_S128 shapeCasts_S128_S128x1 broadcasts_S128x1_S128x4096 r q 7 rfl

theorem pay17_read (x1 : Vec F S3x4096 .f32) (r : Fin 128) (q : Fin 4096) :
    broadcastTo S128x4096 (k0_pay17 x1) broadcasts_S1x4096_S128x4096 (ix2 r q) = x1 (ix2 0 q) :=
  row_read x1 0 shapeCasts_S3x4096_S3x4096 slices_S3x4096_o0_0_S1x4096 shapeCasts_S1x4096_S4096 shapeCasts_S4096_S1x4096 broadcasts_S1x4096_S128x4096 r q 0 rfl

theorem pay18_read (x1 : Vec F S3x4096 .f32) (r : Fin 128) (q : Fin 4096) :
    broadcastTo S128x4096 (k0_pay18 x1) broadcasts_S1x4096_S128x4096 (ix2 r q) = x1 (ix2 1 q) :=
  row_read x1 1 shapeCasts_S3x4096_S3x4096 slices_S3x4096_o1_0_S1x4096 shapeCasts_S1x4096_S4096 shapeCasts_S4096_S1x4096 broadcasts_S1x4096_S128x4096 r q 1 rfl

theorem pay19_read (x1 : Vec F S3x4096 .f32) (r : Fin 128) (q : Fin 4096) :
    broadcastTo S128x4096 (k0_pay19 x1) broadcasts_S1x4096_S128x4096 (ix2 r q) = x1 (ix2 2 q) :=
  row_read x1 2 shapeCasts_S3x4096_S3x4096 slices_S3x4096_o2_0_S1x4096 shapeCasts_S1x4096_S4096 shapeCasts_S4096_S1x4096 broadcasts_S1x4096_S128x4096 r q 2 rfl

theorem pay20_read (x0 : Vec F S128x12 .f32) (x1 : Vec F S3x4096 .f32) (r : Fin 128) (q : Fin 4096) :
    k0_pay20 x0 x1 (ix2 r q) = FloatOps.mulf (x0 (ix2 r 0)) (x1 (ix2 0 q)) :=
  congrArg₂ FloatOps.mulf (col_read x0 0 shapeCasts_S128x12_S128x12 slices_S128x12_o0_0_S128x1 shapeCasts_S128x1_S128 shapeCasts_S128_S128x1 broadcasts_S128x1_S128x4096 r q 0 rfl) (pay17_read x1 r q)

theorem pay21_read (x0 : Vec F S128x12 .f32) (x1 : Vec F S3x4096 .f32) (r : Fin 128) (q : Fin 4096) :
    k0_pay21 x0 x1 (ix2 r q) = FloatOps.mulf (x0 (ix2 r 1)) (x1 (ix2 1 q)) :=
  congrArg₂ FloatOps.mulf (col_read x0 1 shapeCasts_S128x12_S128x12 slices_S128x12_o0_1_S128x1 shapeCasts_S128x1_S128 shapeCasts_S128_S128x1 broadcasts_S128x1_S128x4096 r q 1 rfl) (pay18_read x1 r q)

/-! ## The three arithmetic payloads, pointwise

The elementwise operations act index by index, and a broadcast scalar is that scalar at every index, so each stored
vector at an index is the scalar expression over its operands read at that index. -/

/-- The depth payload at an index, over its seven broadcast operands. -/
theorem pay1_read (v28 v31 v34 v37 : FVec F S128x1 .f32) (v42 v45 v48 : FVec F S1x4096 .f32) (i : S128x4096.Idx) :
    k0_pay1 v28 v31 v34 v37 v42 v45 v48 i
      = linF (broadcastTo S128x4096 v28 broadcasts_S128x1_S128x4096 i) (broadcastTo S128x4096 v31 broadcasts_S128x1_S128x4096 i)
          (broadcastTo S128x4096 v34 broadcasts_S128x1_S128x4096 i) (broadcastTo S128x4096 v37 broadcasts_S128x1_S128x4096 i)
          (broadcastTo S128x4096 v42 broadcasts_S1x4096_S128x4096 i) (broadcastTo S128x4096 v45 broadcasts_S1x4096_S128x4096 i)
          (broadcastTo S128x4096 v48 broadcasts_S1x4096_S128x4096 i) := rfl

/-- The reciprocal payload at an index: one over the depth payload. -/
theorem pay2_read (v28 v31 v34 v37 : FVec F S128x1 .f32) (v42 v45 v48 : FVec F S1x4096 .f32) (i : S128x4096.Idx) :
    k0_pay2 v28 v31 v34 v37 v42 v45 v48 i
      = FloatOps.divf (Scalar.ofBits .f32 0x3F800000#32) (k0_pay1 v28 v31 v34 v37 v42 v45 v48 i) := rfl

/-- The u payload at an index: its first two products arrive already formed (p0, p1). -/
theorem pay3_read (v10 v13 v28 v31 v34 v37 : FVec F S128x1 .f32) (v42 v45 v48 : FVec F S1x4096 .f32)
    (p0 p1 : FVec F S128x4096 .f32) (i : S128x4096.Idx) :
    k0_pay3 v10 v13 v28 v31 v34 v37 v42 v45 v48 p0 p1 i
      = FloatOps.addf
          (FloatOps.mulf
            (FloatOps.addf
              (FloatOps.addf (FloatOps.addf (p0 i) (p1 i))
                (FloatOps.mulf (broadcastTo S128x4096 v10 broadcasts_S128x1_S128x4096 i)
                  (broadcastTo S128x4096 v48 broadcasts_S1x4096_S128x4096 i)))
              (broadcastTo S128x4096 v13 broadcasts_S128x1_S128x4096 i))
            (k0_pay2 v28 v31 v34 v37 v42 v45 v48 i))
          (Scalar.ofBits .f32 0x44000000#32) := rfl

/-- The v payload at an index. -/
theorem pay4_read (v16 v19 v22 v25 v28 v31 v34 v37 : FVec F S128x1 .f32) (v42 v45 v48 : FVec F S1x4096 .f32)
    (i : S128x4096.Idx) :
    k0_pay4 v16 v19 v22 v25 v28 v31 v34 v37 v42 v45 v48 i
      = FloatOps.addf
          (FloatOps.mulf
            (linF (broadcastTo S128x4096 v16 broadcasts_S128x1_S128x4096 i) (broadcastTo S128x4096 v19 broadcasts_S128x1_S128x4096 i)
              (broadcastTo S128x4096 v22 broadcasts_S128x1_S128x4096 i) (broadcastTo S128x4096 v25 broadcasts_S128x1_S128x4096 i)
              (broadcastTo S128x4096 v42 broadcasts_S1x4096_S128x4096 i) (broadcastTo S128x4096 v45 broadcasts_S1x4096_S128x4096 i)
              (broadcastTo S128x4096 v48 broadcasts_S1x4096_S128x4096 i))
            (k0_pay2 v28 v31 v34 v37 v42 v45 v48 i))
          (Scalar.ofBits .f32 0x44000000#32) := rfl

/-- The depth at (r, q). -/
theorem outZ_apply (x0 : Vec F S128x12 .f32) (x1 : Vec F S3x4096 .f32) (r : Fin 128) (q : Fin 4096) :
    outZ x0 x1 (ix2 r q)
      = linF (x0 (ix2 r 8)) (x0 (ix2 r 9)) (x0 (ix2 r 10)) (x0 (ix2 r 11)) (x1 (ix2 0 q)) (x1 (ix2 1 q)) (x1 (ix2 2 q)) := by
  unfold outZ
  rw [pay1_read, pay12_read, pay13_read, pay14_read, pay15_read, pay17_read, pay18_read, pay19_read]

/-- u at (r, q): the first affine form times the reciprocal of the depth, plus 512. -/
theorem outU_apply (x0 : Vec F S128x12 .f32) (x1 : Vec F S3x4096 .f32) (r : Fin 128) (q : Fin 4096) :
    outU x0 x1 (ix2 r q)
      = FloatOps.addf
          (FloatOps.mulf
            (linF (x0 (ix2 r 0)) (x0 (ix2 r 1)) (x0 (ix2 r 2)) (x0 (ix2 r 3)) (x1 (ix2 0 q)) (x1 (ix2 1 q)) (x1 (ix2 2 q)))
            (FloatOps.divf (Scalar.ofBits .f32 0x3F800000#32)
              (linF (x0 (ix2 r 8)) (x0 (ix2 r 9)) (x0 (ix2 r 10)) (x0 (ix2 r 11)) (x1 (ix2 0 q)) (x1 (ix2 1 q)) (x1 (ix2 2 q)))))
          (Scalar.ofBits .f32 0x44000000#32) := by
  unfold outU
  rw [pay3_read, pay2_read, pay1_read, pay20_read, pay21_read, pay6_read, pay7_read, pay12_read, pay13_read, pay14_read,
    pay15_read, pay17_read, pay18_read, pay19_read]
  rfl

/-- v at (r, q): the second affine form times the same reciprocal, plus 512. -/
theorem outV_apply (x0 : Vec F S128x12 .f32) (x1 : Vec F S3x4096 .f32) (r : Fin 128) (q : Fin 4096) :
    outV x0 x1 (ix2 r q)
      = FloatOps.addf
          (FloatOps.mulf
            (linF (x0 (ix2 r 4)) (x0 (ix2 r 5)) (x0 (ix2 r 6)) (x0 (ix2 r 7)) (x1 (ix2 0 q)) (x1 (ix2 1 q)) (x1 (ix2 2 q)))
            (FloatOps.divf (Scalar.ofBits .f32 0x3F800000#32)
              (linF (x0 (ix2 r 8)) (x0 (ix2 r 9)) (x0 (ix2 r 10)) (x0 (ix2 r 11)) (x1 (ix2 0 q)) (x1 (ix2 1 q)) (x1 (ix2 2 q)))))
          (Scalar.ofBits .f32 0x44000000#32) := by
  unfold outV
  rw [pay4_read, pay2_read, pay1_read, pay8_read, pay9_read, pay10_read, pay11_read, pay12_read, pay13_read, pay14_read,
    pay15_read, pay17_read, pay18_read, pay19_read]

/-- Lane locality: two points blocks that agree on lane q give the same three values at (r, q). -/
theorem outZ_congr (x0 : Vec F S128x12 .f32) (x1 x1' : Vec F S3x4096 .f32) (r : Fin 128) (q : Fin 4096)
    (h : ∀ k : Fin 3, x1 (ix2 k q) = x1' (ix2 k q)) : outZ x0 x1 (ix2 r q) = outZ x0 x1' (ix2 r q) := by
  rw [outZ_apply, outZ_apply, h 0, h 1, h 2]
theorem outU_congr (x0 : Vec F S128x12 .f32) (x1 x1' : Vec F S3x4096 .f32) (r : Fin 128) (q : Fin 4096)
    (h : ∀ k : Fin 3, x1 (ix2 k q) = x1' (ix2 k q)) : outU x0 x1 (ix2 r q) = outU x0 x1' (ix2 r q) := by
  rw [outU_apply, outU_apply, h 0, h 1, h 2]
theorem outV_congr (x0 : Vec F S128x12 .f32) (x1 x1' : Vec F S3x4096 .f32) (r : Fin 128) (q : Fin 4096)
    (h : ∀ k : Fin 3, x1 (ix2 k q) = x1' (ix2 k q)) : outV x0 x1 (ix2 r q) = outV x0 x1' (ix2 r q) := by
  rw [outV_apply, outV_apply, h 0, h 1, h 2]

/-! ## On the extended reals -/

/-- At the exact instance the three values are the specification's affine forms of the loaded blocks. -/
theorem outZ_ideal (x0 : Vec Ideal S128x12 .f32) (x1 : Vec Ideal S3x4096 .f32) (r : Fin 128) (q : Fin 4096) :
    outZ (F := Ideal) x0 x1 (ix2 r q)
      = Cert.Spec.lin (fun k => x0 (ix2 r k)) 8 9 10 11 (x1 (ix2 0 q)) (x1 (ix2 1 q)) (x1 (ix2 2 q)) := by
  rw [outZ_apply]
  simp only [linF, Ideal.addf_def, Ideal.mulf_def, Cert.Spec.lin]
theorem outU_ideal (x0 : Vec Ideal S128x12 .f32) (x1 : Vec Ideal S3x4096 .f32) (r : Fin 128) (q : Fin 4096) :
    outU (F := Ideal) x0 x1 (ix2 r q)
      = Cert.Spec.lin (fun k => x0 (ix2 r k)) 0 1 2 3 (x1 (ix2 0 q)) (x1 (ix2 1 q)) (x1 (ix2 2 q))
          * Ideal.div Cert.Spec.c1 (Cert.Spec.lin (fun k => x0 (ix2 r k)) 8 9 10 11 (x1 (ix2 0 q)) (x1 (ix2 1 q)) (x1 (ix2 2 q)))
        + Cert.Spec.c512 := by
  rw [outU_apply]
  simp only [linF, Ideal.addf_def, Ideal.mulf_def, Ideal.divf_def, Ideal.ofBits_def, Cert.Spec.lin]
theorem outV_ideal (x0 : Vec Ideal S128x12 .f32) (x1 : Vec Ideal S3x4096 .f32) (r : Fin 128) (q : Fin 4096) :
    outV (F := Ideal) x0 x1 (ix2 r q)
      = Cert.Spec.lin (fun k => x0 (ix2 r k)) 4 5 6 7 (x1 (ix2 0 q)) (x1 (ix2 1 q)) (x1 (ix2 2 q))
          * Ideal.div Cert.Spec.c1 (Cert.Spec.lin (fun k => x0 (ix2 r k)) 8 9 10 11 (x1 (ix2 0 q)) (x1 (ix2 1 q)) (x1 (ix2 2 q)))
        + Cert.Spec.c512 := by
  rw [outV_apply]
  simp only [linF, Ideal.addf_def, Ideal.mulf_def, Ideal.divf_def, Ideal.ofBits_def, Cert.Spec.lin]

end Cert.KernelIdeal.Pay

end
-- ==== Proof.KFrame.lean ====
/-
  The frame of the kernel program, at any float family.  @main is 74 host operations (the per-view coefficient
  table and the transposed points), one pipelined region over a grid of 62 points, and three host operations
  (u and v set side by side).  The region has five windows: the 128 × 12 table, fetched once and held; the points,
  3 × 4096 lanes per point; and three results, 128 × 4096 per point.  250000 = 61 · 4096 + 144, so at the last
  point the four moving windows overhang their arrays by 3952 lanes: the fetch fills only the first 144 lanes
  of the points' staging buffer, the body computes on all 4096, and the write-backs keep only the first 144.
  Each stored value at lane q depends on the points only through lane q, so what is written back is determined
  by the lanes that were fetched, whatever the rest of the staging buffer holds.
-/
import proofs.«421993_j6313601925252_3_alg».proof.Proof.Gen.KernelIdeal.Launch
import proofs.«421993_j6313601925252_3_alg».proof.Proof.Gen.KernelIdeal.Skeleton
import proofs.«421993_j6313601925252_3_alg».proof.Proof.Gen.KernelIdeal.Points
import proofs.«421993_j6313601925252_3_alg».proof.Proof.KPayload
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffers when the region is entered: the launch contents run through the host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host operations, the region, the later ones: it reduces to the region continued by the later ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only unscoped buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- and write none of the five windowed arrays (each writes its own result: two broadcasts and the interleaved pair). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl
  all_goals intro w; fin_cases w <;> simp only [StableHlo.unary_writes, StableHlo.binary_writes, Finset.mem_singleton] <;> exact StableHlo.devRef_ne_of_ne (by decide)

/-- The four arguments are written by no host operation, before the region or after it. -/
theorem pre_keeps (b : Ref sig .tc) (hb : b = main_arg0 ∨ b = main_arg1 ∨ b = main_arg2 ∨ b = main_arg3) (c : Dev nD) :
    V m c b = m ((c : Thread nD τ).loc b) := by
  refine StableHlo.after_of_forall_not_mem (b := Proc.devRef .tc b) _ _ (List.forall_iff_forall_mem.mp ?_)
  rcases hb with rfl | rfl | rfl | rfl
  all_goals
    simp only [hostOps0, List.flatten_cons, List.flatten_nil, List.append_nil, List.cons_append,
      List.nil_append, List.Forall, StableHlo.unary_writes, StableHlo.binary_writes, StableHlo.reshape_writes,
      StableHlo.nary_writes, Finset.mem_singleton]
    repeat' apply And.intro
    all_goals exact StableHlo.devRef_ne_of_ne (by decide)

/-- After the later operations an argument still holds its launch contents: they do not write it, it is no windowed array, and
    the earlier operations did not write it. -/
theorem post_keeps_of (dats : (p : Fin 1) → (c : Dev nD) → Dat τ (Elt F) Unit ℕ (UR sig nD τ) ℕ (cfgs p) c)
    (b : Ref sig .tc) (c : Dev nD) (hpre : V m c b = m ((c : Thread nD τ).loc b))
    (hne : ∀ w, Pipeline.arrRef spec0 w ≠ b)
    (hnw : ∀ op ∈ (List.flatten [hostOps1 (F := F)]), Proc.devRef .tc b ∉ op.writes) :
    Pipeline.afterTail₀ cfgs dats 0 (V0 m) [hostOps1] c b = m ((c : Thread nD τ).loc b) := by
  unfold Pipeline.afterTail₀
  rw [StableHlo.after_of_forall_not_mem (b := Proc.devRef .tc b) _ _ hnw, Pipeline.withArrays_of_ne _ c (V0 m c) _ b hne]
  exact hpre

theorem tail_writes_no_arg (b : Ref sig .tc) (hb : b = main_arg0 ∨ b = main_arg1 ∨ b = main_arg2 ∨ b = main_arg3) :
    ∀ op ∈ (List.flatten [hostOps1 (F := F)]), Proc.devRef (τ := τ) .tc b ∉ op.writes := by
  refine List.forall_iff_forall_mem.mp ?_
  rcases hb with rfl | rfl | rfl | rfl
  all_goals
    simp only [hostOps1, List.flatten_cons, List.flatten_nil, List.append_nil, List.cons_append,
      List.nil_append, List.Forall, StableHlo.unary_writes, StableHlo.binary_writes, Finset.mem_singleton]
    repeat' apply And.intro
    all_goals exact StableHlo.devRef_ne_of_ne (by decide)

theorem post_keeps (dats : (p : Fin 1) → (c : Dev nD) → Dat τ (Elt F) Unit ℕ (UR sig nD τ) ℕ (cfgs p) c)
    (b : Ref sig .tc) (hb : b = main_arg0 ∨ b = main_arg1 ∨ b = main_arg2 ∨ b = main_arg3) (c : Dev nD) :
    Pipeline.afterTail₀ cfgs dats 0 (V0 m) [hostOps1] c b = m ((c : Thread nD τ).loc b) := by
  refine post_keeps_of m dats b c (pre_keeps m b hb c) ?_ (tail_writes_no_arg b hb)
  rcases hb with rfl | rfl | rfl | rfl
  · exact (by decide : ∀ w, Pipeline.arrRef spec0 w ≠ main_arg0)
  · exact (by decide : ∀ w, Pipeline.arrRef spec0 w ≠ main_arg1)
  · exact (by decide : ∀ w, Pipeline.arrRef spec0 w ≠ main_arg2)
  · exact (by decide : ∀ w, Pipeline.arrRef spec0 w ≠ main_arg3)

/-! ## The windows' blocks and the proof data -/

/-- Window w's block at point t, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The coefficient block: the whole table, at every point. -/
abbrev coefB (c : Dev nD) (t : Fin cfg0.N) : Vec F S128x12 .f32 := iblk m c 0 t

/-- The points block at point t as a full 3 × 4096 vector: the lanes inside the array, the zero word on the lanes past its end. -/
def ptsB (c : Dev nD) (t : Fin cfg0.N) : Vec F S3x4096 .f32 :=
  win0_1.fill (grid0.coords t) (fun _ => Scalar.ofBits .f32 0#32) (iblk m c 1 t)

/-- The proof data: the arrays as the region finds them; after the body at point t the two input buffers at their blocks
    and the three result buffers at the body's three vectors of those blocks (on the lanes inside the arrays: the four moving
    windows are loose). -/
def dats (_ : Fin 1) (c : Dev nD) : Dat τ (Elt F) Unit ℕ (UR sig nD τ) ℕ cfg0 c where
  A w := V m c (Pipeline.arrRef spec0 w)
  after w t := match w with
    | ⟨0, _⟩ => coefB m c t
    | ⟨1, _⟩ => ptsB m c t
    | ⟨2, _⟩ => outU (coefB m c t) (ptsB m c t)
    | ⟨3, _⟩ => outV (coefB m c t) (ptsB m c t)
    | ⟨4, _⟩ => outZ (coefB m c t) (ptsB m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = coefB m c t := by dsimp only [dats]
theorem after_1 (c : Dev nD) (t : Fin cfg0.N) : (dats m 0 c).after 1 t = ptsB m c t := by dsimp only [dats]
theorem after_2 (c : Dev nD) (t : Fin cfg0.N) : (dats m 0 c).after 2 t = outU (coefB m c t) (ptsB m c t) := by dsimp only [dats]
theorem after_3 (c : Dev nD) (t : Fin cfg0.N) : (dats m 0 c).after 3 t = outV (coefB m c t) (ptsB m c t) := by dsimp only [dats]
theorem after_4 (c : Dev nD) (t : Fin cfg0.N) : (dats m 0 c).after 4 t = outZ (coefB m c t) (ptsB m c t) := by dsimp only [dats]

/-! ## What each buffer holds when the body starts -/

/-- The table's buffer holds the table at every point: fetched at the first, left in place by the body afterwards. -/
theorem before_0 (c : Dev nD) (t : Fin cfg0.N) (d) : (dats m 0 c).before 0 t d = coefB m c t :=
  ((dats m 0 c).before_in_eq_fetched 0 rfl (fun _ => rfl) (fun _ _ _ => rfl)
      (fun t => by rw [after_0]; unfold Dat.blockOf coefB iblk; rw [A_eq]) t d).trans
    (by unfold Dat.fetched Dat.blockOf coefB iblk; rw [A_eq]; rfl)

/-- The points' buffer was fetched at this point: the block on the lanes inside the array, anything past them. -/
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]; try rfl

/-- A result's buffer holds anything: it was written back at the point before. -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d
theorem before_3 (c : Dev nD) (t : Fin cfg0.N) (d) : (dats m 0 c).before 3 t d = d :=
  (dats m 0 c).before_out_reset 3 rfl t (by
    by_cases h : t.val = 0
    · exact .inl h
    · exact .inr ⟨h, flush0_3 _⟩) d
theorem before_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-! ## The body's triple -/

set_option maxHeartbeats 2000000 in
/-- The body on five whole staging memrefs — the table's at x0, the points' at x1, the results' at anything —
    runs to the continuation with the inputs' as they were and the results' at the three vectors of (x0, x1):
    two whole loads, three dead loads, three whole stores. -/
theorem sound_kernel (c : Dev nD) (E : Set ℕ) (i : grid0.Coords)
    (arg1 : Memref sig .tc .vmem S128x12 .f32) (harg1 : arg1.IsWhole) (arg2 : Memref sig .tc .vmem S3x4096 .f32) (harg2 : arg2.IsWhole)
    (arg3 : Memref sig .tc .vmem S128x4096 .f32) (harg3 : arg3.IsWhole) (arg4 : Memref sig .tc .vmem S128x4096 .f32) (harg4 : arg4.IsWhole)
    (arg5 : Memref sig .tc .vmem S128x4096 .f32) (harg5 : arg5.IsWhole)
    (x0 : Vec F S128x12 .f32) (x1 : Vec F S3x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (outU x0 x1) ∗ owns (c : Thread nD τ) arg4 fullShare (outV x0 x1)
            ∗ owns (c : Thread nD τ) arg5 fullShare (outZ x0 x1)) -∗ K ⟨⟩))
      ⊢ wp frame (wpE (defs₀ (F := F)) Variants.none c none) E
          (cc0__bundle_kernel i arg1 harg1 arg2 harg2 arg3 harg3 arg4 harg4 arg5 harg5) K := by
  simp only [cc0__bundle_kernel_eq_skeleton]; unfold cc0__bundle_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  have hz : (![0, 0] : Fin 2 → Nat) = fun _ => 0 := funext fun a => by fin_cases a <;> rfl
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz inb_S128x4096_S128x4096_0_0 y⟩),
      View.canon_unit_zero hz]
    simp only [View.readAt_eq_ld, View.ld_unit_zero (S := S128x12) hz, View.ld_unit_zero (S := S3x4096) hz]
    first | rfl | (unfold outU; rfl)
  isplitl [H3]
  · iexists _; isplitr
    swap; · iexact H3
    ipureintro
    rw [View.read_writes_eq_canon _ _ _ (fun y => ⟨_, List.mem_singleton_self _, View.mem_set_unit_zero hz inb_S128x4096_S128x4096_0_0 y⟩),
      View.canon_unit_zero hz]
    simp only [View.readAt_eq_ld, View.ld_unit_zero (S := S128x12) hz, View.ld_unit_zero (S := S3x4096) hz]
    first | rfl | (unfold outV; rfl)
  · iexists _; isplitr
    swap; · iexact H4
    ipureintro
    rw [View.read_writes_eq_canon _ _ _ (fun y => ⟨_, List.mem_singleton_self _, View.mem_set_unit_zero hz inb_S128x4096_S128x4096_0_0 y⟩),
      View.canon_unit_zero hz]
    simp only [View.readAt_eq_ld, View.ld_unit_zero (S := S128x12) hz, View.ld_unit_zero (S := S3x4096) hz]
    first | rfl | (unfold outZ; rfl)

/-! ## The body obligation -/

/-- On a lane inside the array, what the points' buffer holds is the fetched block, whatever fills the lanes past the array's end. -/
theorem fill_lane (t : Fin cfg0.N) (d d' : S3x4096.Idx → Elt F .f32)
    (g : (win0_1.xblock (grid0.coords t)).Idx → Elt F .f32) (k : Fin 3) (q : Fin 4096)
    (hq : q.val < win0_1.xsize (grid0.coords t) 1) :
    win0_1.fill (grid0.coords t) d g (ix2 k q) = win0_1.fill (grid0.coords t) d' g (ix2 k q) := by
  have hm : win0_1.moved (grid0.coords t) (ix2 k q) = true :=
    (win0_1.moved_iff _ _).mpr fun a => match a with
      | ⟨0, _⟩ => (show k.val < 3 from k.isLt)
      | ⟨1, _⟩ => hq
  unfold Window.fill
  rw [dif_pos hm, dif_pos hm]

/-- So the lanes of each result that are written back do not depend on it either: the three results cut to the array are the
    same for any filler as for the zero word. -/
theorem cut_U (c : Dev nD) (t : Fin cfg0.N) (d : S3x4096.Idx → Elt F .f32) :
    win0_2.cut (grid0.coords t) (outU (coefB m c t) (win0_1.fill (grid0.coords t) d (iblk m c 1 t)))
      = win0_2.cut (grid0.coords t) (outU (coefB m c t) (ptsB m c t)) := by
  funext j
  show outU _ _ (win0_2.xinj _ j) = outU _ _ (win0_2.xinj _ j)
  rw [eq_ix2 (win0_2.xinj (grid0.coords t) j)]
  exact outU_congr _ _ _ _ _ fun k => fill_lane t _ _ _ k _ (j 1).isLt
theorem cut_V (c : Dev nD) (t : Fin cfg0.N) (d : S3x4096.Idx → Elt F .f32) :
    win0_3.cut (grid0.coords t) (outV (coefB m c t) (win0_1.fill (grid0.coords t) d (iblk m c 1 t)))
      = win0_3.cut (grid0.coords t) (outV (coefB m c t) (ptsB m c t)) := by
  funext j
  show outV _ _ (win0_3.xinj _ j) = outV _ _ (win0_3.xinj _ j)
  rw [eq_ix2 (win0_3.xinj (grid0.coords t) j)]
  exact outV_congr _ _ _ _ _ fun k => fill_lane t _ _ _ k _ (j 1).isLt
theorem cut_Z (c : Dev nD) (t : Fin cfg0.N) (d : S3x4096.Idx → Elt F .f32) :
    win0_4.cut (grid0.coords t) (outZ (coefB m c t) (win0_1.fill (grid0.coords t) d (iblk m c 1 t)))
      = win0_4.cut (grid0.coords t) (outZ (coefB m c t) (ptsB m c t)) := by
  funext j
  show outZ _ _ (win0_4.xinj _ j) = outZ _ _ (win0_4.xinj _ j)
  rw [eq_ix2 (win0_4.xinj (grid0.coords t) j)]
  exact outZ_congr _ _ _ _ _ fun k => fill_lane t _ _ _ k _ (j 1).isLt

set_option maxHeartbeats 1000000 in
/-- At every point: the table's buffer holds the table and the points' buffer the fetched block, filled out with anything;
    the body leaves those and stores the three vectors, whose lanes inside the arrays are the proof data's. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel (F := F) c Set.univ (grid0.coords t) _ _ _ _ _ _ _ _ _ _ (coefB m c t)
    (win0_1.fill (grid0.coords t) d1 (iblk m c 1 t)) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]
  · rw [after_0]; iexact H0
  isplitl [H1]
  · iexists d1
    rw [after_1]
    have e : win0_1.fill (grid0.coords t) d1 (win0_1.cut (grid0.coords t) (ptsB m c t))
        = win0_1.fill (grid0.coords t) d1 (iblk m c 1 t) := by
      unfold ptsB; rw [Window.cut_fill]
    refine (Entails.of_eq ?_).trans .rfl
    exact congrArg _ e.symm
  isplitl [H2]
  · iexists outU (coefB m c t) (win0_1.fill (grid0.coords t) d1 (iblk m c 1 t))
    rw [after_2]
    have e : win0_2.fill (grid0.coords t) (outU (coefB m c t) (win0_1.fill (grid0.coords t) d1 (iblk m c 1 t)))
          (win0_2.cut (grid0.coords t) (outU (coefB m c t) (ptsB m c t)))
        = outU (coefB m c t) (win0_1.fill (grid0.coords t) d1 (iblk m c 1 t)) := by
      rw [← cut_U m c t d1]; exact win0_2.fill_cut _ _
    refine (Entails.of_eq ?_).trans .rfl
    exact congrArg _ e.symm
  isplitl [H3]
  · iexists outV (coefB m c t) (win0_1.fill (grid0.coords t) d1 (iblk m c 1 t))
    rw [after_3]
    have e : win0_3.fill (grid0.coords t) (outV (coefB m c t) (win0_1.fill (grid0.coords t) d1 (iblk m c 1 t)))
          (win0_3.cut (grid0.coords t) (outV (coefB m c t) (ptsB m c t)))
        = outV (coefB m c t) (win0_1.fill (grid0.coords t) d1 (iblk m c 1 t)) := by
      rw [← cut_V m c t d1]; exact win0_3.fill_cut _ _
    refine (Entails.of_eq ?_).trans .rfl
    exact congrArg _ e.symm
  · iexists outZ (coefB m c t) (win0_1.fill (grid0.coords t) d1 (iblk m c 1 t))
    rw [after_4]
    have e : win0_4.fill (grid0.coords t) (outZ (coefB m c t) (win0_1.fill (grid0.coords t) d1 (iblk m c 1 t)))
          (win0_4.cut (grid0.coords t) (outZ (coefB m c t) (ptsB m c t)))
        = outZ (coefB m c t) (win0_1.fill (grid0.coords t) d1 (iblk m c 1 t)) := by
      rw [← cut_Z m c t d1]; exact win0_4.fill_cut _ _
    refine (Entails.of_eq ?_).trans .rfl
    exact congrArg _ e.symm

/-! ## The run and the frame -/

set_option backward.isDefEq.respectTransparency.types false in
/-- From any memory with zero counters every weakly fair execution of @main terminates; each windowed array ends at what the write-backs
    of the proof data leave, and every other unscoped buffer as the later host operations leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the run terminates, nothing faults, and the four arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (post_keeps m (dats m) main_arg0 (.inl rfl) c),
     ((h c).2 main_arg1 (Pipeline.mem_restRefs_of main_arg1 (by decide) (by decide))).trans (post_keeps m (dats m) main_arg1 (.inr (.inl rfl)) c),
     ((h c).2 main_arg2 (Pipeline.mem_restRefs_of main_arg2 (by decide) (by decide))).trans (post_keeps m (dats m) main_arg2 (.inr (.inr (.inl rfl))) c),
     ((h c).2 main_arg3 (Pipeline.mem_restRefs_of main_arg3 (by decide) (by decide))).trans (post_keeps m (dats m) main_arg3 (.inr (.inr (.inr rfl))) c)⟩) (run_main m ρ)

end Cert.KernelIdeal.Fr

end
-- ==== Proof.KPayloadBits.lean ====
/-
  What the kernel body stores, as functions of the two blocks it loads: the coefficient block x0 (128 × 12)
  and the points block x1 (3 × 4096: rows X, Y, Z).  At row r and lane q each of the three stored values is an
  affine form of (X, Y, Z)(q) with four coefficients of row r — columns 0–3, 4–7, 8–11 —; the first two are then
  multiplied by the reciprocal of the third and shifted by 512.  So the value at (r, q) depends on x1 only
  through lane q, and on x0 only through row r.
-/
import proofs.«421993_j6313601925252_3_alg».proof.Proof.Gen.Kernel.Skeleton
import proofs.«421993_j6313601925252_3_alg».proof.Proof.KFrame
import proofs.«421993_j6313601925252_3_alg».proof.Proof.Spec
import Idealize.ShloMosaic.PureOps.Ideal
import Idealize.ShloMosaic.Lib.ValueIdx
import Idealize.ShloMosaic.Lib.ValueLayout
import Idealize.ShloMosaic.Lib.Pipeline.Value

noncomputable section

namespace Cert.Kernel.Pay

open Idealize.ShloMosaic Idealize.ShloMosaic.ValueIdx
open Cert.Kernel Cert.Kernel.Gen

variable {F : FTy → Type} [FloatOps F]

/-- The three stored vectors, from the loaded blocks (the body's payloads composed). -/
def outZ (x0 : Vec F S128x12 .f32) (x1 : Vec F S3x4096 .f32) : Vec F S128x4096 .f32 :=
  k0_pay1 (k0_pay12 x0) (k0_pay13 x0) (k0_pay14 x0) (k0_pay15 x0) (k0_pay17 x1) (k0_pay18 x1) (k0_pay19 x1)
def outU (x0 : Vec F S128x12 .f32) (x1 : Vec F S3x4096 .f32) : Vec F S128x4096 .f32 :=
  k0_pay3 (k0_pay6 x0) (k0_pay7 x0) (k0_pay12 x0) (k0_pay13 x0) (k0_pay14 x0) (k0_pay15 x0) (k0_pay17 x1) (k0_pay18 x1)
    (k0_pay19 x1) (k0_pay20 x0 x1) (k0_pay21 x0 x1)
def outV (x0 : Vec F S128x12 .f32) (x1 : Vec F S3x4096 .f32) : Vec F S128x4096 .f32 :=
  k0_pay4 (k0_pay8 x0) (k0_pay9 x0) (k0_pay10 x0) (k0_pay11 x0) (k0_pay12 x0) (k0_pay13 x0) (k0_pay14 x0) (k0_pay15 x0)
    (k0_pay17 x1) (k0_pay18 x1) (k0_pay19 x1)

/-- One affine form over the scalar operations of any float family: ((T0·X + T1·Y) + T2·Z) + T3. -/
def linF (T0 T1 T2 T3 X Y Z : F .f32) : F .f32 :=
  FloatOps.addf (FloatOps.addf (FloatOps.addf (FloatOps.mulf T0 X) (FloatOps.mulf T1 Y)) (FloatOps.mulf T2 Z)) T3

/-- Column c of a 128 × 12 block, flattened to a vector and stood up again as a column, then repeated along the
    lanes: at (r, q) it is the block's entry (r, c). -/
theorem col_read {α : Type} (x : S128x12.Idx → α) (o : Nat) (h0 : S128x12.ShapeCasts S128x12)
    (h1 : S128x12.Slices ![0, o] S128x1) (h2 : S128x1.ShapeCasts S128) (h3 : S128.ShapeCasts S128x1)
    (h4 : S128x1.Broadcasts S128x4096) (r : Fin 128) (q : Fin 4096) (c : Fin 12) (hc : c.val = o) :
    broadcastTo S128x4096
        (shapeCast S128x1 (shapeCast S128 (extractStridedSlice S128x1 ![0, o] (shapeCast S128x12 x h0) h1) h2) h3) h4 (ix2 r q)
      = x (ix2 r c) := by
  rw [shapeCast_shapeCast, shapeCast_self]
  refine (broadcastTo_apply _ h4 (ix2 r q) (ix2 r (0 : Fin 1)) fun a => ?_).trans ?_
  · match a with
    | ⟨0, _⟩ => rfl
    | ⟨1, _⟩ => rfl
  · refine extractStridedSlice_apply _ x h1 (ix2 r (0 : Fin 1)) (ix2 r c) fun a => ?_
    match a with
    | ⟨0, _⟩ => exact (Nat.zero_add _).symm
    | ⟨1, _⟩ => exact hc.trans (Nat.add_zero o).symm

/-- Row j of a 3 × 4096 block, flattened to a vector and laid down again as a row, then repeated along the
    rows: at (r, q) it is the block's entry (j, q). -/
theorem row_read {α : Type} (x : S3x4096.Idx → α) (o : Nat) (h0 : S3x4096.ShapeCasts S3x4096)
    (h1 : S3x4096.Slices ![o, 0] S1x4096) (h2 : S1x4096.ShapeCasts S4096) (h3 : S4096.ShapeCasts S1x4096)
    (h4 : S1x4096.Broadcasts S128x4096) (r : Fin 128) (q : Fin 4096) (j : Fin 3) (hj : j.val = o) :
    broadcastTo S128x4096
        (shapeCast S1x4096 (shapeCast S4096 (extractStridedSlice S1x4096 ![o, 0] (shapeCast S3x4096 x h0) h1) h2) h3) h4 (ix2 r q)
      = x (ix2 j q) := by
  rw [shapeCast_shapeCast, shapeCast_self]
  refine (broadcastTo_apply _ h4 (ix2 r q) (ix2 (0 : Fin 1) q) fun a => ?_).trans ?_
  · match a with
    | ⟨0, _⟩ => rfl
    | ⟨1, _⟩ => rfl
  · refine extractStridedSlice_apply _ x h1 (ix2 (0 : Fin 1) q) (ix2 j q) fun a => ?_
    match a with
    | ⟨0, _⟩ => exact hj.trans (Nat.add_zero o).symm
    | ⟨1, _⟩ => exact (Nat.zero_add _).symm

/-! ## Each tabulated column and each coordinate row, read at (r, q) -/

theorem pay12_read (x0 : Vec F S128x12 .f32) (r : Fin 128) (q : Fin 4096) :
    broadcastTo S128x4096 (k0_pay12 x0) broadcasts_S128x1_S128x4096 (ix2 r q) = x0 (ix2 r 8) :=
  col_read x0 8 shapeCasts_S128x12_S128x12 slices_S128x12_o0_8_S128x1 shapeCasts_S128x1_S128 shapeCasts_S128_S128x1 broadcasts_S128x1_S128x4096 r q 8 rfl

theorem pay13_read (x0 : Vec F S128x12 .f32) (r : Fin 128) (q : Fin 4096) :
    broadcastTo S128x4096 (k0_pay13 x0) broadcasts_S128x1_S128x4096 (ix2 r q) = x0 (ix2 r 9) :=
  col_read x0 9 shapeCasts_S128x12_S128x12 slices_S128x12_o0_9_S128x1 shapeCasts_S128x1_S128 shapeCasts_S128_S128x1 broadcasts_S128x1_S128x4096 r q 9 rfl

theorem pay14_read (x0 : Vec F S128x12 .f32) (r : Fin 128) (q : Fin 4096) :
    broadcastTo S128x4096 (k0_pay14 x0) broadcasts_S128x1_S128x4096 (ix2 r q) = x0 (ix2 r 10) :=
  col_read x0 10 shapeCasts_S128x12_S128x12 slices_S128x12_o0_10_S128x1 shapeCasts_S128x1_S128 shapeCasts_S128_S128x1 broadcasts_S128x1_S128x4096 r q 10 rfl

theorem pay15_read (x0 : Vec F S128x12 .f32) (r : Fin 128) (q : Fin 4096) :
    broadcastTo S128x4096 (k0_pay15 x0) broadcasts_S128x1_S128x4096 (ix2 r q) = x0 (ix2 r 11) :=
  col_read x0 11 shapeCasts_S128x12_S128x12 slices_S128x12_o0_11_S128x1 shapeCasts_S128x1_S128 shapeCasts_S128_S128x1 broadcasts_S128x1_S128x4096 r q 11 rfl

theorem pay6_read (x0 : Vec F S128x12 .f32) (r : Fin 128) (q : Fin 4096) :
    broadcastTo S128x4096 (k0_pay6 x0) broadcasts_S128x1_S128x4096 (ix2 r q) = x0 (ix2 r 2) :=
  col_read x0 2 shapeCasts_S128x12_S128x12 slices_S128x12_o0_2_S128x1 shapeCasts_S128x1_S128 shapeCasts_S128_S128x1 broadcasts_S128x1_S128x4096 r q 2 rfl

theorem pay7_read (x0 : Vec F S128x12 .f32) (r : Fin 128) (q : Fin 4096) :
    broadcastTo S128x4096 (k0_pay7 x0) broadcasts_S128x1_S128x4096 (ix2 r q) = x0 (ix2 r 3) :=
  col_read x0 3 shapeCasts_S128x12_S128x12 slices_S128x12_o0_3_S128x1 shapeCasts_S128x1_S128 shapeCasts_S128_S128x1 broadcasts_S128x1_S128x4096 r q 3 rfl

theorem pay8_read (x0 : Vec F S128x12 .f32) (r : Fin 128) (q : Fin 4096) :
    broadcastTo S128x4096 (k0_pay8 x0) broadcasts_S128x1_S128x4096 (ix2 r q) = x0 (ix2 r 4) :=
  col_read x0 4 shapeCasts_S128x12_S128x12 slices_S128x12_o0_4_S128x1 shapeCasts_S128x1_S128 shapeCasts_S128_S128x1 broadcasts_S128x1_S128x4096 r q 4 rfl

theorem pay9_read (x0 : Vec F S128x12 .f32) (r : Fin 128) (q : Fin 4096) :
    broadcastTo S128x4096 (k0_pay9 x0) broadcasts_S128x1_S128x4096 (ix2 r q) = x0 (ix2 r 5) :=
  col_read x0 5 shapeCasts_S128x12_S128x12 slices_S128x12_o0_5_S128x1 shapeCasts_S128x1_S128 shapeCasts_S128_S128x1 broadcasts_S128x1_S128x4096 r q 5 rfl

theorem pay10_read (x0 : Vec F S128x12 .f32) (r : Fin 128) (q : Fin 4096) :
    broadcastTo S128x4096 (k0_pay10 x0) broadcasts_S128x1_S128x4096 (ix2 r q) = x0 (ix2 r 6) :=
  col_read x0 6 shapeCasts_S128x12_S128x12 slices_S128x12_o0_6_S128x1 shapeCasts_S128x1_S128 shapeCasts_S128_S128x1 broadcasts_S128x1_S128x4096 r q 6 rfl

theorem pay11_read (x0 : Vec F S128x12 .f32) (r : Fin 128) (q : Fin 4096) :
    broadcastTo S128x4096 (k0_pay11 x0) broadcasts_S128x1_S128x4096 (ix2 r q) = x0 (ix2 r 7) :=
  col_read x0 7 shapeCasts_S128x12_S128x12 slices_S128x12_o0_7_S128x1 shapeCasts_S128x1_S128 shapeCasts_S128_S128x1 broadcasts_S128x1_S128x4096 r q 7 rfl

theorem pay17_read (x1 : Vec F S3x4096 .f32) (r : Fin 128) (q : Fin 4096) :
    broadcastTo S128x4096 (k0_pay17 x1) broadcasts_S1x4096_S128x4096 (ix2 r q) = x1 (ix2 0 q) :=
  row_read x1 0 shapeCasts_S3x4096_S3x4096 slices_S3x4096_o0_0_S1x4096 shapeCasts_S1x4096_S4096 shapeCasts_S4096_S1x4096 broadcasts_S1x4096_S128x4096 r q 0 rfl

theorem pay18_read (x1 : Vec F S3x4096 .f32) (r : Fin 128) (q : Fin 4096) :
    broadcastTo S128x4096 (k0_pay18 x1) broadcasts_S1x4096_S128x4096 (ix2 r q) = x1 (ix2 1 q) :=
  row_read x1 1 shapeCasts_S3x4096_S3x4096 slices_S3x4096_o1_0_S1x4096 shapeCasts_S1x4096_S4096 shapeCasts_S4096_S1x4096 broadcasts_S1x4096_S128x4096 r q 1 rfl

theorem pay19_read (x1 : Vec F S3x4096 .f32) (r : Fin 128) (q : Fin 4096) :
    broadcastTo S128x4096 (k0_pay19 x1) broadcasts_S1x4096_S128x4096 (ix2 r q) = x1 (ix2 2 q) :=
  row_read x1 2 shapeCasts_S3x4096_S3x4096 slices_S3x4096_o2_0_S1x4096 shapeCasts_S1x4096_S4096 shapeCasts_S4096_S1x4096 broadcasts_S1x4096_S128x4096 r q 2 rfl

theorem pay20_read (x0 : Vec F S128x12 .f32) (x1 : Vec F S3x4096 .f32) (r : Fin 128) (q : Fin 4096) :
    k0_pay20 x0 x1 (ix2 r q) = FloatOps.mulf (x0 (ix2 r 0)) (x1 (ix2 0 q)) :=
  congrArg₂ FloatOps.mulf (col_read x0 0 shapeCasts_S128x12_S128x12 slices_S128x12_o0_0_S128x1 shapeCasts_S128x1_S128 shapeCasts_S128_S128x1 broadcasts_S128x1_S128x4096 r q 0 rfl) (pay17_read x1 r q)

theorem pay21_read (x0 : Vec F S128x12 .f32) (x1 : Vec F S3x4096 .f32) (r : Fin 128) (q : Fin 4096) :
    k0_pay21 x0 x1 (ix2 r q) = FloatOps.mulf (x0 (ix2 r 1)) (x1 (ix2 1 q)) :=
  congrArg₂ FloatOps.mulf (col_read x0 1 shapeCasts_S128x12_S128x12 slices_S128x12_o0_1_S128x1 shapeCasts_S128x1_S128 shapeCasts_S128_S128x1 broadcasts_S128x1_S128x4096 r q 1 rfl) (pay18_read x1 r q)

/-! ## The three arithmetic payloads, pointwise

The elementwise operations act index by index, and a broadcast scalar is that scalar at every index, so each stored
vector at an index is the scalar expression over its operands read at that index. -/

/-- The depth payload at an index, over its seven broadcast operands. -/
theorem pay1_read (v28 v31 v34 v37 : FVec F S128x1 .f32) (v42 v45 v48 : FVec F S1x4096 .f32) (i : S128x4096.Idx) :
    k0_pay1 v28 v31 v34 v37 v42 v45 v48 i
      = linF (broadcastTo S128x4096 v28 broadcasts_S128x1_S128x4096 i) (broadcastTo S128x4096 v31 broadcasts_S128x1_S128x4096 i)
          (broadcastTo S128x4096 v34 broadcasts_S128x1_S128x4096 i) (broadcastTo S128x4096 v37 broadcasts_S128x1_S128x4096 i)
          (broadcastTo S128x4096 v42 broadcasts_S1x4096_S128x4096 i) (broadcastTo S128x4096 v45 broadcasts_S1x4096_S128x4096 i)
          (broadcastTo S128x4096 v48 broadcasts_S1x4096_S128x4096 i) := rfl

/-- The reciprocal payload at an index: one over the depth payload. -/
theorem pay2_read (v28 v31 v34 v37 : FVec F S128x1 .f32) (v42 v45 v48 : FVec F S1x4096 .f32) (i : S128x4096.Idx) :
    k0_pay2 v28 v31 v34 v37 v42 v45 v48 i
      = FloatOps.divf (Scalar.ofBits .f32 0x3F800000#32) (k0_pay1 v28 v31 v34 v37 v42 v45 v48 i) := rfl

/-- The u payload at an index: its first two products arrive already formed (p0, p1). -/
theorem pay3_read (v10 v13 v28 v31 v34 v37 : FVec F S128x1 .f32) (v42 v45 v48 : FVec F S1x4096 .f32)
    (p0 p1 : FVec F S128x4096 .f32) (i : S128x4096.Idx) :
    k0_pay3 v10 v13 v28 v31 v34 v37 v42 v45 v48 p0 p1 i
      = FloatOps.addf
          (FloatOps.mulf
            (FloatOps.addf
              (FloatOps.addf (FloatOps.addf (p0 i) (p1 i))
                (FloatOps.mulf (broadcastTo S128x4096 v10 broadcasts_S128x1_S128x4096 i)
                  (broadcastTo S128x4096 v48 broadcasts_S1x4096_S128x4096 i)))
              (broadcastTo S128x4096 v13 broadcasts_S128x1_S128x4096 i))
            (k0_pay2 v28 v31 v34 v37 v42 v45 v48 i))
          (Scalar.ofBits .f32 0x44000000#32) := rfl

/-- The v payload at an index. -/
theorem pay4_read (v16 v19 v22 v25 v28 v31 v34 v37 : FVec F S128x1 .f32) (v42 v45 v48 : FVec F S1x4096 .f32)
    (i : S128x4096.Idx) :
    k0_pay4 v16 v19 v22 v25 v28 v31 v34 v37 v42 v45 v48 i
      = FloatOps.addf
          (FloatOps.mulf
            (linF (broadcastTo S128x4096 v16 broadcasts_S128x1_S128x4096 i) (broadcastTo S128x4096 v19 broadcasts_S128x1_S128x4096 i)
              (broadcastTo S128x4096 v22 broadcasts_S128x1_S128x4096 i) (broadcastTo S128x4096 v25 broadcasts_S128x1_S128x4096 i)
              (broadcastTo S128x4096 v42 broadcasts_S1x4096_S128x4096 i) (broadcastTo S128x4096 v45 broadcasts_S1x4096_S128x4096 i)
              (broadcastTo S128x4096 v48 broadcasts_S1x4096_S128x4096 i))
            (k0_pay2 v28 v31 v34 v37 v42 v45 v48 i))
          (Scalar.ofBits .f32 0x44000000#32) := rfl

/-- The depth at (r, q). -/
theorem outZ_apply (x0 : Vec F S128x12 .f32) (x1 : Vec F S3x4096 .f32) (r : Fin 128) (q : Fin 4096) :
    outZ x0 x1 (ix2 r q)
      = linF (x0 (ix2 r 8)) (x0 (ix2 r 9)) (x0 (ix2 r 10)) (x0 (ix2 r 11)) (x1 (ix2 0 q)) (x1 (ix2 1 q)) (x1 (ix2 2 q)) := by
  unfold outZ
  rw [pay1_read, pay12_read, pay13_read, pay14_read, pay15_read, pay17_read, pay18_read, pay19_read]

/-- u at (r, q): the first affine form times the reciprocal of the depth, plus 512. -/
theorem outU_apply (x0 : Vec F S128x12 .f32) (x1 : Vec F S3x4096 .f32) (r : Fin 128) (q : Fin 4096) :
    outU x0 x1 (ix2 r q)
      = FloatOps.addf
          (FloatOps.mulf
            (linF (x0 (ix2 r 0)) (x0 (ix2 r 1)) (x0 (ix2 r 2)) (x0 (ix2 r 3)) (x1 (ix2 0 q)) (x1 (ix2 1 q)) (x1 (ix2 2 q)))
            (FloatOps.divf (Scalar.ofBits .f32 0x3F800000#32)
              (linF (x0 (ix2 r 8)) (x0 (ix2 r 9)) (x0 (ix2 r 10)) (x0 (ix2 r 11)) (x1 (ix2 0 q)) (x1 (ix2 1 q)) (x1 (ix2 2 q)))))
          (Scalar.ofBits .f32 0x44000000#32) := by
  unfold outU
  rw [pay3_read, pay2_read, pay1_read, pay20_read, pay21_read, pay6_read, pay7_read, pay12_read, pay13_read, pay14_read,
    pay15_read, pay17_read, pay18_read, pay19_read]
  rfl

/-- v at (r, q): the second affine form times the same reciprocal, plus 512. -/
theorem outV_apply (x0 : Vec F S128x12 .f32) (x1 : Vec F S3x4096 .f32) (r : Fin 128) (q : Fin 4096) :
    outV x0 x1 (ix2 r q)
      = FloatOps.addf
          (FloatOps.mulf
            (linF (x0 (ix2 r 4)) (x0 (ix2 r 5)) (x0 (ix2 r 6)) (x0 (ix2 r 7)) (x1 (ix2 0 q)) (x1 (ix2 1 q)) (x1 (ix2 2 q)))
            (FloatOps.divf (Scalar.ofBits .f32 0x3F800000#32)
              (linF (x0 (ix2 r 8)) (x0 (ix2 r 9)) (x0 (ix2 r 10)) (x0 (ix2 r 11)) (x1 (ix2 0 q)) (x1 (ix2 1 q)) (x1 (ix2 2 q)))))
          (Scalar.ofBits .f32 0x44000000#32) := by
  unfold outV
  rw [pay4_read, pay2_read, pay1_read, pay8_read, pay9_read, pay10_read, pay11_read, pay12_read, pay13_read, pay14_read,
    pay15_read, pay17_read, pay18_read, pay19_read]

/-- Lane locality: two points blocks that agree on lane q give the same three values at (r, q). -/
theorem outZ_congr (x0 : Vec F S128x12 .f32) (x1 x1' : Vec F S3x4096 .f32) (r : Fin 128) (q : Fin 4096)
    (h : ∀ k : Fin 3, x1 (ix2 k q) = x1' (ix2 k q)) : outZ x0 x1 (ix2 r q) = outZ x0 x1' (ix2 r q) := by
  rw [outZ_apply, outZ_apply, h 0, h 1, h 2]
theorem outU_congr (x0 : Vec F S128x12 .f32) (x1 x1' : Vec F S3x4096 .f32) (r : Fin 128) (q : Fin 4096)
    (h : ∀ k : Fin 3, x1 (ix2 k q) = x1' (ix2 k q)) : outU x0 x1 (ix2 r q) = outU x0 x1' (ix2 r q) := by
  rw [outU_apply, outU_apply, h 0, h 1, h 2]
theorem outV_congr (x0 : Vec F S128x12 .f32) (x1 x1' : Vec F S3x4096 .f32) (r : Fin 128) (q : Fin 4096)
    (h : ∀ k : Fin 3, x1 (ix2 k q) = x1' (ix2 k q)) : outV x0 x1 (ix2 r q) = outV x0 x1' (ix2 r q) := by
  rw [outV_apply, outV_apply, h 0, h 1, h 2]

/-! ## On the extended reals -/

/-- At the exact instance the three values are the specification's affine forms of the loaded blocks. -/
theorem outZ_ideal (x0 : Vec Ideal S128x12 .f32) (x1 : Vec Ideal S3x4096 .f32) (r : Fin 128) (q : Fin 4096) :
    outZ (F := Ideal) x0 x1 (ix2 r q)
      = Cert.Spec.lin (fun k => x0 (ix2 r k)) 8 9 10 11 (x1 (ix2 0 q)) (x1 (ix2 1 q)) (x1 (ix2 2 q)) := by
  rw [outZ_apply]
  simp only [linF, Ideal.addf_def, Ideal.mulf_def, Cert.Spec.lin]
theorem outU_ideal (x0 : Vec Ideal S128x12 .f32) (x1 : Vec Ideal S3x4096 .f32) (r : Fin 128) (q : Fin 4096) :
    outU (F := Ideal) x0 x1 (ix2 r q)
      = Cert.Spec.lin (fun k => x0 (ix2 r k)) 0 1 2 3 (x1 (ix2 0 q)) (x1 (ix2 1 q)) (x1 (ix2 2 q))
          * Ideal.div Cert.Spec.c1 (Cert.Spec.lin (fun k => x0 (ix2 r k)) 8 9 10 11 (x1 (ix2 0 q)) (x1 (ix2 1 q)) (x1 (ix2 2 q)))
        + Cert.Spec.c512 := by
  rw [outU_apply]
  simp only [linF, Ideal.addf_def, Ideal.mulf_def, Ideal.divf_def, Ideal.ofBits_def, Cert.Spec.lin]
theorem outV_ideal (x0 : Vec Ideal S128x12 .f32) (x1 : Vec Ideal S3x4096 .f32) (r : Fin 128) (q : Fin 4096) :
    outV (F := Ideal) x0 x1 (ix2 r q)
      = Cert.Spec.lin (fun k => x0 (ix2 r k)) 4 5 6 7 (x1 (ix2 0 q)) (x1 (ix2 1 q)) (x1 (ix2 2 q))
          * Ideal.div Cert.Spec.c1 (Cert.Spec.lin (fun k => x0 (ix2 r k)) 8 9 10 11 (x1 (ix2 0 q)) (x1 (ix2 1 q)) (x1 (ix2 2 q)))
        + Cert.Spec.c512 := by
  rw [outV_apply]
  simp only [linF, Ideal.addf_def, Ideal.mulf_def, Ideal.divf_def, Ideal.ofBits_def, Cert.Spec.lin]

end Cert.Kernel.Pay

end
-- ==== Proof.KFrameBits.lean ====
/-
  The frame of the kernel program, at any float family.  @main is 74 host operations (the per-view coefficient
  table and the transposed points), one pipelined region over a grid of 62 points, and three host operations
  (u and v set side by side).  The region has five windows: the 128 × 12 table, fetched once and held; the points,
  3 × 4096 lanes per point; and three results, 128 × 4096 per point.  250000 = 61 · 4096 + 144, so at the last
  point the four moving windows overhang their arrays by 3952 lanes: the fetch fills only the first 144 lanes
  of the points' staging buffer, the body computes on all 4096, and the write-backs keep only the first 144.
  Each stored value at lane q depends on the points only through lane q, so what is written back is determined
  by the lanes that were fetched, whatever the rest of the staging buffer holds.
-/
import proofs.«421993_j6313601925252_3_alg».proof.Proof.Gen.Kernel.Launch
import proofs.«421993_j6313601925252_3_alg».proof.Proof.KFrame
import proofs.«421993_j6313601925252_3_alg».proof.Proof.Gen.Kernel.Skeleton
import proofs.«421993_j6313601925252_3_alg».proof.Proof.Gen.Kernel.Points
import proofs.«421993_j6313601925252_3_alg».proof.Proof.KPayloadBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffers when the region is entered: the launch contents run through the host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host operations, the region, the later ones: it reduces to the region continued by the later ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only unscoped buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- and write none of the five windowed arrays (each writes its own result: two broadcasts and the interleaved pair). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl
  all_goals intro w; fin_cases w <;> simp only [StableHlo.unary_writes, StableHlo.binary_writes, Finset.mem_singleton] <;> exact StableHlo.devRef_ne_of_ne (by decide)

/-- The four arguments are written by no host operation, before the region or after it. -/
theorem pre_keeps (b : Ref sig .tc) (hb : b = main_arg0 ∨ b = main_arg1 ∨ b = main_arg2 ∨ b = main_arg3) (c : Dev nD) :
    V m c b = m ((c : Thread nD τ).loc b) := by
  refine StableHlo.after_of_forall_not_mem (b := Proc.devRef .tc b) _ _ (List.forall_iff_forall_mem.mp ?_)
  rcases hb with rfl | rfl | rfl | rfl
  all_goals
    simp only [hostOps0, List.flatten_cons, List.flatten_nil, List.append_nil, List.cons_append,
      List.nil_append, List.Forall, StableHlo.unary_writes, StableHlo.binary_writes, StableHlo.reshape_writes,
      StableHlo.nary_writes, Finset.mem_singleton]
    repeat' apply And.intro
    all_goals exact StableHlo.devRef_ne_of_ne (by decide)

/-- After the later operations an argument still holds its launch contents: they do not write it, it is no windowed array, and
    the earlier operations did not write it. -/
theorem post_keeps_of (dats : (p : Fin 1) → (c : Dev nD) → Dat τ (Elt F) Unit ℕ (UR sig nD τ) ℕ (cfgs p) c)
    (b : Ref sig .tc) (c : Dev nD) (hpre : V m c b = m ((c : Thread nD τ).loc b))
    (hne : ∀ w, Pipeline.arrRef spec0 w ≠ b)
    (hnw : ∀ op ∈ (List.flatten [hostOps1 (F := F)]), Proc.devRef .tc b ∉ op.writes) :
    Pipeline.afterTail₀ cfgs dats 0 (V0 m) [hostOps1] c b = m ((c : Thread nD τ).loc b) := by
  unfold Pipeline.afterTail₀
  rw [StableHlo.after_of_forall_not_mem (b := Proc.devRef .tc b) _ _ hnw, Pipeline.withArrays_of_ne _ c (V0 m c) _ b hne]
  exact hpre

theorem tail_writes_no_arg (b : Ref sig .tc) (hb : b = main_arg0 ∨ b = main_arg1 ∨ b = main_arg2 ∨ b = main_arg3) :
    ∀ op ∈ (List.flatten [hostOps1 (F := F)]), Proc.devRef (τ := τ) .tc b ∉ op.writes := by
  refine List.forall_iff_forall_mem.mp ?_
  rcases hb with rfl | rfl | rfl | rfl
  all_goals
    simp only [hostOps1, List.flatten_cons, List.flatten_nil, List.append_nil, List.cons_append,
      List.nil_append, List.Forall, StableHlo.unary_writes, StableHlo.binary_writes, Finset.mem_singleton]
    repeat' apply And.intro
    all_goals exact StableHlo.devRef_ne_of_ne (by decide)

theorem post_keeps (dats : (p : Fin 1) → (c : Dev nD) → Dat τ (Elt F) Unit ℕ (UR sig nD τ) ℕ (cfgs p) c)
    (b : Ref sig .tc) (hb : b = main_arg0 ∨ b = main_arg1 ∨ b = main_arg2 ∨ b = main_arg3) (c : Dev nD) :
    Pipeline.afterTail₀ cfgs dats 0 (V0 m) [hostOps1] c b = m ((c : Thread nD τ).loc b) := by
  refine post_keeps_of m dats b c (pre_keeps m b hb c) ?_ (tail_writes_no_arg b hb)
  rcases hb with rfl | rfl | rfl | rfl
  · exact (by decide : ∀ w, Pipeline.arrRef spec0 w ≠ main_arg0)
  · exact (by decide : ∀ w, Pipeline.arrRef spec0 w ≠ main_arg1)
  · exact (by decide : ∀ w, Pipeline.arrRef spec0 w ≠ main_arg2)
  · exact (by decide : ∀ w, Pipeline.arrRef spec0 w ≠ main_arg3)

/-! ## The windows' blocks and the proof data -/

/-- Window w's block at point t, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The coefficient block: the whole table, at every point. -/
abbrev coefB (c : Dev nD) (t : Fin cfg0.N) : Vec F S128x12 .f32 := iblk m c 0 t

/-- The points block at point t as a full 3 × 4096 vector: the lanes inside the array, the zero word on the lanes past its end. -/
def ptsB (c : Dev nD) (t : Fin cfg0.N) : Vec F S3x4096 .f32 :=
  win0_1.fill (grid0.coords t) (fun _ => Scalar.ofBits .f32 0#32) (iblk m c 1 t)

/-- The proof data: the arrays as the region finds them; after the body at point t the two input buffers at their blocks
    and the three result buffers at the body's three vectors of those blocks (on the lanes inside the arrays: the four moving
    windows are loose). -/
def dats (_ : Fin 1) (c : Dev nD) : Dat τ (Elt F) Unit ℕ (UR sig nD τ) ℕ cfg0 c where
  A w := V m c (Pipeline.arrRef spec0 w)
  after w t := match w with
    | ⟨0, _⟩ => coefB m c t
    | ⟨1, _⟩ => ptsB m c t
    | ⟨2, _⟩ => outU (coefB m c t) (ptsB m c t)
    | ⟨3, _⟩ => outV (coefB m c t) (ptsB m c t)
    | ⟨4, _⟩ => outZ (coefB m c t) (ptsB m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = coefB m c t := by dsimp only [dats]
theorem after_1 (c : Dev nD) (t : Fin cfg0.N) : (dats m 0 c).after 1 t = ptsB m c t := by dsimp only [dats]
theorem after_2 (c : Dev nD) (t : Fin cfg0.N) : (dats m 0 c).after 2 t = outU (coefB m c t) (ptsB m c t) := by dsimp only [dats]
theorem after_3 (c : Dev nD) (t : Fin cfg0.N) : (dats m 0 c).after 3 t = outV (coefB m c t) (ptsB m c t) := by dsimp only [dats]
theorem after_4 (c : Dev nD) (t : Fin cfg0.N) : (dats m 0 c).after 4 t = outZ (coefB m c t) (ptsB m c t) := by dsimp only [dats]

/-! ## What each buffer holds when the body starts -/

/-- The table's buffer holds the table at every point: fetched at the first, left in place by the body afterwards. -/
theorem before_0 (c : Dev nD) (t : Fin cfg0.N) (d) : (dats m 0 c).before 0 t d = coefB m c t :=
  ((dats m 0 c).before_in_eq_fetched 0 rfl (fun _ => rfl) (fun _ _ _ => rfl)
      (fun t => by rw [after_0]; unfold Dat.blockOf coefB iblk; rw [A_eq]) t d).trans
    (by unfold Dat.fetched Dat.blockOf coefB iblk; rw [A_eq]; rfl)

/-- The points' buffer was fetched at this point: the block on the lanes inside the array, anything past them. -/
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]; try rfl

/-- A result's buffer holds anything: it was written back at the point before. -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d
theorem before_3 (c : Dev nD) (t : Fin cfg0.N) (d) : (dats m 0 c).before 3 t d = d :=
  (dats m 0 c).before_out_reset 3 rfl t (by
    by_cases h : t.val = 0
    · exact .inl h
    · exact .inr ⟨h, flush0_3 _⟩) d
theorem before_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-! ## The body's triple -/

set_option maxHeartbeats 2000000 in
/-- The body on five whole staging memrefs — the table's at x0, the points' at x1, the results' at anything —
    runs to the continuation with the inputs' as they were and the results' at the three vectors of (x0, x1):
    two whole loads, three dead loads, three whole stores. -/
theorem sound_kernel (c : Dev nD) (E : Set ℕ) (i : grid0.Coords)
    (arg1 : Memref sig .tc .vmem S128x12 .f32) (harg1 : arg1.IsWhole) (arg2 : Memref sig .tc .vmem S3x4096 .f32) (harg2 : arg2.IsWhole)
    (arg3 : Memref sig .tc .vmem S128x4096 .f32) (harg3 : arg3.IsWhole) (arg4 : Memref sig .tc .vmem S128x4096 .f32) (harg4 : arg4.IsWhole)
    (arg5 : Memref sig .tc .vmem S128x4096 .f32) (harg5 : arg5.IsWhole)
    (x0 : Vec F S128x12 .f32) (x1 : Vec F S3x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (outU x0 x1) ∗ owns (c : Thread nD τ) arg4 fullShare (outV x0 x1)
            ∗ owns (c : Thread nD τ) arg5 fullShare (outZ x0 x1)) -∗ K ⟨⟩))
      ⊢ wp frame (wpE (defs₀ (F := F)) Variants.none c none) E
          (cc0__bundle_kernel i arg1 harg1 arg2 harg2 arg3 harg3 arg4 harg4 arg5 harg5) K := by
  simp only [cc0__bundle_kernel_eq_skeleton]; unfold cc0__bundle_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  have hz : (![0, 0] : Fin 2 → Nat) = fun _ => 0 := funext fun a => by fin_cases a <;> rfl
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero hz inb_S128x4096_S128x4096_0_0 y⟩),
      View.canon_unit_zero hz]
    simp only [View.readAt_eq_ld, View.ld_unit_zero (S := S128x12) hz, View.ld_unit_zero (S := S3x4096) hz]
    first | rfl | (unfold outU; rfl)
  isplitl [H3]
  · iexists _; isplitr
    swap; · iexact H3
    ipureintro
    rw [View.read_writes_eq_canon _ _ _ (fun y => ⟨_, List.mem_singleton_self _, View.mem_set_unit_zero hz inb_S128x4096_S128x4096_0_0 y⟩),
      View.canon_unit_zero hz]
    simp only [View.readAt_eq_ld, View.ld_unit_zero (S := S128x12) hz, View.ld_unit_zero (S := S3x4096) hz]
    first | rfl | (unfold outV; rfl)
  · iexists _; isplitr
    swap; · iexact H4
    ipureintro
    rw [View.read_writes_eq_canon _ _ _ (fun y => ⟨_, List.mem_singleton_self _, View.mem_set_unit_zero hz inb_S128x4096_S128x4096_0_0 y⟩),
      View.canon_unit_zero hz]
    simp only [View.readAt_eq_ld, View.ld_unit_zero (S := S128x12) hz, View.ld_unit_zero (S := S3x4096) hz]
    first | rfl | (unfold outZ; rfl)

/-! ## The body obligation -/

/-- On a lane inside the array, what the points' buffer holds is the fetched block, whatever fills the lanes past the array's end. -/
theorem fill_lane (t : Fin cfg0.N) (d d' : S3x4096.Idx → Elt F .f32)
    (g : (win0_1.xblock (grid0.coords t)).Idx → Elt F .f32) (k : Fin 3) (q : Fin 4096)
    (hq : q.val < win0_1.xsize (grid0.coords t) 1) :
    win0_1.fill (grid0.coords t) d g (ix2 k q) = win0_1.fill (grid0.coords t) d' g (ix2 k q) := by
  have hm : win0_1.moved (grid0.coords t) (ix2 k q) = true :=
    (win0_1.moved_iff _ _).mpr fun a => match a with
      | ⟨0, _⟩ => (show k.val < 3 from k.isLt)
      | ⟨1, _⟩ => hq
  unfold Window.fill
  rw [dif_pos hm, dif_pos hm]

/-- So the lanes of each result that are written back do not depend on it either: the three results cut to the array are the
    same for any filler as for the zero word. -/
theorem cut_U (c : Dev nD) (t : Fin cfg0.N) (d : S3x4096.Idx → Elt F .f32) :
    win0_2.cut (grid0.coords t) (outU (coefB m c t) (win0_1.fill (grid0.coords t) d (iblk m c 1 t)))
      = win0_2.cut (grid0.coords t) (outU (coefB m c t) (ptsB m c t)) := by
  funext j
  show outU _ _ (win0_2.xinj _ j) = outU _ _ (win0_2.xinj _ j)
  rw [eq_ix2 (win0_2.xinj (grid0.coords t) j)]
  exact outU_congr _ _ _ _ _ fun k => fill_lane t _ _ _ k _ (j 1).isLt
theorem cut_V (c : Dev nD) (t : Fin cfg0.N) (d : S3x4096.Idx → Elt F .f32) :
    win0_3.cut (grid0.coords t) (outV (coefB m c t) (win0_1.fill (grid0.coords t) d (iblk m c 1 t)))
      = win0_3.cut (grid0.coords t) (outV (coefB m c t) (ptsB m c t)) := by
  funext j
  show outV _ _ (win0_3.xinj _ j) = outV _ _ (win0_3.xinj _ j)
  rw [eq_ix2 (win0_3.xinj (grid0.coords t) j)]
  exact outV_congr _ _ _ _ _ fun k => fill_lane t _ _ _ k _ (j 1).isLt
theorem cut_Z (c : Dev nD) (t : Fin cfg0.N) (d : S3x4096.Idx → Elt F .f32) :
    win0_4.cut (grid0.coords t) (outZ (coefB m c t) (win0_1.fill (grid0.coords t) d (iblk m c 1 t)))
      = win0_4.cut (grid0.coords t) (outZ (coefB m c t) (ptsB m c t)) := by
  funext j
  show outZ _ _ (win0_4.xinj _ j) = outZ _ _ (win0_4.xinj _ j)
  rw [eq_ix2 (win0_4.xinj (grid0.coords t) j)]
  exact outZ_congr _ _ _ _ _ fun k => fill_lane t _ _ _ k _ (j 1).isLt

set_option maxHeartbeats 1000000 in
/-- At every point: the table's buffer holds the table and the points' buffer the fetched block, filled out with anything;
    the body leaves those and stores the three vectors, whose lanes inside the arrays are the proof data's. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel (F := F) c Set.univ (grid0.coords t) _ _ _ _ _ _ _ _ _ _ (coefB m c t)
    (win0_1.fill (grid0.coords t) d1 (iblk m c 1 t)) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]
  · rw [after_0]; iexact H0
  isplitl [H1]
  · iexists d1
    rw [after_1]
    have e : win0_1.fill (grid0.coords t) d1 (win0_1.cut (grid0.coords t) (ptsB m c t))
        = win0_1.fill (grid0.coords t) d1 (iblk m c 1 t) := by
      unfold ptsB; rw [Window.cut_fill]
    refine (Entails.of_eq ?_).trans .rfl
    exact congrArg _ e.symm
  isplitl [H2]
  · iexists outU (coefB m c t) (win0_1.fill (grid0.coords t) d1 (iblk m c 1 t))
    rw [after_2]
    have e : win0_2.fill (grid0.coords t) (outU (coefB m c t) (win0_1.fill (grid0.coords t) d1 (iblk m c 1 t)))
          (win0_2.cut (grid0.coords t) (outU (coefB m c t) (ptsB m c t)))
        = outU (coefB m c t) (win0_1.fill (grid0.coords t) d1 (iblk m c 1 t)) := by
      rw [← cut_U m c t d1]; exact win0_2.fill_cut _ _
    refine (Entails.of_eq ?_).trans .rfl
    exact congrArg _ e.symm
  isplitl [H3]
  · iexists outV (coefB m c t) (win0_1.fill (grid0.coords t) d1 (iblk m c 1 t))
    rw [after_3]
    have e : win0_3.fill (grid0.coords t) (outV (coefB m c t) (win0_1.fill (grid0.coords t) d1 (iblk m c 1 t)))
          (win0_3.cut (grid0.coords t) (outV (coefB m c t) (ptsB m c t)))
        = outV (coefB m c t) (win0_1.fill (grid0.coords t) d1 (iblk m c 1 t)) := by
      rw [← cut_V m c t d1]; exact win0_3.fill_cut _ _
    refine (Entails.of_eq ?_).trans .rfl
    exact congrArg _ e.symm
  · iexists outZ (coefB m c t) (win0_1.fill (grid0.coords t) d1 (iblk m c 1 t))
    rw [after_4]
    have e : win0_4.fill (grid0.coords t) (outZ (coefB m c t) (win0_1.fill (grid0.coords t) d1 (iblk m c 1 t)))
          (win0_4.cut (grid0.coords t) (outZ (coefB m c t) (ptsB m c t)))
        = outZ (coefB m c t) (win0_1.fill (grid0.coords t) d1 (iblk m c 1 t)) := by
      rw [← cut_Z m c t d1]; exact win0_4.fill_cut _ _
    refine (Entails.of_eq ?_).trans .rfl
    exact congrArg _ e.symm

/-! ## The run and the frame -/

set_option backward.isDefEq.respectTransparency.types false in
/-- From any memory with zero counters every weakly fair execution of @main terminates; each windowed array ends at what the write-backs
    of the proof data leave, and every other unscoped buffer as the later host operations leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the run terminates, nothing faults, and the four arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (post_keeps m (dats m) main_arg0 (.inl rfl) c),
     ((h c).2 main_arg1 (Pipeline.mem_restRefs_of main_arg1 (by decide) (by decide))).trans (post_keeps m (dats m) main_arg1 (.inr (.inl rfl)) c),
     ((h c).2 main_arg2 (Pipeline.mem_restRefs_of main_arg2 (by decide) (by decide))).trans (post_keeps m (dats m) main_arg2 (.inr (.inr (.inl rfl))) c),
     ((h c).2 main_arg3 (Pipeline.mem_restRefs_of main_arg3 (by decide) (by decide))).trans (post_keeps m (dats m) main_arg3 (.inr (.inr (.inr rfl))) c)⟩) (run_main m ρ)

end Cert.Kernel.Fr

end
-- ==== Proof.HostK.lean ====
/-
  What the kernel's host program hands its region, on the extended reals: the 128 × 12 coefficient table — six
  trigonometric vectors, nine rotation entries in closed form, eight of the twelve columns scaled by ∓f, the twelve
  columns set side by side — is the specification's tabArr; the second operand is the points transposed.
-/
import proofs.«421993_j6313601925252_3_alg».proof.Proof.Gen.KernelIdeal.Launch
import proofs.«421993_j6313601925252_3_alg».proof.Proof.Spec
import proofs.«421993_j6313601925252_3_alg».proof.Proof.KFrameBits
import Idealize.ShloMosaic.PureOps.Ideal
import Idealize.ShloMosaic.Lib.ValueIdx
import Idealize.ShloMosaic.Lib.ValueLayout
import Idealize.ShloMosaic.Lib.Pipeline.Value
import Idealize.ShloMosaic.Lib.Pipeline.Frame
import Idealize.ShloMosaic.Lib.StableHlo.Run
import Idealize.ShloMosaic.Lib.Tactic

noncomputable section

namespace Cert.KernelIdeal.HostK

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The contents of core c's buffers after the host operations that precede the region. -/
abbrev VH (c : Dev nD) : Valuation τ sig (Elt Ideal) := StableHlo.after (List.flatten [hostOps0 (F := Ideal)]) (fun b => m (c, b))

/-! ## Reading the layout operations at an index -/

/-- A per-view quantity as a vector over the 128 views. -/
private abbrev vec (g : Fin 128 → EReal) : S128.Idx → EReal := fun i => g (i 0)

/-- Column j of a 128 × 3 array, taken as the 128 × 1 slice at offset (0, j) recast to a vector, holds the array's
    entry (v, j) at v. -/
private theorem column_read (a : S128x3.Idx → EReal) (j : Nat) (hj : j < 3) (h : S128x3.Slices ![0, j] S128x1) :
    (fun i => shapeCast S128 (extractStridedSlice S128x1 ![0, j] a h) shapeCasts_S128x1_S128 i)
      = vec (fun v => a (ix2 v ⟨j, hj⟩)) := by
  funext i
  refine (shapeCast_apply _ _ i (ix2 (i 0) 0) ?_).trans
    (extractStridedSlice_apply _ _ _ (ix2 (i 0) 0) (ix2 (i 0) ⟨j, hj⟩) ?_)
  · rw [Shape.rowMajor_val_two, Shape.rowMajor_val_one]
    show (i 0).val * 1 + 0 = (i 0).val
    omega
  · intro b
    match b with
    | ⟨0, _⟩ => show (i 0).val = 0 + (i 0).val; omega
    | ⟨1, _⟩ => rfl

/-- A scalar spread over the views is the scalar at every view. -/
private theorem scalar_read (x : S_.Idx → EReal) : broadcastInDim S128 ![] bcast_S_S128 x = fun _ => x ix0 :=
  funext fun j => broadcastInDim_apply _ _ x j ix0 fun a => a.elim0

/-- A vector over the views times a scalar spread over them is, view by view, the scalar times the entry … -/
private theorem scaled_read (f : S_.Idx → EReal) (y : S128.Idx → EReal) :
    mulf (F := Ideal) (φ := .f32) (broadcastInDim S128 ![] bcast_S_S128 f) y = fun i => f ix0 * y i := by
  rw [scalar_read]
  funext i
  rfl

/-- … and with the scalar negated first, minus the scalar times the entry. -/
private theorem scaled_neg_read (f : S_.Idx → EReal) (y : S128.Idx → EReal) :
    mulf (F := Ideal) (φ := .f32) (broadcastInDim S128 ![] bcast_S_S128 (Host.negf (F := Ideal) (φ := .f32) f)) y
      = fun i => (-(f ix0)) * y i := by
  rw [scalar_read]
  funext i
  rfl

/-- A vector over the views as a 128 × 1 column holds the vector's entry v in row v. -/
private theorem column_of_vec_read (x : S128.Idx → EReal) (v : Fin 128) :
    broadcastInDim S128x1 ![0] bcast_S128_S128x1_0 x (ix2 v 0) = x (ix1 v) :=
  broadcastInDim_apply _ _ x (ix2 v 0) (ix1 v) fun a =>
    match a with
    | ⟨0, _⟩ => by
      show v.val = if (128 : Nat) = 1 then 0 else v.val
      rw [if_neg (by decide)]

/-- Twelve vectors over the views, each as a 128 × 1 column, set side by side: entry (v, k) of the 128 × 12 array is
    vector k at v. -/
private theorem table_read (Q : Fin 12 → (S128.Idx → EReal))
    (h : Shape.Concatenates
      [S128x1, S128x1, S128x1, S128x1, S128x1, S128x1, S128x1, S128x1, S128x1, S128x1, S128x1, S128x1] S128x12 1)
    (v : Fin 128) (k : Fin 12) :
    concatenate S128x12 1
        [⟨S128x1, broadcastInDim S128x1 ![0] bcast_S128_S128x1_0 (Q 0)⟩,
         ⟨S128x1, broadcastInDim S128x1 ![0] bcast_S128_S128x1_0 (Q 1)⟩,
         ⟨S128x1, broadcastInDim S128x1 ![0] bcast_S128_S128x1_0 (Q 2)⟩,
         ⟨S128x1, broadcastInDim S128x1 ![0] bcast_S128_S128x1_0 (Q 3)⟩,
         ⟨S128x1, broadcastInDim S128x1 ![0] bcast_S128_S128x1_0 (Q 4)⟩,
         ⟨S128x1, broadcastInDim S128x1 ![0] bcast_S128_S128x1_0 (Q 5)⟩,
         ⟨S128x1, broadcastInDim S128x1 ![0] bcast_S128_S128x1_0 (Q 6)⟩,
         ⟨S128x1, broadcastInDim S128x1 ![0] bcast_S128_S128x1_0 (Q 7)⟩,
         ⟨S128x1, broadcastInDim S128x1 ![0] bcast_S128_S128x1_0 (Q 8)⟩,
         ⟨S128x1, broadcastInDim S128x1 ![0] bcast_S128_S128x1_0 (Q 9)⟩,
         ⟨S128x1, broadcastInDim S128x1 ![0] bcast_S128_S128x1_0 (Q 10)⟩,
         ⟨S128x1, broadcastInDim S128x1 ![0] bcast_S128_S128x1_0 (Q 11)⟩] h (ix2 v k)
      = Q k (ix1 v) := by
  refine Eq.trans ?_ (column_of_vec_read (Q k) v)
  exact concatenate_ofFn_unit_apply (t := S128x12) (s₁ := S128x1) 1
    (fun n : Fin 12 => broadcastInDim S128x1 ![0] bcast_S128_S128x1_0 (Q n)) h rfl rfl (ix2 v k) k rfl (ix2 v 0)
    (fun b hb => match b with
      | ⟨0, _⟩ => rfl
      | ⟨1, _⟩ => absurd rfl hb)

/-! ## The host operations, stretch by stretch

Each stretch is read from ANY contents W of the buffers before it: what it leaves in the buffers the later stretches
read, as a function of what W holds in the buffers it reads. Each equation is the fold of the stretch's operations,
evaluated at one buffer. -/

/-- The 74 host operations in five stretches: the three angle columns; the six sines and cosines and the nine rotation
    entries; the translation columns and the scaling by ∓f; the twelve columns as 128 × 1 arrays; the table and the
    transposed points. -/
private abbrev opsAngles : List (HloOp τ sig (Elt Ideal)) := (hostOps0 (F := Ideal)).take 6
private abbrev opsRot : List (HloOp τ sig (Elt Ideal)) := ((hostOps0 (F := Ideal)).drop 6).take 28
private abbrev opsScale : List (HloOp τ sig (Elt Ideal)) := ((hostOps0 (F := Ideal)).drop 34).take 26
private abbrev opsCols : List (HloOp τ sig (Elt Ideal)) := ((hostOps0 (F := Ideal)).drop 60).take 12
private abbrev opsTable : List (HloOp τ sig (Elt Ideal)) := (hostOps0 (F := Ideal)).drop 72

/-- Running the 74 operations is running the five stretches one after the other. -/
private theorem after_stretches (V : Valuation τ sig (Elt Ideal)) :
    StableHlo.after (hostOps0 (F := Ideal)) V
      = StableHlo.after opsTable (StableHlo.after opsCols (StableHlo.after opsScale
          (StableHlo.after opsRot (StableHlo.after opsAngles V)))) := by
  rw [← StableHlo.after_append, ← StableHlo.after_append, ← StableHlo.after_append, ← StableHlo.after_append]
  rfl

section Stretches

variable (W : Valuation τ sig (Elt Ideal))

/-- The angle columns: column j of the Euler angles ε as a vector over the views; the focal length, the translations
    and the points are not touched. -/
private theorem angles (ε : S128x3.Idx → EReal)
    (hε : (W (Proc.devRef .tc main_arg1) : S128x3.Idx → EReal) = ε) :
    (StableHlo.after opsAngles W (Proc.devRef .tc main_v1) : S128.Idx → EReal) = vec (fun v => ε (ix2 v 0))
    ∧ (StableHlo.after opsAngles W (Proc.devRef .tc main_v3) : S128.Idx → EReal) = vec (fun v => ε (ix2 v 1))
    ∧ (StableHlo.after opsAngles W (Proc.devRef .tc main_v5) : S128.Idx → EReal) = vec (fun v => ε (ix2 v 2))
    ∧ StableHlo.after opsAngles W (Proc.devRef .tc main_arg0) = W (Proc.devRef .tc main_arg0)
    ∧ StableHlo.after opsAngles W (Proc.devRef .tc main_arg2) = W (Proc.devRef .tc main_arg2)
    ∧ StableHlo.after opsAngles W (Proc.devRef .tc main_arg3) = W (Proc.devRef .tc main_arg3) := by
  subst hε
  refine ⟨Eq.trans ?_ (column_read (W (Proc.devRef .tc main_arg1)) 0 (by decide) slices_S128x3_S128x1_0_0),
    Eq.trans ?_ (column_read (W (Proc.devRef .tc main_arg1)) 1 (by decide) slices_S128x3_S128x1_0_1),
    Eq.trans ?_ (column_read (W (Proc.devRef .tc main_arg1)) 2 (by decide) slices_S128x3_S128x1_0_2),
    ?_, ?_, ?_⟩ <;> sl_kernel_rfl

/-- The rotation entries from the three angle vectors α, β, γ: the nine closed-form entries of Rx(α)·Ry(β)·Rz(γ) the
    table uses, view by view; the focal length, the translations and the points are not touched. -/
private theorem rot (α β γ : S128.Idx → EReal)
    (hα : (W (Proc.devRef .tc main_v1) : S128.Idx → EReal) = α)
    (hβ : (W (Proc.devRef .tc main_v3) : S128.Idx → EReal) = β)
    (hγ : (W (Proc.devRef .tc main_v5) : S128.Idx → EReal) = γ) :
    (StableHlo.after opsRot W (Proc.devRef .tc main_v12) : S128.Idx → EReal)
        = (fun i => Ideal.cos (β i) * Ideal.cos (γ i))
    ∧ (StableHlo.after opsRot W (Proc.devRef .tc main_v14) : S128.Idx → EReal)
        = (fun i => (-(Ideal.cos (β i))) * Ideal.sin (γ i))
    ∧ (StableHlo.after opsRot W (Proc.devRef .tc main_v9) : S128.Idx → EReal)
        = (fun i => Ideal.sin (β i))
    ∧ (StableHlo.after opsRot W (Proc.devRef .tc main_v18) : S128.Idx → EReal)
        = (fun i => Ideal.cos (α i) * Ideal.sin (γ i) + (Ideal.sin (α i) * Ideal.sin (β i)) * Ideal.cos (γ i))
    ∧ (StableHlo.after opsRot W (Proc.devRef .tc main_v22) : S128.Idx → EReal)
        = (fun i => Ideal.cos (α i) * Ideal.cos (γ i) - (Ideal.sin (α i) * Ideal.sin (β i)) * Ideal.sin (γ i))
    ∧ (StableHlo.after opsRot W (Proc.devRef .tc main_v24) : S128.Idx → EReal)
        = (fun i => (-(Ideal.sin (α i))) * Ideal.cos (β i))
    ∧ (StableHlo.after opsRot W (Proc.devRef .tc main_v28) : S128.Idx → EReal)
        = (fun i => Ideal.sin (α i) * Ideal.sin (γ i) - (Ideal.cos (α i) * Ideal.sin (β i)) * Ideal.cos (γ i))
    ∧ (StableHlo.after opsRot W (Proc.devRef .tc main_v32) : S128.Idx → EReal)
        = (fun i => Ideal.sin (α i) * Ideal.cos (γ i) + (Ideal.cos (α i) * Ideal.sin (β i)) * Ideal.sin (γ i))
    ∧ (StableHlo.after opsRot W (Proc.devRef .tc main_v33) : S128.Idx → EReal)
        = (fun i => Ideal.cos (α i) * Ideal.cos (β i))
    ∧ StableHlo.after opsRot W (Proc.devRef .tc main_arg0) = W (Proc.devRef .tc main_arg0)
    ∧ StableHlo.after opsRot W (Proc.devRef .tc main_arg2) = W (Proc.devRef .tc main_arg2)
    ∧ StableHlo.after opsRot W (Proc.devRef .tc main_arg3) = W (Proc.devRef .tc main_arg3) := by
  subst hα hβ hγ
  refine ⟨?_, ?_, ?_, ?_, ?_, ?_, ?_, ?_, ?_, ?_, ?_, ?_⟩ <;> sl_kernel_rfl

/-- The scaling: the first two rows (r₀·, r₁·) of the rotation and the first two columns of the translation θ times -f
    and f, view by view, and the translation's third column; the third row of the rotation and the points are not
    touched. -/
private theorem scale (φ : S_.Idx → EReal) (θ : S128x3.Idx → EReal) (r₀₀ r₀₁ r₀₂ r₁₀ r₁₁ r₁₂ : S128.Idx → EReal)
    (hφ : (W (Proc.devRef .tc main_arg0) : S_.Idx → EReal) = φ)
    (hθ : (W (Proc.devRef .tc main_arg2) : S128x3.Idx → EReal) = θ)
    (h₀₀ : (W (Proc.devRef .tc main_v12) : S128.Idx → EReal) = r₀₀)
    (h₀₁ : (W (Proc.devRef .tc main_v14) : S128.Idx → EReal) = r₀₁)
    (h₀₂ : (W (Proc.devRef .tc main_v9) : S128.Idx → EReal) = r₀₂)
    (h₁₀ : (W (Proc.devRef .tc main_v18) : S128.Idx → EReal) = r₁₀)
    (h₁₁ : (W (Proc.devRef .tc main_v22) : S128.Idx → EReal) = r₁₁)
    (h₁₂ : (W (Proc.devRef .tc main_v24) : S128.Idx → EReal) = r₁₂) :
    (StableHlo.after opsScale W (Proc.devRef .tc main_v42) : S128.Idx → EReal)
        = (fun i => (-(φ ix0)) * r₀₀ i)
    ∧ (StableHlo.after opsScale W (Proc.devRef .tc main_v45) : S128.Idx → EReal)
        = (fun i => (-(φ ix0)) * r₀₁ i)
    ∧ (StableHlo.after opsScale W (Proc.devRef .tc main_v48) : S128.Idx → EReal)
        = (fun i => (-(φ ix0)) * r₀₂ i)
    ∧ (StableHlo.after opsScale W (Proc.devRef .tc main_v51) : S128.Idx → EReal)
        = (fun i => (-(φ ix0)) * vec (fun v => θ (ix2 v 0)) i)
    ∧ (StableHlo.after opsScale W (Proc.devRef .tc main_v53) : S128.Idx → EReal)
        = (fun i => φ ix0 * r₁₀ i)
    ∧ (StableHlo.after opsScale W (Proc.devRef .tc main_v55) : S128.Idx → EReal)
        = (fun i => φ ix0 * r₁₁ i)
    ∧ (StableHlo.after opsScale W (Proc.devRef .tc main_v57) : S128.Idx → EReal)
        = (fun i => φ ix0 * r₁₂ i)
    ∧ (StableHlo.after opsScale W (Proc.devRef .tc main_v59) : S128.Idx → EReal)
        = (fun i => φ ix0 * vec (fun v => θ (ix2 v 1)) i)
    ∧ (StableHlo.after opsScale W (Proc.devRef .tc main_v39) : S128.Idx → EReal)
        = (vec (fun v => θ (ix2 v 2)))
    ∧ StableHlo.after opsScale W (Proc.devRef .tc main_v28) = W (Proc.devRef .tc main_v28)
    ∧ StableHlo.after opsScale W (Proc.devRef .tc main_v32) = W (Proc.devRef .tc main_v32)
    ∧ StableHlo.after opsScale W (Proc.devRef .tc main_v33) = W (Proc.devRef .tc main_v33)
    ∧ StableHlo.after opsScale W (Proc.devRef .tc main_arg3) = W (Proc.devRef .tc main_arg3) := by
  subst hφ hθ h₀₀ h₀₁ h₀₂ h₁₀ h₁₁ h₁₂
  refine ⟨Eq.trans ?_ (scaled_neg_read (W (Proc.devRef .tc main_arg0)) (W (Proc.devRef .tc main_v12))),
    Eq.trans ?_ (scaled_neg_read (W (Proc.devRef .tc main_arg0)) (W (Proc.devRef .tc main_v14))),
    Eq.trans ?_ (scaled_neg_read (W (Proc.devRef .tc main_arg0)) (W (Proc.devRef .tc main_v9))),
    Eq.trans
      (Eq.trans ?_ (congrArg _ (column_read (W (Proc.devRef .tc main_arg2)) 0 (by decide) slices_S128x3_S128x1_0_0)))
      (scaled_neg_read (W (Proc.devRef .tc main_arg0)) _),
    Eq.trans ?_ (scaled_read (W (Proc.devRef .tc main_arg0)) (W (Proc.devRef .tc main_v18))),
    Eq.trans ?_ (scaled_read (W (Proc.devRef .tc main_arg0)) (W (Proc.devRef .tc main_v22))),
    Eq.trans ?_ (scaled_read (W (Proc.devRef .tc main_arg0)) (W (Proc.devRef .tc main_v24))),
    Eq.trans
      (Eq.trans ?_ (congrArg _ (column_read (W (Proc.devRef .tc main_arg2)) 1 (by decide) slices_S128x3_S128x1_0_1)))
      (scaled_read (W (Proc.devRef .tc main_arg0)) _),
    Eq.trans ?_ (column_read (W (Proc.devRef .tc main_arg2)) 2 (by decide) slices_S128x3_S128x1_0_2),
    ?_, ?_, ?_, ?_⟩ <;> sl_kernel_rfl

/-- Each of the twelve vectors as a 128 × 1 column; the points are not touched. -/
private theorem cols (q₀ q₁ q₂ q₃ q₄ q₅ q₆ q₇ q₈ q₉ q₁₀ q₁₁ : S128.Idx → EReal)
    (h₀ : (W (Proc.devRef .tc main_v42) : S128.Idx → EReal) = q₀)
    (h₁ : (W (Proc.devRef .tc main_v45) : S128.Idx → EReal) = q₁)
    (h₂ : (W (Proc.devRef .tc main_v48) : S128.Idx → EReal) = q₂)
    (h₃ : (W (Proc.devRef .tc main_v51) : S128.Idx → EReal) = q₃)
    (h₄ : (W (Proc.devRef .tc main_v53) : S128.Idx → EReal) = q₄)
    (h₅ : (W (Proc.devRef .tc main_v55) : S128.Idx → EReal) = q₅)
    (h₆ : (W (Proc.devRef .tc main_v57) : S128.Idx → EReal) = q₆)
    (h₇ : (W (Proc.devRef .tc main_v59) : S128.Idx → EReal) = q₇)
    (h₈ : (W (Proc.devRef .tc main_v28) : S128.Idx → EReal) = q₈)
    (h₉ : (W (Proc.devRef .tc main_v32) : S128.Idx → EReal) = q₉)
    (h₁₀ : (W (Proc.devRef .tc main_v33) : S128.Idx → EReal) = q₁₀)
    (h₁₁ : (W (Proc.devRef .tc main_v39) : S128.Idx → EReal) = q₁₁) :
    (StableHlo.after opsCols W (Proc.devRef .tc main_v60) : S128x1.Idx → EReal)
        = broadcastInDim S128x1 ![0] bcast_S128_S128x1_0 q₀
    ∧ (StableHlo.after opsCols W (Proc.devRef .tc main_v61) : S128x1.Idx → EReal)
        = broadcastInDim S128x1 ![0] bcast_S128_S128x1_0 q₁
    ∧ (StableHlo.after opsCols W (Proc.devRef .tc main_v62) : S128x1.Idx → EReal)
        = broadcastInDim S128x1 ![0] bcast_S128_S128x1_0 q₂
    ∧ (StableHlo.after opsCols W (Proc.devRef .tc main_v63) : S128x1.Idx → EReal)
        = broadcastInDim S128x1 ![0] bcast_S128_S128x1_0 q₃
    ∧ (StableHlo.after opsCols W (Proc.devRef .tc main_v64) : S128x1.Idx → EReal)
        = broadcastInDim S128x1 ![0] bcast_S128_S128x1_0 q₄
    ∧ (StableHlo.after opsCols W (Proc.devRef .tc main_v65) : S128x1.Idx → EReal)
        = broadcastInDim S128x1 ![0] bcast_S128_S128x1_0 q₅
    ∧ (StableHlo.after opsCols W (Proc.devRef .tc main_v66) : S128x1.Idx → EReal)
        = broadcastInDim S128x1 ![0] bcast_S128_S128x1_0 q₆
    ∧ (StableHlo.after opsCols W (Proc.devRef .tc main_v67) : S128x1.Idx → EReal)
        = broadcastInDim S128x1 ![0] bcast_S128_S128x1_0 q₇
    ∧ (StableHlo.after opsCols W (Proc.devRef .tc main_v68) : S128x1.Idx → EReal)
        = broadcastInDim S128x1 ![0] bcast_S128_S128x1_0 q₈
    ∧ (StableHlo.after opsCols W (Proc.devRef .tc main_v69) : S128x1.Idx → EReal)
        = broadcastInDim S128x1 ![0] bcast_S128_S128x1_0 q₉
    ∧ (StableHlo.after opsCols W (Proc.devRef .tc main_v70) : S128x1.Idx → EReal)
        = broadcastInDim S128x1 ![0] bcast_S128_S128x1_0 q₁₀
    ∧ (StableHlo.after opsCols W (Proc.devRef .tc main_v71) : S128x1.Idx → EReal)
        = broadcastInDim S128x1 ![0] bcast_S128_S128x1_0 q₁₁
    ∧ StableHlo.after opsCols W (Proc.devRef .tc main_arg3) = W (Proc.devRef .tc main_arg3) := by
  subst h₀ h₁ h₂ h₃ h₄ h₅ h₆ h₇ h₈ h₉ h₁₀ h₁₁
  refine ⟨?_, ?_, ?_, ?_, ?_, ?_, ?_, ?_, ?_, ?_, ?_, ?_, ?_⟩ <;> sl_kernel_rfl

/-- The table is the twelve columns side by side; the second operand is the points π transposed. -/
private theorem table (c₀ c₁ c₂ c₃ c₄ c₅ c₆ c₇ c₈ c₉ c₁₀ c₁₁ : S128x1.Idx → EReal) (π : S250000x3.Idx → EReal)
    (h₀ : (W (Proc.devRef .tc main_v60) : S128x1.Idx → EReal) = c₀)
    (h₁ : (W (Proc.devRef .tc main_v61) : S128x1.Idx → EReal) = c₁)
    (h₂ : (W (Proc.devRef .tc main_v62) : S128x1.Idx → EReal) = c₂)
    (h₃ : (W (Proc.devRef .tc main_v63) : S128x1.Idx → EReal) = c₃)
    (h₄ : (W (Proc.devRef .tc main_v64) : S128x1.Idx → EReal) = c₄)
    (h₅ : (W (Proc.devRef .tc main_v65) : S128x1.Idx → EReal) = c₅)
    (h₆ : (W (Proc.devRef .tc main_v66) : S128x1.Idx → EReal) = c₆)
    (h₇ : (W (Proc.devRef .tc main_v67) : S128x1.Idx → EReal) = c₇)
    (h₈ : (W (Proc.devRef .tc main_v68) : S128x1.Idx → EReal) = c₈)
    (h₉ : (W (Proc.devRef .tc main_v69) : S128x1.Idx → EReal) = c₉)
    (h₁₀ : (W (Proc.devRef .tc main_v70) : S128x1.Idx → EReal) = c₁₀)
    (h₁₁ : (W (Proc.devRef .tc main_v71) : S128x1.Idx → EReal) = c₁₁)
    (hπ : (W (Proc.devRef .tc main_arg3) : S250000x3.Idx → EReal) = π) :
    (StableHlo.after opsTable W (Proc.devRef .tc main_v72) : S128x12.Idx → EReal)
        = concatenate S128x12 1
            [⟨S128x1, c₀⟩, ⟨S128x1, c₁⟩, ⟨S128x1, c₂⟩, ⟨S128x1, c₃⟩, ⟨S128x1, c₄⟩, ⟨S128x1, c₅⟩,
             ⟨S128x1, c₆⟩, ⟨S128x1, c₇⟩, ⟨S128x1, c₈⟩, ⟨S128x1, c₉⟩, ⟨S128x1, c₁₀⟩, ⟨S128x1, c₁₁⟩]
            concatenates_S128x1_S128x1_S128x1_S128x1_S128x1_S128x1_S128x1_S128x1_S128x1_S128x1_S128x1_S128x1_S128x12_d1
    ∧ (StableHlo.after opsTable W (Proc.devRef .tc main_v73) : S3x250000.Idx → EReal)
        = transpose S3x250000 [1, 0] π transposes_S250000x3_S3x250000_1_0 := by
  subst h₀ h₁ h₂ h₃ h₄ h₅ h₆ h₇ h₈ h₉ h₁₀ h₁₁ hπ
  refine ⟨?_, ?_⟩ <;> sl_kernel_rfl

end Stretches

/-! ## The two operands of the region -/

/-- The coefficient table the region's first window reads. -/
theorem coef_eq (c : Dev nD) :
    (VH m c (Proc.devRef .tc main_v72) : S128x12.Idx → EReal)
      = Cert.Spec.tabArr (m ((c.tc : Thread nD τ).loc main_arg0)) (m ((c.tc : Thread nD τ).loc main_arg1))
          (m ((c.tc : Thread nD τ).loc main_arg2)) := by
  obtain ⟨a1, a3, a5, f1, t1, -⟩ := angles (fun b => m (c, b)) _ rfl
  obtain ⟨r12, r14, r9, r18, r22, r24, r28, r32, r33, f2, t2, -⟩ := rot _ _ _ _ a1 a3 a5
  obtain ⟨s42, s45, s48, s51, s53, s55, s57, s59, s39, k28, k32, k33, -⟩ :=
    scale _ _ _ _ _ _ _ _ _ (f2.trans f1) (t2.trans t1) r12 r14 r9 r18 r22 r24
  obtain ⟨c60, c61, c62, c63, c64, c65, c66, c67, c68, c69, c70, c71, -⟩ :=
    cols _ _ _ _ _ _ _ _ _ _ _ _ _ s42 s45 s48 s51 s53 s55 s57 s59 (k28.trans r28) (k32.trans r32) (k33.trans r33)
      s39
  obtain ⟨h72, -⟩ := table _ _ _ _ _ _ _ _ _ _ _ _ _ _ c60 c61 c62 c63 c64 c65 c66 c67 c68 c69 c70 c71 rfl
  show StableHlo.after hostOps0 (fun b => m (c, b)) (Proc.devRef .tc main_v72) = _
  rw [after_stretches, h72]
  funext j
  obtain ⟨v, k, rfl⟩ : ∃ (v : Fin 128) (k : Fin 12), j = ix2 v k := ⟨j 0, j 1, eq_ix2 j⟩
  exact table_read (fun k => vec fun v => Cert.Spec.tab (m ((c.tc : Thread nD τ).loc main_arg0))
    (m ((c.tc : Thread nD τ).loc main_arg1)) (m ((c.tc : Thread nD τ).loc main_arg2)) v k) _ v k

/-- The points as the region's second window reads them: transposed. -/
theorem pts_eq (c : Dev nD) (j : Fin 3) (n : Fin 250000) :
    (VH m c (Proc.devRef .tc main_v73) : S3x250000.Idx → EReal) (ix2 j n)
      = (m ((c.tc : Thread nD τ).loc main_arg3) : S250000x3.Idx → EReal) (ix2 n j) := by
  obtain ⟨-, -, -, -, -, p1⟩ := angles (fun b => m (c, b)) _ rfl
  obtain ⟨-, -, -, -, -, -, -, -, -, -, -, p2⟩ := rot (StableHlo.after opsAngles fun b => m (c, b)) _ _ _ rfl rfl rfl
  obtain ⟨-, -, -, -, -, -, -, -, -, -, -, -, p3⟩ :=
    scale (StableHlo.after opsRot (StableHlo.after opsAngles fun b => m (c, b))) _ _ _ _ _ _ _ _
      rfl rfl rfl rfl rfl rfl rfl rfl
  obtain ⟨-, -, -, -, -, -, -, -, -, -, -, -, p4⟩ :=
    cols (StableHlo.after opsScale (StableHlo.after opsRot (StableHlo.after opsAngles fun b => m (c, b))))
      _ _ _ _ _ _ _ _ _ _ _ _ rfl rfl rfl rfl rfl rfl rfl rfl rfl rfl rfl rfl
  obtain ⟨-, h73⟩ := table _ _ _ _ _ _ _ _ _ _ _ _ _ _ rfl rfl rfl rfl rfl rfl rfl rfl rfl rfl rfl rfl
    (((p4.trans p3).trans p2).trans p1)
  show StableHlo.after hostOps0 (fun b => m (c, b)) (Proc.devRef .tc main_v73) (ix2 j n) = _
  rw [after_stretches, h73]
  exact transpose_apply [1, 0] _ transposes_S250000x3_S3x250000_1_0 (ix2 j n) (ix2 n j)
    (fun b => match b with | ⟨0, _⟩ => rfl | ⟨1, _⟩ => rfl)

end Cert.KernelIdeal.HostK

end
-- ==== Proof.KValue.lean ====
/-
  The kernel's two results after the whole run, on the extended reals.  Each of the three windowed results is
  written back block by block: point t writes lanes 4096·t … 4096·t + 4095 of every row (at the last point only
  the 144 lanes inside the array), and what it writes at row r, lane q is the body's value of the coefficient
  table's row r and the points' lane 4096·t + q.  The 62 blocks cover the 250000 lanes, so each array ends as one
  function of the table and the points.  The host then sets u and v side by side on a new last axis.  With the
  table and the transposed points read back to the four arguments, these are the specification's uvK and zKArr.
-/
import proofs.«421993_j6313601925252_3_alg».proof.Proof.KFrame
import proofs.«421993_j6313601925252_3_alg».proof.Proof.HostK
import proofs.«421993_j6313601925252_3_alg».proof.Proof.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Pay Cert.KernelIdeal.Fr

variable (m : (ℓ : Loc nD τ sig) → Buf (Elt Ideal) ℓ)

/-! ## The three result arrays as functions of the table and the transposed points -/

/-- The u array from a table T (128 × 12) and points P (3 × 250000, rows X, Y, Z): at (view, point) the first affine form
    times the reciprocal of the third, plus 512. -/
def arrU (T : S128x12.Idx → EReal) (P : S3x250000.Idx → EReal) : S128x250000.Idx → EReal := fun i =>
  Cert.Spec.lin (fun k => T (ix2 (i 0) k)) 0 1 2 3 (P (ix2 0 (i 1))) (P (ix2 1 (i 1))) (P (ix2 2 (i 1)))
      * Ideal.div Cert.Spec.c1 (Cert.Spec.lin (fun k => T (ix2 (i 0) k)) 8 9 10 11 (P (ix2 0 (i 1))) (P (ix2 1 (i 1))) (P (ix2 2 (i 1))))
    + Cert.Spec.c512
/-- The v array: the second affine form times the same reciprocal, plus 512. -/
def arrV (T : S128x12.Idx → EReal) (P : S3x250000.Idx → EReal) : S128x250000.Idx → EReal := fun i =>
  Cert.Spec.lin (fun k => T (ix2 (i 0) k)) 4 5 6 7 (P (ix2 0 (i 1))) (P (ix2 1 (i 1))) (P (ix2 2 (i 1)))
      * Ideal.div Cert.Spec.c1 (Cert.Spec.lin (fun k => T (ix2 (i 0) k)) 8 9 10 11 (P (ix2 0 (i 1))) (P (ix2 1 (i 1))) (P (ix2 2 (i 1))))
    + Cert.Spec.c512
/-- The depth array: the third affine form. -/
def arrZ (T : S128x12.Idx → EReal) (P : S3x250000.Idx → EReal) : S128x250000.Idx → EReal := fun i =>
  Cert.Spec.lin (fun k => T (ix2 (i 0) k)) 8 9 10 11 (P (ix2 0 (i 1))) (P (ix2 1 (i 1))) (P (ix2 2 (i 1)))

/-! ## Where the blocks sit -/

/-- The table's block is always block (0, 0); the four moving windows' block at point t is block (0, t). -/
theorem at0 : ∀ t : Fin grid0.N, win0_0.index t 0 = 0 ∧ win0_0.index t 1 = 0 := by decide +kernel
theorem at1 : ∀ t : Fin grid0.N, win0_1.index t 0 = 0 ∧ win0_1.index t 1 = t.val := by decide +kernel
theorem at2 : ∀ t : Fin grid0.N, win0_2.index t 0 = 0 ∧ win0_2.index t 1 = t.val := by decide +kernel
theorem at3 : ∀ t : Fin grid0.N, win0_3.index t 0 = 0 ∧ win0_3.index t 1 = t.val := by decide +kernel
theorem at4 : ∀ t : Fin grid0.N, win0_4.index t 0 = 0 ∧ win0_4.index t 1 = t.val := by decide +kernel

/-- What a transfer of a moving window carries: every row, and 4096 lanes, but at the last point the 144 lanes left. -/
theorem ext1 : ∀ t : Fin grid0.N, win0_1.xsize (grid0.coords t) 1 = if t.val = 61 then 144 else 4096 := by decide +kernel
theorem ext2 : ∀ t : Fin grid0.N, win0_2.xsize (grid0.coords t) 0 = 128 ∧ win0_2.xsize (grid0.coords t) 1 = if t.val = 61 then 144 else 4096 := by decide +kernel
theorem ext3 : ∀ t : Fin grid0.N, win0_3.xsize (grid0.coords t) 0 = 128 ∧ win0_3.xsize (grid0.coords t) 1 = if t.val = 61 then 144 else 4096 := by decide +kernel
theorem ext4 : ∀ t : Fin grid0.N, win0_4.xsize (grid0.coords t) 0 = 128 ∧ win0_4.xsize (grid0.coords t) 1 = if t.val = 61 then 144 else 4096 := by decide +kernel

/-! ## The two loaded blocks, read off their arrays -/

/-- The coefficient block is the table. -/
theorem coef_read (c : Dev nD) (t : Fin cfg0.N) (r : Fin 128) (k : Fin 12) :
    coefB (F := Ideal) m c t (ix2 r k) = V m c main_v72 (ix2 r k) := by
  show V m c main_v72 (((cfg0.win 0).blk t).view.emb (ix2 r k)) = V m c main_v72 (ix2 r k)
  refine congrArg _ ?_
  funext a; apply Fin.ext
  obtain ⟨e0, e1⟩ := at0 t
  match a with
  | ⟨0, _⟩ => show win0_0.index t (0 : Fin 2) * 128 + 1 * r.val = r.val; omega
  | ⟨1, _⟩ => show win0_0.index t (1 : Fin 2) * 12 + 1 * k.val = k.val; omega

/-- Lane q of the points block at point t, when it lies inside the array, is lane 4096·t + q of the transposed points. -/
theorem pts_read (c : Dev nD) (t : Fin cfg0.N) (j : Fin 3) (q : Fin 4096) (hq : q.val < win0_1.xsize (grid0.coords t) 1)
    (n : Fin 250000) (hn : n.val = 4096 * t.val + q.val) :
    ptsB (F := Ideal) m c t (ix2 j q) = V m c main_v73 (ix2 j n) := by
  have hm : win0_1.moved (grid0.coords t) (ix2 j q) = true :=
    (win0_1.moved_iff _ _).mpr fun a => match a with
      | ⟨0, _⟩ => (show j.val < 3 from j.isLt)
      | ⟨1, _⟩ => hq
  unfold ptsB Window.fill
  rw [dif_pos hm]
  show V m c main_v73 (((cfg0.win 1).blk t).view.emb _) = _
  refine congrArg _ ?_
  funext a; apply Fin.ext
  obtain ⟨e0, e1⟩ := at1 t
  match a with
  | ⟨0, _⟩ => show win0_1.index t (0 : Fin 2) * 3 + 1 * j.val = j.val; omega
  | ⟨1, _⟩ => show win0_1.index t (1 : Fin 2) * 4096 + 1 * q.val = n.val; omega

/-! ## What one point writes back -/

/-- The three stored values at row r, lane q of point t's blocks, for a lane inside the array, are the three arrays'
    values at row r, lane 4096·t + q. -/
theorem pointU (c : Dev nD) (t : Fin cfg0.N) (r : Fin 128) (q : Fin 4096) (hq : q.val < win0_1.xsize (grid0.coords t) 1)
    (i : S128x250000.Idx) (h0 : (i 0).val = r.val) (h1 : (i 1).val = 4096 * t.val + q.val) :
    outU (F := Ideal) (coefB m c t) (ptsB m c t) (ix2 r q) = arrU (V m c main_v72) (V m c main_v73) i := by
  refine (outU_ideal (coefB m c t) (ptsB m c t) r q).trans ?_
  have er : r = i 0 := Fin.ext h0.symm
  have eT : (fun k => coefB (F := Ideal) m c t (ix2 r k)) = fun k => V m c main_v72 (ix2 (i 0) k) := by
    funext k; rw [coef_read, er]
  rw [eT, pts_read m c t 0 q hq (i 1) h1, pts_read m c t 1 q hq (i 1) h1, pts_read m c t 2 q hq (i 1) h1]
  rfl
theorem pointV (c : Dev nD) (t : Fin cfg0.N) (r : Fin 128) (q : Fin 4096) (hq : q.val < win0_1.xsize (grid0.coords t) 1)
    (i : S128x250000.Idx) (h0 : (i 0).val = r.val) (h1 : (i 1).val = 4096 * t.val + q.val) :
    outV (F := Ideal) (coefB m c t) (ptsB m c t) (ix2 r q) = arrV (V m c main_v72) (V m c main_v73) i := by
  refine (outV_ideal (coefB m c t) (ptsB m c t) r q).trans ?_
  have er : r = i 0 := Fin.ext h0.symm
  have eT : (fun k => coefB (F := Ideal) m c t (ix2 r k)) = fun k => V m c main_v72 (ix2 (i 0) k) := by
    funext k; rw [coef_read, er]
  rw [eT, pts_read m c t 0 q hq (i 1) h1, pts_read m c t 1 q hq (i 1) h1, pts_read m c t 2 q hq (i 1) h1]
  rfl
theorem pointZ (c : Dev nD) (t : Fin cfg0.N) (r : Fin 128) (q : Fin 4096) (hq : q.val < win0_1.xsize (grid0.coords t) 1)
    (i : S128x250000.Idx) (h0 : (i 0).val = r.val) (h1 : (i 1).val = 4096 * t.val + q.val) :
    outZ (F := Ideal) (coefB m c t) (ptsB m c t) (ix2 r q) = arrZ (V m c main_v72) (V m c main_v73) i := by
  refine (outZ_ideal (coefB m c t) (ptsB m c t) r q).trans ?_
  have er : r = i 0 := Fin.ext h0.symm
  have eT : (fun k => coefB (F := Ideal) m c t (ix2 r k)) = fun k => V m c main_v72 (ix2 (i 0) k) := by
    funext k; rw [coef_read, er]
  rw [eT, pts_read m c t 0 q hq (i 1) h1, pts_read m c t 1 q hq (i 1) h1, pts_read m c t 2 q hq (i 1) h1]
  rfl

/-- So what point t writes back of each result is its block of the whole array. -/
theorem flushedU (c : Dev nD) (t : Fin cfg0.N) :
    (dats (F := Ideal) m 0 c).flushed 2 t
      = ((cfg0.win 2).blk t).view.read (Elt Ideal) (arrU (V m c main_v72) (V m c main_v73)) := by
  show (cfg0.win 2).cut (grid0.coords t) ((dats m 0 c).after 2 t) = _
  rw [after_2]
  funext y
  show outU (F := Ideal) _ _ (win0_2.xinj _ y) = arrU _ _ (((cfg0.win 2).blk t).view.emb y)
  rw [eq_ix2 (win0_2.xinj (grid0.coords t) y)]
  obtain ⟨e0, e1⟩ := at2 t
  have hy : (y 1).val < win0_2.xsize (grid0.coords t) 1 := (y 1).isLt
  refine pointU m c t _ _ (by rw [ext1 t]; rw [(ext2 t).2] at hy; exact hy) _ ?_ ?_
  · show win0_2.index t (0 : Fin 2) * 128 + 1 * (y 0).val = (y 0).val; omega
  · show win0_2.index t (1 : Fin 2) * 4096 + 1 * (y 1).val = 4096 * t.val + (y 1).val; omega
theorem flushedV (c : Dev nD) (t : Fin cfg0.N) :
    (dats (F := Ideal) m 0 c).flushed 3 t
      = ((cfg0.win 3).blk t).view.read (Elt Ideal) (arrV (V m c main_v72) (V m c main_v73)) := by
  show (cfg0.win 3).cut (grid0.coords t) ((dats m 0 c).after 3 t) = _
  rw [after_3]
  funext y
  show outV (F := Ideal) _ _ (win0_3.xinj _ y) = arrV _ _ (((cfg0.win 3).blk t).view.emb y)
  rw [eq_ix2 (win0_3.xinj (grid0.coords t) y)]
  obtain ⟨e0, e1⟩ := at3 t
  have hy : (y 1).val < win0_3.xsize (grid0.coords t) 1 := (y 1).isLt
  refine pointV m c t _ _ (by rw [ext1 t]; rw [(ext3 t).2] at hy; exact hy) _ ?_ ?_
  · show win0_3.index t (0 : Fin 2) * 128 + 1 * (y 0).val = (y 0).val; omega
  · show win0_3.index t (1 : Fin 2) * 4096 + 1 * (y 1).val = 4096 * t.val + (y 1).val; omega
theorem flushedZ (c : Dev nD) (t : Fin cfg0.N) :
    (dats (F := Ideal) m 0 c).flushed 4 t
      = ((cfg0.win 4).blk t).view.read (Elt Ideal) (arrZ (V m c main_v72) (V m c main_v73)) := by
  show (cfg0.win 4).cut (grid0.coords t) ((dats m 0 c).after 4 t) = _
  rw [after_4]
  funext y
  show outZ (F := Ideal) _ _ (win0_4.xinj _ y) = arrZ _ _ (((cfg0.win 4).blk t).view.emb y)
  rw [eq_ix2 (win0_4.xinj (grid0.coords t) y)]
  obtain ⟨e0, e1⟩ := at4 t
  have hy : (y 1).val < win0_4.xsize (grid0.coords t) 1 := (y 1).isLt
  refine pointZ m c t _ _ (by rw [ext1 t]; rw [(ext4 t).2] at hy; exact hy) _ ?_ ?_
  · show win0_4.index t (0 : Fin 2) * 128 + 1 * (y 0).val = (y 0).val; omega
  · show win0_4.index t (1 : Fin 2) * 4096 + 1 * (y 1).val = 4096 * t.val + (y 1).val; omega

/-! ## The blocks cover the arrays -/

/-- Lane n lies in the block of point n / 4096: the last block has the 144 lanes from 249856 on. -/
theorem lane_in (n ix xs : Nat) (hn : n < 250000) (hix : ix = n / 4096) (hxs : xs = if n / 4096 = 61 then 144 else 4096) :
    ix * 4096 ≤ n ∧ n < ix * 4096 + xs := by
  subst hix hxs
  split <;> omega

/-- An index of a result array is in point t's block when each coordinate is in the block's range inside the array. -/
theorem mem_blkU (t : Fin cfg0.N) (i : S128x250000.Idx) :
    i ∈ ((cfg0.win 2).blk t).view.set
      ↔ ∀ a : Fin 2, win0_2.index t a * S128x4096.size a ≤ (i a).val
          ∧ (i a).val < win0_2.index t a * S128x4096.size a + win0_2.xsize (grid0.coords t) a := by
  show i ∈ ((View.whole main_v74_0).slice (win0_2.rect t)).set ↔ _
  rw [View.set_slice_whole, Rect.mem_set_unit]
  exact Iff.rfl

theorem coverU (i : S128x250000.Idx) :
    ∃ t : Fin cfg0.N, (cfg0.win 2).flush t = true ∧ i ∈ ((cfg0.win 2).blk t).view.set := by
  have h0 : (i 0).val < 128 := (i 0).isLt
  have h1 : (i 1).val < 250000 := (i 1).isLt
  have hN : (i 1).val / 4096 < grid0.N := by rw [N_0]; omega
  refine ⟨⟨(i 1).val / 4096, hN⟩, flush0_2 _, ?_⟩
  rw [mem_blkU]
  obtain ⟨e0, e1⟩ := at2 ⟨(i 1).val / 4096, hN⟩
  obtain ⟨x0, x1⟩ := ext2 ⟨(i 1).val / 4096, hN⟩
  intro a
  match a with
  | ⟨0, _⟩ =>
    show win0_2.index ⟨(i 1).val / 4096, hN⟩ (0 : Fin 2) * 128 ≤ (i 0).val
      ∧ (i 0).val < win0_2.index ⟨(i 1).val / 4096, hN⟩ (0 : Fin 2) * 128 + win0_2.xsize (grid0.coords ⟨(i 1).val / 4096, hN⟩) (0 : Fin 2)
    rw [e0, x0]; omega
  | ⟨1, _⟩ =>
    show win0_2.index ⟨(i 1).val / 4096, hN⟩ (1 : Fin 2) * 4096 ≤ (i 1).val
      ∧ (i 1).val < win0_2.index ⟨(i 1).val / 4096, hN⟩ (1 : Fin 2) * 4096 + win0_2.xsize (grid0.coords ⟨(i 1).val / 4096, hN⟩) (1 : Fin 2)
    exact lane_in _ _ _ h1 e1 x1

/-- The u array after the run. -/
theorem finalU (c : Dev nD) : (dats (F := Ideal) m 0 c).arrAt 2 cfg0.N = arrU (V m c main_v72) (V m c main_v73) :=
  (dats (F := Ideal) m 0 c).arrAt_eq_of_cover 2 (arrU (V m c main_v72) (V m c main_v73)) (fun t _ => flushedU m c t) coverU
theorem mem_blkV (t : Fin cfg0.N) (i : S128x250000.Idx) :
    i ∈ ((cfg0.win 3).blk t).view.set
      ↔ ∀ a : Fin 2, win0_3.index t a * S128x4096.size a ≤ (i a).val
          ∧ (i a).val < win0_3.index t a * S128x4096.size a + win0_3.xsize (grid0.coords t) a := by
  show i ∈ ((View.whole main_v74_1).slice (win0_3.rect t)).set ↔ _
  rw [View.set_slice_whole, Rect.mem_set_unit]
  exact Iff.rfl

theorem coverV (i : S128x250000.Idx) :
    ∃ t : Fin cfg0.N, (cfg0.win 3).flush t = true ∧ i ∈ ((cfg0.win 3).blk t).view.set := by
  have h0 : (i 0).val < 128 := (i 0).isLt
  have h1 : (i 1).val < 250000 := (i 1).isLt
  have hN : (i 1).val / 4096 < grid0.N := by rw [N_0]; omega
  refine ⟨⟨(i 1).val / 4096, hN⟩, flush0_3 _, ?_⟩
  rw [mem_blkV]
  obtain ⟨e0, e1⟩ := at3 ⟨(i 1).val / 4096, hN⟩
  obtain ⟨x0, x1⟩ := ext3 ⟨(i 1).val / 4096, hN⟩
  intro a
  match a with
  | ⟨0, _⟩ =>
    show win0_3.index ⟨(i 1).val / 4096, hN⟩ (0 : Fin 2) * 128 ≤ (i 0).val
      ∧ (i 0).val < win0_3.index ⟨(i 1).val / 4096, hN⟩ (0 : Fin 2) * 128 + win0_3.xsize (grid0.coords ⟨(i 1).val / 4096, hN⟩) (0 : Fin 2)
    rw [e0, x0]; omega
  | ⟨1, _⟩ =>
    show win0_3.index ⟨(i 1).val / 4096, hN⟩ (1 : Fin 2) * 4096 ≤ (i 1).val
      ∧ (i 1).val < win0_3.index ⟨(i 1).val / 4096, hN⟩ (1 : Fin 2) * 4096 + win0_3.xsize (grid0.coords ⟨(i 1).val / 4096, hN⟩) (1 : Fin 2)
    exact lane_in _ _ _ h1 e1 x1

/-- The v array after the run. -/
theorem finalV (c : Dev nD) : (dats (F := Ideal) m 0 c).arrAt 3 cfg0.N = arrV (V m c main_v72) (V m c main_v73) :=
  (dats (F := Ideal) m 0 c).arrAt_eq_of_cover 3 (arrV (V m c main_v72) (V m c main_v73)) (fun t _ => flushedV m c t) coverV
theorem mem_blkZ (t : Fin cfg0.N) (i : S128x250000.Idx) :
    i ∈ ((cfg0.win 4).blk t).view.set
      ↔ ∀ a : Fin 2, win0_4.index t a * S128x4096.size a ≤ (i a).val
          ∧ (i a).val < win0_4.index t a * S128x4096.size a + win0_4.xsize (grid0.coords t) a := by
  show i ∈ ((View.whole main_v74_2).slice (win0_4.rect t)).set ↔ _
  rw [View.set_slice_whole, Rect.mem_set_unit]
  exact Iff.rfl

theorem coverZ (i : S128x250000.Idx) :
    ∃ t : Fin cfg0.N, (cfg0.win 4).flush t = true ∧ i ∈ ((cfg0.win 4).blk t).view.set := by
  have h0 : (i 0).val < 128 := (i 0).isLt
  have h1 : (i 1).val < 250000 := (i 1).isLt
  have hN : (i 1).val / 4096 < grid0.N := by rw [N_0]; omega
  refine ⟨⟨(i 1).val / 4096, hN⟩, flush0_4 _, ?_⟩
  rw [mem_blkZ]
  obtain ⟨e0, e1⟩ := at4 ⟨(i 1).val / 4096, hN⟩
  obtain ⟨x0, x1⟩ := ext4 ⟨(i 1).val / 4096, hN⟩
  intro a
  match a with
  | ⟨0, _⟩ =>
    show win0_4.index ⟨(i 1).val / 4096, hN⟩ (0 : Fin 2) * 128 ≤ (i 0).val
      ∧ (i 0).val < win0_4.index ⟨(i 1).val / 4096, hN⟩ (0 : Fin 2) * 128 + win0_4.xsize (grid0.coords ⟨(i 1).val / 4096, hN⟩) (0 : Fin 2)
    rw [e0, x0]; omega
  | ⟨1, _⟩ =>
    show win0_4.index ⟨(i 1).val / 4096, hN⟩ (1 : Fin 2) * 4096 ≤ (i 1).val
      ∧ (i 1).val < win0_4.index ⟨(i 1).val / 4096, hN⟩ (1 : Fin 2) * 4096 + win0_4.xsize (grid0.coords ⟨(i 1).val / 4096, hN⟩) (1 : Fin 2)
    exact lane_in _ _ _ h1 e1 x1

/-- The depth array after the run. -/
theorem finalZ (c : Dev nD) : (dats (F := Ideal) m 0 c).arrAt 4 cfg0.N = arrZ (V m c main_v72) (V m c main_v73) :=
  (dats (F := Ideal) m 0 c).arrAt_eq_of_cover 4 (arrZ (V m c main_v72) (V m c main_v73)) (fun t _ => flushedZ m c t) coverZ

/-! ## The host's last three operations -/

/-- An array with a unit axis appended, read at (v, n, 0), is the array at (v, n). -/
theorem unit_axis_read (x : S128x250000.Idx → EReal) (v : Fin 128) (n : Fin 250000) (z : Fin 1) :
    broadcastInDim S128x250000x1 ![0, 1] bcast_S128x250000_S128x250000x1_0_1 x (ix3 v n z) = x (ix2 v n) :=
  broadcastInDim_apply _ _ x (ix3 v n z) (ix2 v n) fun a => match a with
    | ⟨0, _⟩ => rfl
    | ⟨1, _⟩ => rfl

/-- Two such arrays set side by side on the last axis: position 0 reads the first, position 1 the second. -/
theorem pair_read (x y : S128x250000.Idx → EReal) (j : S128x250000x2.Idx) :
    concatenate S128x250000x2 2
        [⟨S128x250000x1, broadcastInDim S128x250000x1 ![0, 1] bcast_S128x250000_S128x250000x1_0_1 x⟩,
         ⟨S128x250000x1, broadcastInDim S128x250000x1 ![0, 1] bcast_S128x250000_S128x250000x1_0_1 y⟩]
        concatenates_S128x250000x1_S128x250000x1_S128x250000x2_d2 j
      = if (j 2 : Nat) = 0 then x (ix2 (j 0) (j 1)) else y (ix2 (j 0) (j 1)) := by
  by_cases h : (j 2 : Nat) = 0
  · rw [if_pos h]
    refine (concatenate_pair_apply_left (t := S128x250000x2) (s₁ := S128x250000x1) (s₂ := S128x250000x1) 2
      (broadcastInDim S128x250000x1 ![0, 1] bcast_S128x250000_S128x250000x1_0_1 x)
      (broadcastInDim S128x250000x1 ![0, 1] bcast_S128x250000_S128x250000x1_0_1 y)
      concatenates_S128x250000x1_S128x250000x1_S128x250000x2_d2 j rfl (ix3 (j 0) (j 1) (0 : Fin 1)) fun b => ?_).trans
      (unit_axis_read x (j 0) (j 1) 0)
    match b with
    | ⟨0, _⟩ => rfl
    | ⟨1, _⟩ => rfl
    | ⟨2, _⟩ => exact h.symm
  · rw [if_neg h]
    have h2 : (j 2 : Nat) < 2 := (j 2).isLt
    refine (concatenate_pair_apply_right (t := S128x250000x2) (s₁ := S128x250000x1) (s₂ := S128x250000x1) 2
      (broadcastInDim S128x250000x1 ![0, 1] bcast_S128x250000_S128x250000x1_0_1 x)
      (broadcastInDim S128x250000x1 ![0, 1] bcast_S128x250000_S128x250000x1_0_1 y)
      concatenates_S128x250000x1_S128x250000x1_S128x250000x2_d2 j rfl rfl (ix3 (j 0) (j 1) (0 : Fin 1)) (fun b hb => ?_) ?_).trans
      (unit_axis_read y (j 0) (j 1) 0)
    · match b with
      | ⟨0, _⟩ => rfl
      | ⟨1, _⟩ => rfl
      | ⟨2, _⟩ => exact absurd rfl hb
    · show 0 + 1 = (j 2 : Nat); omega

/-- The interleaved pair after the run. -/
theorem tail_uv (c : Dev nD) :
    Pipeline.afterTail₀ cfgs (dats (F := Ideal) m) 0 (V0 m) [hostOps1] c main_v77
      = fun j : S128x250000x2.Idx => if (j 2 : Nat) = 0 then arrU (V m c main_v72) (V m c main_v73) (ix2 (j 0) (j 1))
          else arrV (V m c main_v72) (V m c main_v73) (ix2 (j 0) (j 1)) := by
  unfold Pipeline.afterTail₀
  show StableHlo.after hostOps1 _ (Proc.devRef .tc main_v77) = _
  after_results
  have w2 : Pipeline.withArrays (cfgs 0).spec c (V0 m c) (fun w => (dats (F := Ideal) m 0 c).arrAt w (cfgs 0).N) (Proc.devRef .tc main_v74_0)
      = arrU (V m c main_v72) (V m c main_v73) :=
    (Pipeline.withArrays_arr spec0 launch0.win.arr_inj c _ _ 2).trans (finalU m c)
  have w3 : Pipeline.withArrays (cfgs 0).spec c (V0 m c) (fun w => (dats (F := Ideal) m 0 c).arrAt w (cfgs 0).N) (Proc.devRef .tc main_v74_1)
      = arrV (V m c main_v72) (V m c main_v73) :=
    (Pipeline.withArrays_arr spec0 launch0.win.arr_inj c _ _ 3).trans (finalV m c)
  rw [w2, w3]
  funext j
  exact pair_read _ _ j

/-! ## Back to the four arguments -/

/-- With the specification's table for T, and P the points transposed, the three arrays are the specification's u, v and depth. -/
theorem arrU_spec (f : Cert.Spec.S0.Idx → EReal) (e t : Cert.Spec.SV3.Idx → EReal) (p : Cert.Spec.SN3.Idx → EReal)
    (T : S128x12.Idx → EReal) (hT : T = Cert.Spec.tabArr f e t) (P : S3x250000.Idx → EReal)
    (hP : ∀ (j : Fin 3) (n : Fin 250000), P (ix2 j n) = p (ix2 n j)) (i : S128x250000.Idx) :
    arrU T P i = Cert.Spec.uK f e t p (i 0) (i 1) := by
  subst hT
  unfold arrU Cert.Spec.uK Cert.Spec.uT Cert.Spec.numUT Cert.Spec.zT
  rw [hP 0 (i 1), hP 1 (i 1), hP 2 (i 1)]
theorem arrV_spec (f : Cert.Spec.S0.Idx → EReal) (e t : Cert.Spec.SV3.Idx → EReal) (p : Cert.Spec.SN3.Idx → EReal)
    (T : S128x12.Idx → EReal) (hT : T = Cert.Spec.tabArr f e t) (P : S3x250000.Idx → EReal)
    (hP : ∀ (j : Fin 3) (n : Fin 250000), P (ix2 j n) = p (ix2 n j)) (i : S128x250000.Idx) :
    arrV T P i = Cert.Spec.vK f e t p (i 0) (i 1) := by
  subst hT
  unfold arrV Cert.Spec.vK Cert.Spec.vT Cert.Spec.numVT Cert.Spec.zT
  rw [hP 0 (i 1), hP 1 (i 1), hP 2 (i 1)]
theorem arrZ_spec (f : Cert.Spec.S0.Idx → EReal) (e t : Cert.Spec.SV3.Idx → EReal) (p : Cert.Spec.SN3.Idx → EReal)
    (T : S128x12.Idx → EReal) (hT : T = Cert.Spec.tabArr f e t) (P : S3x250000.Idx → EReal)
    (hP : ∀ (j : Fin 3) (n : Fin 250000), P (ix2 j n) = p (ix2 n j)) (i : S128x250000.Idx) :
    arrZ T P i = Cert.Spec.zK f e t p (i 0) (i 1) := by
  subst hT
  unfold arrZ Cert.Spec.zK Cert.Spec.zT
  rw [hP 0 (i 1), hP 1 (i 1), hP 2 (i 1)]

/-- What the frame run's post says of the two result buffers: the interleaved pair is uvK and the depth array is zKArr
    of the launch contents of the four arguments. -/
theorem results (r : PUnit × MemSt nD τ sig (Elt Ideal))
    (h : Pipeline.FramePost cfgs (dats (F := Ideal) m) 0 (Pipeline.afterTail₀ cfgs (dats m) 0 (V0 m) [hostOps1]) r) (c : Dev nD) :
    r.2.mem ((c.tc : Thread nD τ).loc main_v77) = Cert.Spec.uvK (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v74_2) = Cert.Spec.zKArr (m ((c.tc : Thread nD τ).loc main_arg0)) (m ((c.tc : Thread nD τ).loc main_arg1)) (m ((c.tc : Thread nD τ).loc main_arg2)) (m ((c.tc : Thread nD τ).loc main_arg3)) := by
  have hT : (V (F := Ideal) m c main_v72 : S128x12.Idx → EReal)
      = Cert.Spec.tabArr (m ((c.tc : Thread nD τ).loc main_arg0)) (m ((c.tc : Thread nD τ).loc main_arg1)) (m ((c.tc : Thread nD τ).loc main_arg2)) :=
    HostK.coef_eq m c
  have hP : ∀ (j : Fin 3) (n : Fin 250000), (V (F := Ideal) m c main_v73 : S3x250000.Idx → EReal) (ix2 j n)
      = (m ((c.tc : Thread nD τ).loc main_arg3) : S250000x3.Idx → EReal) (ix2 n j) :=
    HostK.pts_eq m c
  constructor
  · refine ((h c).2 main_v77 (Pipeline.mem_restRefs_of main_v77 (by decide) (by decide))).trans ((tail_uv m c).trans ?_)
    funext j
    unfold Cert.Spec.uvK
    by_cases hj : (j 2 : Nat) = 0
    · rw [if_pos hj, if_pos hj]
      exact arrU_spec _ _ _ _ _ hT _ hP (ix2 (j 0) (j 1))
    · rw [if_neg hj, if_neg hj]
      exact arrV_spec _ _ _ _ _ hT _ hP (ix2 (j 0) (j 1))
  · refine ((h c).1 4).trans ((finalZ m c).trans ?_)
    funext i
    exact arrZ_spec _ _ _ _ _ hT _ hP i

end Cert.KernelIdeal.KValue

end
-- ==== Proof.RefValue.lean ====
/-
  The reference read back: its two results, as whole arrays, are the functions uvR and zRArr of the four
  arguments — three elementary rotations stacked entry by entry, two batched 3×3 products, the product with the
  points and the translation, then the two quotients by the depth, shifted by 512 and interleaved.
-/
import proofs.«421993_j6313601925252_3_alg».proof.Defs
import proofs.«421993_j6313601925252_3_alg».proof.Proof.Gen.ReferenceIdeal
import proofs.«421993_j6313601925252_3_alg».proof.Proof.RefRunP
import proofs.«421993_j6313601925252_3_alg».proof.Proof.RefReadP
import proofs.«421993_j6313601925252_3_alg».proof.Proof.Spec
import proofs.«421993_j6313601925252_3_alg».proof.Proof.KValue
import Idealize.ShloMosaic.PureOps.Ideal.Laws
import Idealize.ShloMosaic.Lib.ValueIdx
import Idealize.ShloMosaic.Lib.Pipeline.Value
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP
open scoped BigOperators

/-! ## Coordinates of extent three, and stacks of three unit pieces -/

/-- What holds at 0, 1 and 2 holds at every coordinate of an axis of extent three. -/
private theorem fin3 {P : Fin 3 → Prop} (h0 : P 0) (h1 : P 1) (h2 : P 2) : ∀ i, P i
  | ⟨0, _⟩ => h0 | ⟨1, _⟩ => h1 | ⟨2, _⟩ => h2

section Stack
variable {α : Type}

/-- Three columns joined into a 128 × 3 array: entry (v, j) is column j at row v. -/
private theorem cols_0 (y0 y1 y2 : S128x1.Idx → α) (h : Shape.Concatenates [S128x1, S128x1, S128x1] S128x3 1) (v : Fin 128) :
    concatenate S128x3 1 [⟨S128x1, y0⟩, ⟨S128x1, y1⟩, ⟨S128x1, y2⟩] h (ix2 v 0) = y0 (ix2 v 0) :=
  concatenate_apply_piece (t := S128x3) 1 [⟨S128x1, y0⟩, ⟨S128x1, y1⟩, ⟨S128x1, y2⟩] h (ix2 v 0) 0 (by simp) S128x1 y0 rfl rfl 0 rfl (ix2 v 0)
    (fun b hb => match b with | ⟨0, _⟩ => rfl | ⟨1, _⟩ => absurd rfl hb) rfl
private theorem cols_1 (y0 y1 y2 : S128x1.Idx → α) (h : Shape.Concatenates [S128x1, S128x1, S128x1] S128x3 1) (v : Fin 128) :
    concatenate S128x3 1 [⟨S128x1, y0⟩, ⟨S128x1, y1⟩, ⟨S128x1, y2⟩] h (ix2 v 1) = y1 (ix2 v 0) :=
  concatenate_apply_piece (t := S128x3) 1 [⟨S128x1, y0⟩, ⟨S128x1, y1⟩, ⟨S128x1, y2⟩] h (ix2 v 1) 1 (by simp) S128x1 y1 rfl rfl 1 rfl (ix2 v 0)
    (fun b hb => match b with | ⟨0, _⟩ => rfl | ⟨1, _⟩ => absurd rfl hb) rfl
private theorem cols_2 (y0 y1 y2 : S128x1.Idx → α) (h : Shape.Concatenates [S128x1, S128x1, S128x1] S128x3 1) (v : Fin 128) :
    concatenate S128x3 1 [⟨S128x1, y0⟩, ⟨S128x1, y1⟩, ⟨S128x1, y2⟩] h (ix2 v 2) = y2 (ix2 v 0) :=
  concatenate_apply_piece (t := S128x3) 1 [⟨S128x1, y0⟩, ⟨S128x1, y1⟩, ⟨S128x1, y2⟩] h (ix2 v 2) 2 (by simp) S128x1 y2 rfl rfl 2 rfl (ix2 v 0)
    (fun b hb => match b with | ⟨0, _⟩ => rfl | ⟨1, _⟩ => absurd rfl hb) rfl

/-- Three rows joined into a 128 × 3 × 3 array: entry (v, i, j) is row i at (v, j). -/
private theorem rows_0 (y0 y1 y2 : S128x1x3.Idx → α) (h : Shape.Concatenates [S128x1x3, S128x1x3, S128x1x3] S128x3x3 1) (v : Fin 128) (j : Fin 3) :
    concatenate S128x3x3 1 [⟨S128x1x3, y0⟩, ⟨S128x1x3, y1⟩, ⟨S128x1x3, y2⟩] h (ix3 v 0 j) = y0 (ix3 v 0 j) :=
  concatenate_apply_piece (t := S128x3x3) 1 [⟨S128x1x3, y0⟩, ⟨S128x1x3, y1⟩, ⟨S128x1x3, y2⟩] h (ix3 v 0 j) 0 (by simp) S128x1x3 y0 rfl rfl 0 rfl (ix3 v 0 j)
    (fun b hb => match b with | ⟨0, _⟩ => rfl | ⟨1, _⟩ => absurd rfl hb | ⟨2, _⟩ => rfl) rfl
private theorem rows_1 (y0 y1 y2 : S128x1x3.Idx → α) (h : Shape.Concatenates [S128x1x3, S128x1x3, S128x1x3] S128x3x3 1) (v : Fin 128) (j : Fin 3) :
    concatenate S128x3x3 1 [⟨S128x1x3, y0⟩, ⟨S128x1x3, y1⟩, ⟨S128x1x3, y2⟩] h (ix3 v 1 j) = y1 (ix3 v 0 j) :=
  concatenate_apply_piece (t := S128x3x3) 1 [⟨S128x1x3, y0⟩, ⟨S128x1x3, y1⟩, ⟨S128x1x3, y2⟩] h (ix3 v 1 j) 1 (by simp) S128x1x3 y1 rfl rfl 1 rfl (ix3 v 0 j)
    (fun b hb => match b with | ⟨0, _⟩ => rfl | ⟨1, _⟩ => absurd rfl hb | ⟨2, _⟩ => rfl) rfl
private theorem rows_2 (y0 y1 y2 : S128x1x3.Idx → α) (h : Shape.Concatenates [S128x1x3, S128x1x3, S128x1x3] S128x3x3 1) (v : Fin 128) (j : Fin 3) :
    concatenate S128x3x3 1 [⟨S128x1x3, y0⟩, ⟨S128x1x3, y1⟩, ⟨S128x1x3, y2⟩] h (ix3 v 2 j) = y2 (ix3 v 0 j) :=
  concatenate_apply_piece (t := S128x3x3) 1 [⟨S128x1x3, y0⟩, ⟨S128x1x3, y1⟩, ⟨S128x1x3, y2⟩] h (ix3 v 2 j) 2 (by simp) S128x1x3 y2 rfl rfl 2 rfl (ix3 v 0 j)
    (fun b hb => match b with | ⟨0, _⟩ => rfl | ⟨1, _⟩ => absurd rfl hb | ⟨2, _⟩ => rfl) rfl

/-- A vector over the views spread as a column: row v holds entry v. -/
private theorem col_at (y : S128.Idx → α) (v : Fin 128) :
    broadcastInDim S128x1 ![0] bcast_S128_S128x1_0 y (ix2 v 0) = y (ix1 v) :=
  broadcastInDim_apply _ bcast_S128_S128x1_0 y (ix2 v 0) (ix1 v) (fun a => match a with
    | ⟨0, _⟩ => by show v.val = if (128 : Nat) = 1 then 0 else v.val; rw [if_neg (by decide)])

/-- A 128 × 3 array given a middle axis of extent one: entry (v, 0, j) is entry (v, j). -/
private theorem row_at (y : S128x3.Idx → α) (v : Fin 128) (j : Fin 3) :
    broadcastInDim S128x1x3 ![0, 2] bcast_S128x3_S128x1x3_0_2 y (ix3 v 0 j) = y (ix2 v j) :=
  broadcastInDim_apply _ bcast_S128x3_S128x1x3_0_2 y (ix3 v 0 j) (ix2 v j) (fun a => match a with
    | ⟨0, _⟩ => by show v.val = if (128 : Nat) = 1 then 0 else v.val; rw [if_neg (by decide)]
    | ⟨1, _⟩ => by show j.val = if (3 : Nat) = 1 then 0 else j.val; rw [if_neg (by decide)])

end Stack

/-! ## The stages of the reference, bottom-up, each at an index built from its coordinates -/

section Stages
variable (f : S_.Idx → EReal) (e t : S128x3.Idx → EReal) (p : S250000x3.Idx → EReal) (v : Fin 128)

/-- The three angle vectors: entry v of the k-th is e(v, k). -/
private theorem angle0 : val_main_v1 (F := Ideal) e (ix1 v) = e (ix2 v 0) := by
  rw [val_main_v1_apply, val_main_v0_apply]
  exact congrArg e (funext fun a => match a with
    | ⟨0, _⟩ => Fin.ext (by show v.val / 1 = v.val; exact Nat.div_one _)
    | ⟨1, _⟩ => rfl)
private theorem angle1 : val_main_v3 (F := Ideal) e (ix1 v) = e (ix2 v 1) := by
  rw [val_main_v3_apply, val_main_v2_apply]
  exact congrArg e (funext fun a => match a with
    | ⟨0, _⟩ => Fin.ext (by show v.val / 1 = v.val; exact Nat.div_one _)
    | ⟨1, _⟩ => rfl)
private theorem angle2 : val_main_v5 (F := Ideal) e (ix1 v) = e (ix2 v 2) := by
  rw [val_main_v5_apply, val_main_v4_apply]
  exact congrArg e (funext fun a => match a with
    | ⟨0, _⟩ => Fin.ext (by show v.val / 1 = v.val; exact Nat.div_one _)
    | ⟨1, _⟩ => rfl)

/-- The constant vectors 0 and 1. -/
private theorem zeroV (i : S128.Idx) : val_main_v6 (F := Ideal) i = Spec.c0 := val_main_v6_apply (F := Ideal) i
private theorem oneV (i : S128.Idx) : val_main_v7 (F := Ideal) i = Spec.c1 := val_main_v7_apply (F := Ideal) i

/-- The six trigonometric vectors and the three negated sines. -/
private theorem cosA : val_main_v8 (F := Ideal) e (ix1 v) = Spec.ca e v := congrArg Ideal.cos (angle0 e v)
private theorem sinA : val_main_v9 (F := Ideal) e (ix1 v) = Spec.sa e v := congrArg Ideal.sin (angle0 e v)
private theorem cosB : val_main_v10 (F := Ideal) e (ix1 v) = Spec.cb e v := congrArg Ideal.cos (angle1 e v)
private theorem sinB : val_main_v11 (F := Ideal) e (ix1 v) = Spec.sb e v := congrArg Ideal.sin (angle1 e v)
private theorem cosC : val_main_v12 (F := Ideal) e (ix1 v) = Spec.cc e v := congrArg Ideal.cos (angle2 e v)
private theorem sinC : val_main_v13 (F := Ideal) e (ix1 v) = Spec.sc e v := congrArg Ideal.sin (angle2 e v)
private theorem negSinA : val_main_v14 (F := Ideal) e (ix1 v) = -(Spec.sa e v) := congrArg Neg.neg (sinA e v)
private theorem negSinB : val_main_v31 (F := Ideal) e (ix1 v) = -(Spec.sb e v) := congrArg Neg.neg (sinB e v)
private theorem negSinC : val_main_v48 (F := Ideal) e (ix1 v) = -(Spec.sc e v) := congrArg Neg.neg (sinC e v)

/-- The rows of the rotation about x: (1, 0, 0), (0, cos a, −sin a), (0, sin a, cos a). -/
private theorem rx_row0 : ∀ j, val_main_v18 (F := Ideal) (ix2 v j) = Spec.rx e v 0 j :=
  fin3 ((cols_0 _ _ _ _ v).trans ((col_at _ v).trans (oneV _)))
    ((cols_1 _ _ _ _ v).trans ((col_at _ v).trans (zeroV _)))
    ((cols_2 _ _ _ _ v).trans ((col_at _ v).trans (zeroV _)))

/-- Second row of the rotation about x. -/
private theorem rx_row1 : ∀ j, val_main_v22 (F := Ideal) e (ix2 v j) = Spec.rx e v 1 j :=
  fin3 ((cols_0 _ _ _ _ v).trans ((col_at _ v).trans (zeroV _)))
    ((cols_1 _ _ _ _ v).trans ((col_at _ v).trans (cosA e v)))
    ((cols_2 _ _ _ _ v).trans ((col_at _ v).trans (negSinA e v)))

/-- Third row of the rotation about x. -/
private theorem rx_row2 : ∀ j, val_main_v26 (F := Ideal) e (ix2 v j) = Spec.rx e v 2 j :=
  fin3 ((cols_0 _ _ _ _ v).trans ((col_at _ v).trans (zeroV _)))
    ((cols_1 _ _ _ _ v).trans ((col_at _ v).trans (sinA e v)))
    ((cols_2 _ _ _ _ v).trans ((col_at _ v).trans (cosA e v)))

/-- The rows of the rotation about y: (cos b, 0, sin b), (0, 1, 0), (−sin b, 0, cos b). -/
private theorem ry_row0 : ∀ j, val_main_v35 (F := Ideal) e (ix2 v j) = Spec.ry e v 0 j :=
  fin3 ((cols_0 _ _ _ _ v).trans ((col_at _ v).trans (cosB e v)))
    ((cols_1 _ _ _ _ v).trans ((col_at _ v).trans (zeroV _)))
    ((cols_2 _ _ _ _ v).trans ((col_at _ v).trans (sinB e v)))

/-- Second row of the rotation about y. -/
private theorem ry_row1 : ∀ j, val_main_v39 (F := Ideal) (ix2 v j) = Spec.ry e v 1 j :=
  fin3 ((cols_0 _ _ _ _ v).trans ((col_at _ v).trans (zeroV _)))
    ((cols_1 _ _ _ _ v).trans ((col_at _ v).trans (oneV _)))
    ((cols_2 _ _ _ _ v).trans ((col_at _ v).trans (zeroV _)))

/-- Third row of the rotation about y. -/
private theorem ry_row2 : ∀ j, val_main_v43 (F := Ideal) e (ix2 v j) = Spec.ry e v 2 j :=
  fin3 ((cols_0 _ _ _ _ v).trans ((col_at _ v).trans (negSinB e v)))
    ((cols_1 _ _ _ _ v).trans ((col_at _ v).trans (zeroV _)))
    ((cols_2 _ _ _ _ v).trans ((col_at _ v).trans (cosB e v)))

/-- The rows of the rotation about z: (cos c, −sin c, 0), (sin c, cos c, 0), (0, 0, 1). -/
private theorem rz_row0 : ∀ j, val_main_v52 (F := Ideal) e (ix2 v j) = Spec.rz e v 0 j :=
  fin3 ((cols_0 _ _ _ _ v).trans ((col_at _ v).trans (cosC e v)))
    ((cols_1 _ _ _ _ v).trans ((col_at _ v).trans (negSinC e v)))
    ((cols_2 _ _ _ _ v).trans ((col_at _ v).trans (zeroV _)))

/-- Second row of the rotation about z. -/
private theorem rz_row1 : ∀ j, val_main_v56 (F := Ideal) e (ix2 v j) = Spec.rz e v 1 j :=
  fin3 ((cols_0 _ _ _ _ v).trans ((col_at _ v).trans (sinC e v)))
    ((cols_1 _ _ _ _ v).trans ((col_at _ v).trans (cosC e v)))
    ((cols_2 _ _ _ _ v).trans ((col_at _ v).trans (zeroV _)))

/-- Third row of the rotation about z. -/
private theorem rz_row2 : ∀ j, val_main_v60 (F := Ideal) (ix2 v j) = Spec.rz e v 2 j :=
  fin3 ((cols_0 _ _ _ _ v).trans ((col_at _ v).trans (zeroV _)))
    ((cols_1 _ _ _ _ v).trans ((col_at _ v).trans (zeroV _)))
    ((cols_2 _ _ _ _ v).trans ((col_at _ v).trans (oneV _)))

/-- The three rows stacked: the rotation about x, entry by entry. -/
private theorem rx_at : ∀ i j, val_main_v30 (F := Ideal) e (ix3 v i j) = Spec.rx e v i j :=
  fin3 (fun j => (rows_0 _ _ _ _ v j).trans ((row_at _ v j).trans (rx_row0 e v j)))
    (fun j => (rows_1 _ _ _ _ v j).trans ((row_at _ v j).trans (rx_row1 e v j)))
    (fun j => (rows_2 _ _ _ _ v j).trans ((row_at _ v j).trans (rx_row2 e v j)))

/-- The rotation about y, entry by entry. -/
private theorem ry_at : ∀ i j, val_main_v47 (F := Ideal) e (ix3 v i j) = Spec.ry e v i j :=
  fin3 (fun j => (rows_0 _ _ _ _ v j).trans ((row_at _ v j).trans (ry_row0 e v j)))
    (fun j => (rows_1 _ _ _ _ v j).trans ((row_at _ v j).trans (ry_row1 e v j)))
    (fun j => (rows_2 _ _ _ _ v j).trans ((row_at _ v j).trans (ry_row2 e v j)))

/-- The rotation about z, entry by entry. -/
private theorem rz_at : ∀ i j, val_main_v64 (F := Ideal) e (ix3 v i j) = Spec.rz e v i j :=
  fin3 (fun j => (rows_0 _ _ _ _ v j).trans ((row_at _ v j).trans (rz_row0 e v j)))
    (fun j => (rows_1 _ _ _ _ v j).trans ((row_at _ v j).trans (rz_row1 e v j)))
    (fun j => (rows_2 _ _ _ _ v j).trans ((row_at _ v j).trans (rz_row2 e v j)))

/-- The first batched product: entry (i, j) of Rx·Ry is the three-term sum over the middle index. -/
private theorem rxy_at (i j : Fin 3) : val_main_v65 (F := Ideal) e (ix3 v i j) = Spec.rxy e v i j :=
  (val_main_v65_apply e (ix3 v i j)).trans (Finset.sum_congr rfl fun k _ => congrArg₂ (· * ·)
    ((congrArg (val_main_v30 (F := Ideal) e) (show lidx_main_v65 (ix3 v i j) k = ix3 v i k from funext fun a => match a with | ⟨0, _⟩ => rfl | ⟨1, _⟩ => rfl | ⟨2, _⟩ => rfl)).trans (rx_at e v i k))
    ((congrArg (val_main_v47 (F := Ideal) e) (show ridx_main_v65 (ix3 v i j) k = ix3 v k j from funext fun a => match a with | ⟨0, _⟩ => rfl | ⟨1, _⟩ => rfl | ⟨2, _⟩ => rfl)).trans (ry_at e v k j)))

/-- The second batched product: entry (i, j) of (Rx·Ry)·Rz. -/
private theorem rR_at (i j : Fin 3) : val_main_v66 (F := Ideal) e (ix3 v i j) = Spec.rR e v i j :=
  (val_main_v66_apply e (ix3 v i j)).trans (Finset.sum_congr rfl fun k _ => congrArg₂ (· * ·)
    ((congrArg (val_main_v65 (F := Ideal) e) (show lidx_main_v66 (ix3 v i j) k = ix3 v i k from funext fun a => match a with | ⟨0, _⟩ => rfl | ⟨1, _⟩ => rfl | ⟨2, _⟩ => rfl)).trans (rxy_at e v i k))
    ((congrArg (val_main_v64 (F := Ideal) e) (show ridx_main_v66 (ix3 v i j) k = ix3 v k j from funext fun a => match a with | ⟨0, _⟩ => rfl | ⟨1, _⟩ => rfl | ⟨2, _⟩ => rfl)).trans (rz_at e v k j)))

/-- The product with the points, the points on the left: at (point n, view v, row i) the sum over j of p(n, j)·R(v, i, j). -/
private theorem rot_at (n : Fin 250000) (i : Fin 3) :
    val_main_v67 (F := Ideal) e p (ix3 n v i) = ∑ j : Fin 3, p (ix2 n j) * Spec.rR e v i j :=
  (val_main_v67_apply e p (ix3 n v i)).trans (Finset.sum_congr rfl fun k _ => congrArg₂ (· * ·)
    (congrArg p (show lidx_main_v67 (ix3 n v i) k = ix2 n k from funext fun a => match a with | ⟨0, _⟩ => rfl | ⟨1, _⟩ => rfl))
    ((congrArg (val_main_v66 (F := Ideal) e) (show ridx_main_v67 (ix3 n v i) k = ix3 v i k from funext fun a => match a with | ⟨0, _⟩ => rfl | ⟨1, _⟩ => rfl | ⟨2, _⟩ => rfl)).trans (rR_at e v i k)))

/-- Views first, then the translation added: the camera-space coordinate i of point n in view v. -/
private theorem cam_at (n : Fin 250000) (i : Fin 3) :
    val_main_v71 (F := Ideal) e t p (ix3 v n i) = Spec.xcR e t p v n i :=
  congrArg₂ (· + ·)
    (((val_main_v68_apply (F := Ideal) e p (ix3 v n i)).trans
        (congrArg (val_main_v67 (F := Ideal) e p) (show idx_main_v68 (ix3 v n i) = ix3 n v i from funext fun a => match a with | ⟨0, _⟩ => rfl | ⟨1, _⟩ => rfl | ⟨2, _⟩ => rfl))).trans (rot_at e p v n i))
    (((val_main_v70_apply (F := Ideal) t (ix3 v n i)).trans
        (congrArg (val_main_v69 (F := Ideal) t) (show idx_main_v70 (ix3 v n i) = ix3 v 0 i from funext fun a => match a with | ⟨0, _⟩ => rfl | ⟨1, _⟩ => rfl | ⟨2, _⟩ => rfl))).trans
      ((val_main_v69_apply (F := Ideal) t (ix3 v 0 i)).trans (congrArg t (show idx_main_v69 (ix3 v 0 i) = ix2 v i from funext fun a => match a with | ⟨0, _⟩ => rfl | ⟨1, _⟩ => rfl))))

/-- The position (v, n) of a 128 × 250000 array among the entries of the 128 × 250000 × 1 array with the same entries. -/
private theorem flat_idx (n : Fin 250000) : idx_main_v73 (ix2 v n) = ix3 v n 0 :=
  funext fun a => match a with
    | ⟨0, _⟩ => Fin.ext (by have := n.isLt; show (v.val * 250000 + n.val) / 250000 = v.val; omega)
    | ⟨1, _⟩ => Fin.ext (by have := n.isLt; show (v.val * 250000 + n.val) / 1 % 250000 = n.val; omega)
    | ⟨2, _⟩ => rfl

/-- The three coordinate planes cut out of the camera-space array. -/
private theorem x_at (n : Fin 250000) : val_main_v73 (F := Ideal) e t p (ix2 v n) = Spec.xcR e t p v n 0 :=
  ((val_main_v73_apply (F := Ideal) e t p (ix2 v n)).trans (congrArg (val_main_v72 (F := Ideal) e t p) (flat_idx v n))).trans
    (((val_main_v72_apply (F := Ideal) e t p (ix3 v n 0)).trans
      (congrArg (val_main_v71 (F := Ideal) e t p) (show idx_main_v72 (ix3 v n 0) = ix3 v n 0 from funext fun a => match a with | ⟨0, _⟩ => rfl | ⟨1, _⟩ => rfl | ⟨2, _⟩ => rfl))).trans (cam_at e t p v n 0))
private theorem y_at (n : Fin 250000) : val_main_v75 (F := Ideal) e t p (ix2 v n) = Spec.xcR e t p v n 1 :=
  ((val_main_v75_apply (F := Ideal) e t p (ix2 v n)).trans (congrArg (val_main_v74 (F := Ideal) e t p) (flat_idx v n))).trans
    (((val_main_v74_apply (F := Ideal) e t p (ix3 v n 0)).trans
      (congrArg (val_main_v71 (F := Ideal) e t p) (show idx_main_v74 (ix3 v n 0) = ix3 v n 1 from funext fun a => match a with | ⟨0, _⟩ => rfl | ⟨1, _⟩ => rfl | ⟨2, _⟩ => rfl))).trans (cam_at e t p v n 1))
private theorem z_at (n : Fin 250000) : val_main_v77 (F := Ideal) e t p (ix2 v n) = Spec.xcR e t p v n 2 :=
  ((val_main_v77_apply (F := Ideal) e t p (ix2 v n)).trans (congrArg (val_main_v76 (F := Ideal) e t p) (flat_idx v n))).trans
    (((val_main_v76_apply (F := Ideal) e t p (ix3 v n 0)).trans
      (congrArg (val_main_v71 (F := Ideal) e t p) (show idx_main_v76 (ix3 v n 0) = ix3 v n 2 from funext fun a => match a with | ⟨0, _⟩ => rfl | ⟨1, _⟩ => rfl | ⟨2, _⟩ => rfl))).trans (cam_at e t p v n 2))

/-- The two projected coordinates: (∓f · X or Y) / Z + 512. -/
private theorem u_at (n : Fin 250000) : val_main_v83 (F := Ideal) f e t p (ix2 v n) = Spec.uR f e t p v n :=
  congrArg₂ (· + ·)
    (congrArg₂ Ideal.div (congrArg₂ (· * ·) (val_main_v79_apply (F := Ideal) f (ix2 v n)) (x_at e t p v n)) (z_at e t p v n))
    (val_main_v82_apply (F := Ideal) (ix2 v n))
private theorem v_at (n : Fin 250000) : val_main_v88 (F := Ideal) f e t p (ix2 v n) = Spec.vR f e t p v n :=
  congrArg₂ (· + ·)
    (congrArg₂ Ideal.div (congrArg₂ (· * ·) (val_main_v84_apply (F := Ideal) f (ix2 v n)) (y_at e t p v n)) (z_at e t p v n))
    (val_main_v87_apply (F := Ideal) (ix2 v n))

end Stages

/-! ## The two results as whole arrays -/

/-- The depth array is zRArr of the arguments. -/
theorem z_eq (e t : S128x3.Idx → EReal) (p : S250000x3.Idx → EReal) :
    val_main_v77 (F := Ideal) e t p = Spec.zRArr e t p := by
  funext i
  obtain ⟨v, n, rfl⟩ : ∃ (v : Fin 128) (n : Fin 250000), i = ix2 v n := ⟨i 0, i 1, eq_ix2 i⟩
  exact z_at e t p v n

/-- The interleaved array: on the last axis position 0 holds u and position 1 holds v. -/
theorem uv_eq (f : S_.Idx → EReal) (e t : S128x3.Idx → EReal) (p : S250000x3.Idx → EReal) :
    val_main_v91 (F := Ideal) f e t p = Spec.uvR f e t p := by
  funext i
  obtain ⟨v, n, w, rfl⟩ : ∃ (v : Fin 128) (n : Fin 250000) (w : Fin 2), i = ix3 v n w := ⟨i 0, i 1, i 2, eq_ix3 i⟩
  match w with
  | ⟨0, _⟩ =>
    refine ((concatenate_pair_apply_left (t := S128x250000x2) 2 (val_main_v89 (F := Ideal) f e t p) (val_main_v90 (F := Ideal) f e t p)
      concatenates_S128x250000x1_S128x250000x1_S128x250000x2_d2 (ix3 v n 0) rfl (ix3 v n 0)
      (fun b => match b with | ⟨0, _⟩ => rfl | ⟨1, _⟩ => rfl | ⟨2, _⟩ => rfl)).trans
      (((val_main_v89_apply (F := Ideal) f e t p (ix3 v n 0)).trans
        (congrArg (val_main_v83 (F := Ideal) f e t p) (show idx_main_v89 (ix3 v n 0) = ix2 v n from funext fun a => match a with | ⟨0, _⟩ => rfl | ⟨1, _⟩ => rfl))).trans (u_at f e t p v n))).trans ?_
    exact (if_pos rfl).symm
  | ⟨1, _⟩ =>
    refine ((concatenate_pair_apply_right (t := S128x250000x2) 2 (val_main_v89 (F := Ideal) f e t p) (val_main_v90 (F := Ideal) f e t p)
      concatenates_S128x250000x1_S128x250000x1_S128x250000x2_d2 (ix3 v n 1) rfl rfl (ix3 v n 0)
      (fun b hb => match b with | ⟨0, _⟩ => rfl | ⟨1, _⟩ => rfl | ⟨2, _⟩ => absurd rfl hb) rfl).trans
      (((val_main_v90_apply (F := Ideal) f e t p (ix3 v n 0)).trans
        (congrArg (val_main_v88 (F := Ideal) f e t p) (show idx_main_v90 (ix3 v n 0) = ix2 v n from funext fun a => match a with | ⟨0, _⟩ => rfl | ⟨1, _⟩ => rfl))).trans (v_at f e t p v n))).trans ?_
    exact (if_neg Nat.one_ne_zero).symm

/-- Every weakly fair execution of the reference ends with its first result at uvR and its second at zRArr of
    the launch contents of the arguments, which are unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v91)
          = Cert.Spec.uvR (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v77)
          = Cert.Spec.zRArr (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c =>
      ⟨(h c).1.trans ((val_main_v91_eq m c).trans (uv_eq _ _ _ _)),
        (h c).2.1.trans ((val_main_v77_eq m c).trans (z_eq _ _ _)),
        (h c).2.2⟩)
    (Cert.ReferenceIdeal.ValueP.run (F := Ideal) m ρ)

end Cert.ReferenceIdeal.RefValue

end
-- ==== Proof.lean ====
/-
  A bundle-adjustment reprojection: 128 views (Euler angles, translation), 250000 points, one focal length.
  The reference rotates and translates every point into every view's frame by R = Rx·Ry·Rz, built as two batched
  3 × 3 products, and returns u = -f·X/Z + 512, v = f·Y/Z + 512 and the depth Z.  The kernel tabulates per view
  the twelve numbers (-f·R₀, -f·t₀, f·R₁, f·t₁, R₂, t₂) with R in closed form, takes three affine forms of each
  point, and multiplies the first two by the reciprocal 1/Z.

  On the extended reals, with every input a real number, the tabulated coefficients are the rows of R and t scaled
  (distributivity in ℝ), so the affine forms are -f·X, f·Y and Z; and where Z ≠ 0 the product with 1/Z is the
  quotient by Z.  At Z = 0 the two sides part (0·(1/0) is 0, 0/0 is not), which is why the precondition asks that
  the reference's divisor be nonzero.

  The frames: each kernel program is host operations, one pipelined region over 62 points whose last blocks overhang
  the arrays, and host operations; the region's body is two loads, lane-wise arithmetic and three stores, and what
  is written back depends only on the lanes that were fetched.  The reference is host operations only.
-/
import proofs.«421993_j6313601925252_3_alg».proof.Defs
import proofs.«421993_j6313601925252_3_alg».proof.Proof.Gen.Kernel
import proofs.«421993_j6313601925252_3_alg».proof.Proof.Gen.KernelIdeal
import proofs.«421993_j6313601925252_3_alg».proof.Proof.Gen.ReferenceIdeal
import proofs.«421993_j6313601925252_3_alg».proof.Proof.Gen.Pre_finite_inputs
import proofs.«421993_j6313601925252_3_alg».proof.Proof.Spec
import proofs.«421993_j6313601925252_3_alg».proof.Proof.Algebra
import proofs.«421993_j6313601925252_3_alg».proof.Proof.PreFacts
import proofs.«421993_j6313601925252_3_alg».proof.Proof.KFrame
import proofs.«421993_j6313601925252_3_alg».proof.Proof.KFrameBits
import proofs.«421993_j6313601925252_3_alg».proof.Proof.KValue
import proofs.«421993_j6313601925252_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments. -/
theorem frame_kernel : Cert.frame_Kernel := fun m ρ _ => Cert.Kernel.Fr.frame (F := Bits) m ρ

/-- So does the kernel read on the extended reals. -/
theorem frame_kernelIdeal : Cert.frame_KernelIdeal := fun m ρ _ => Cert.KernelIdeal.Fr.frame (F := Ideal) m ρ

/-- The reference's frame is its run with the results dropped. -/
theorem frame_reference : Cert.frame_ReferenceIdeal := fun m ρ _ =>
  (θ_run Cert.ReferenceIdeal.defs _ _).mono (fun _ h c => (h c).2.2) (Cert.ReferenceIdeal.RefValue.run_spec m ρ)

/-- The ideal pass rewrote nothing: there is nothing to preserve. -/
theorem preserves : Cert.preserves_Kernel_KernelIdeal := trivial

/-- From memories that agree on the four arguments, both programs end with the interleaved (u, v) at uvK and the depth at
    zKArr of those arguments: the kernel by its run, the reference by its run and the law joining the two sides, which
    holds because the precondition makes every entry real and every depth nonzero. -/
theorem algebraic : Cert.algebraic_KernelIdeal_ReferenceIdeal := by
  intro m ρ m' ρ' hpre hagree
  refine ⟨fun c => Cert.Spec.uvK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Spec.zKArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Fr.run_main (F := Ideal) m ρ)
    exact ⟨(Cert.KernelIdeal.KValue.results m r h c).1, (Cert.KernelIdeal.KValue.results m r h c).2,
      ((h c).2 Cert.KernelIdeal.main_arg0 (Pipeline.mem_restRefs_of Cert.KernelIdeal.main_arg0 (by decide) (by decide))).trans
          (Cert.KernelIdeal.Fr.post_keeps m (Cert.KernelIdeal.Fr.dats m) Cert.KernelIdeal.main_arg0 (.inl rfl) c),
      ((h c).2 Cert.KernelIdeal.main_arg1 (Pipeline.mem_restRefs_of Cert.KernelIdeal.main_arg1 (by decide) (by decide))).trans
          (Cert.KernelIdeal.Fr.post_keeps m (Cert.KernelIdeal.Fr.dats m) Cert.KernelIdeal.main_arg1 (.inr (.inl rfl)) c),
      ((h c).2 Cert.KernelIdeal.main_arg2 (Pipeline.mem_restRefs_of Cert.KernelIdeal.main_arg2 (by decide) (by decide))).trans
          (Cert.KernelIdeal.Fr.post_keeps m (Cert.KernelIdeal.Fr.dats m) Cert.KernelIdeal.main_arg2 (.inr (.inr (.inl rfl))) c),
      ((h c).2 Cert.KernelIdeal.main_arg3 (Pipeline.mem_restRefs_of Cert.KernelIdeal.main_arg3 (by decide) (by decide))).trans
          (Cert.KernelIdeal.Fr.post_keeps m (Cert.KernelIdeal.Fr.dats m) Cert.KernelIdeal.main_arg3 (.inr (.inr (.inr rfl))) c)⟩
  · refine (θ_run Cert.ReferenceIdeal.defs _ _).mono (fun r h c => ?_) (Cert.ReferenceIdeal.RefValue.run_spec m' ρ')
    have hfin := Cert.PreFacts.finite_of_pre _ _ _ _ (hpre c)
    have hz := Cert.PreFacts.depth_of_pre _ _ _ _ (hpre c)
    obtain ⟨e0, e1, e2, e3⟩ := hagree c
    refine ⟨(h c).1.trans ?_, (h c).2.1.trans ?_, (h c).2.2⟩
    · rw [e0, e1, e2, e3]; exact Cert.Spec.uvR_eq_uvK _ _ _ _ hfin hz
    · rw [e1, e2, e3]; exact Cert.Spec.zRArr_eq_zKArr _ _ _ _ hfin

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
